-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v65_0)) (v1 : (c : Dev Cert.KernelIdeal.nD) → Buf (Elt Ideal) ((c.tc : Thread Cert.KernelIdeal.nD Cert.KernelIdeal.τ).loc Cert.KernelIdeal.main_v65_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65_0) = v0 c
          ∧ r.2.mem ((c.tc : Thread Cert.KernelIdeal.nD Cert.KernelIdeal.τ).loc Cert.KernelIdeal.main_v65_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024000x128 : Shape := ⟨2, ![1024000, 128]⟩
abbrev S1024000 : Shape := ⟨1, ![1024000]⟩
abbrev S102400 : Shape := ⟨1, ![102400]⟩
abbrev S10240 : Shape := ⟨1, ![10240]⟩
abbrev S128x256 : Shape := ⟨2, ![128, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S_ : Shape := ⟨0, ![]⟩

class Facts : Prop where
  bcast_S_S1024000x128 : S_.BroadcastsInDim S1024000x128 (![] : Fin 0 → Fin S1024000x128.rank)
  reducesTo_S1024000x128_S_d0_1 : S1024000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg13 : FVec F S256x47 .f32) (main_arg14 : FVec F S47 .f32) (main_arg15 : FVec F S256x47 .f32) (main_v33 : IVec S_ 1) : IVec S_ 1 :=
  let main_v34 : FVec F S256x47 .f32 := Host.absf main_arg13
  let main_cst_12 : FVec F S_ .f32 := constant S_ .f32 0x7F800000#32
  let main_v35 : FVec F S256x47 .f32 := broadcastInDim S256x47 ![] bcast_S_S256x47 main_cst_12
  let main_v36 : IVec S256x47 1 := cmpf .olt main_v34 main_v35
  let main_c_13 : IVec S_ 1 := constantI S_ 1 1#1
  let main_v37 : IVec S_ 1 := (fun x v => Host.reduce IntOp.andi x v reducesTo_S256x47_S_d0_1 h_S_) main_v36 main_c_13
  let main_v38 : IVec S_ 1 := andi main_v33 main_v37
  let main_v39 : FVec F S47 .f32 := Host.absf main_arg14
  let main_cst_14 : FVec F S_ .f32 := constant S_ .f32 0x7F800000#32
  let main_v40 : FVec F S47 .f32 := broadcastInDim S47 ![] bcast_S_S47 main_cst_14
  let main_v41 : IVec S47 1 := cmpf .olt main_v39 main_v40
  let main_c_15 : IVec S_ 1 := constantI S_ 1 1#1
  let main_v42 : IVec S_ 1 := (fun x v => Host.reduce IntOp.andi x v reducesTo_S47_S_d0 h_S_) main_v41 main_c_15
  let main_v43 : IVec S_ 1 := andi main_v38 main_v42
  let main_v44 : FVec F S256x47 .f32 := Host.absf main_arg15
  let main_cst_16 : FVec F S_ .f32 := constant S_ .f32 0x7F800000#32
  let main_v45 : FVec F S256x47 .f32 := broadcastInDim S256x47 ![] bcast_S_S256x47 main_cst_16
  let main_v46 : IVec S256x47 1 := cmpf .olt main_v44 main_v45
  let main_c_17 : IVec S_ 1 := constantI S_ 1 1#1
  let main_v47 : IVec S_ 1 := (fun x v => Host.reduce IntOp.andi x v reducesTo_S256x47_S_d0_1 h_S_) main_v46 main_c_17
  let main_v48 : IVec S_ 1 := andi main_v43 main_v47
  main_v48

def fn_part1 {F : FTy → Type} [FloatOps F] (main_arg10 : FVec F S256x256 .f32) (main_arg11 : FVec F S256 .f32) (main_arg12 : FVec F S256x256 .f32) (main_arg13 : FVec F S256x47 .f32) (main_arg14 : FVec F S47 .f32) (main_arg15 : FVec F S256x47 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x256 .f32 := Host.absf main_arg10
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg11
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg12
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg13 main_arg14 main_arg15 main_v33

def fn {F : FTy → Type} [FloatOps F] (main_arg0 : FVec F S1024000x128 .f32) (main_arg1 : IVec S1024000 32) (main_arg2 : IVec S1024000 32) (main_arg3 : IVec S102400 32) (main_arg4 : IVec S102400 32) (main_arg5 : IVec S10240 32) (main_arg6 : IVec S10240 32) (main_arg7 : FVec F S128x256 .f32) (main_arg8 : FVec F S256 .f32) (main_arg9 : FVec F S128x256 .f32) (main_arg10 : FVec F S256x256 .f32) (main_arg11 : FVec F S256 .f32) (main_arg12 : FVec F S256x256 .f32) (main_arg13 : FVec F S256x47 .f32) (main_arg14 : FVec F S47 .f32) (main_arg15 : FVec F S256x47 .f32) : IVec S_ 1 :=
  let main_v0 : FVec F S1024000x128 .f32 := Host.absf main_arg0
  let main_cst : FVec F S_ .f32 := constant S_ .f32 0x7F800000#32
  let main_v1 : FVec F S1024000x128 .f32 := broadcastInDim S1024000x128 ![] bcast_S_S1024000x128 main_cst
  let main_v2 : IVec S1024000x128 1 := cmpf .olt main_v0 main_v1
  let main_c : IVec S_ 1 := constantI S_ 1 1#1
  let main_v3 : IVec S_ 1 := (fun x v => Host.reduce IntOp.andi x v reducesTo_S1024000x128_S_d0_1 h_S_) main_v2 main_c
  let main_v4 : FVec F S128x256 .f32 := Host.absf main_arg7
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg8
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg9
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg10 main_arg11 main_arg12 main_arg13 main_arg14 main_arg15 main_v13 main_v16
-- ==== Kernel.lean ====
abbrev S1024000x128 : Shape := ⟨2, ![1024000, 128]⟩
abbrev S1024000 : Shape := ⟨1, ![1024000]⟩
abbrev S102400 : Shape := ⟨1, ![102400]⟩
abbrev S10240 : Shape := ⟨1, ![10240]⟩
abbrev S128x256 : Shape := ⟨2, ![128, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S102400x128 : Shape := ⟨2, ![102400, 128]⟩
abbrev S_ : Shape := ⟨0, ![]⟩
abbrev S1024000x1 : Shape := ⟨2, ![1024000, 1]⟩
abbrev S102400x1 : Shape := ⟨2, ![102400, 1]⟩
abbrev S1x256 : Shape := ⟨2, ![1, 256]⟩
abbrev S102400x256 : Shape := ⟨2, ![102400, 256]⟩
abbrev S2048x128 : Shape := ⟨2, ![2048, 128]⟩
abbrev S2048x256 : Shape := ⟨2, ![2048, 256]⟩
abbrev S10240x256 : Shape := ⟨2, ![10240, 256]⟩
abbrev S10240x1 : Shape := ⟨2, ![10240, 1]⟩
abbrev S1024x256 : Shape := ⟨2, ![1024, 256]⟩
abbrev S1024 : Shape := ⟨1, ![1024]⟩
abbrev S1024x1 : Shape := ⟨2, ![1024, 1]⟩
abbrev S1x47 : Shape := ⟨2, ![1, 47]⟩
abbrev S1024x47 : Shape := ⟨2, ![1024, 47]⟩

abbrev nBuf : Space → Nat
  | .hbm => 101
  | .vmem => 25
  | .smem => 0
  | _ => 0

abbrev bufTy : (tb : Table) → Fin (tcTables nBuf tb) → BufTy
  | .hbm, ⟨0, _⟩ => ⟨S1024000x128, .f32⟩
  | .hbm, ⟨1, _⟩ => ⟨S1024000, .i32⟩
  | .hbm, ⟨2, _⟩ => ⟨S1024000, .i32⟩
  | .hbm, ⟨3, _⟩ => ⟨S102400, .i32⟩
  | .hbm, ⟨4, _⟩ => ⟨S102400, .i32⟩
  | .hbm, ⟨5, _⟩ => ⟨S10240, .i32⟩
  | .hbm, ⟨6, _⟩ => ⟨S10240, .i32⟩
  | .hbm, ⟨7, _⟩ => ⟨S128x256, .f32⟩
  | .hbm, ⟨8, _⟩ => ⟨S256, .f32⟩
  | .hbm, ⟨9, _⟩ => ⟨S128x256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256x47, .f32⟩
  | .hbm, ⟨14, _⟩ => ⟨S47, .f32⟩
  | .hbm, ⟨15, _⟩ => ⟨S256x47, .f32⟩
  | .hbm, ⟨16, _⟩ => ⟨S102400x128, .f32⟩
  | .hbm, ⟨17, _⟩ => ⟨S_, .i32⟩
  | .hbm, ⟨18, _⟩ => ⟨S1024000, .i32⟩
  | .hbm, ⟨19, _⟩ => ⟨S1024000, .i1⟩
  | .hbm, ⟨20, _⟩ => ⟨S_, .i32⟩
  | .hbm, ⟨21, _⟩ => ⟨S1024000, .i32⟩
  | .hbm, ⟨22, _⟩ => ⟨S1024000, .i32⟩
  | .hbm, ⟨23, _⟩ => ⟨S1024000, .i32⟩
  | .hbm, ⟨24, _⟩ => ⟨S1024000x1, .i32⟩
  | .hbm, ⟨25, _⟩ => ⟨S1024000x128, .f32⟩
  | .hbm, ⟨26, _⟩ => ⟨S_, .f32⟩
  | .hbm, ⟨27, _⟩ => ⟨S102400x128, .f32⟩
  | .hbm, ⟨28, _⟩ => ⟨S1024000x1, .i32⟩
  | .hbm, ⟨29, _⟩ => ⟨S102400x128, .f32⟩
  | .hbm, ⟨30, _⟩ => ⟨S_, .f32⟩
  | .hbm, ⟨31, _⟩ => ⟨S1024000, .f32⟩
  | .hbm, ⟨32, _⟩ => ⟨S_, .f32⟩
  | .hbm, ⟨33, _⟩ => ⟨S102400, .f32⟩
  | .hbm, ⟨34, _⟩ => ⟨S1024000x1, .i32⟩
  | .hbm, ⟨35, _⟩ => ⟨S102400, .f32⟩
  | .hbm, ⟨36, _⟩ => ⟨S_, .f32⟩
  | .hbm, ⟨37, _⟩ => ⟨S102400, .f32⟩
  | .hbm, ⟨38, _⟩ => ⟨S102400, .f32⟩
  | .hbm, ⟨39, _⟩ => ⟨S102400x1, .f32⟩
  | .hbm, ⟨40, _⟩ => ⟨S102400x128, .f32⟩
  | .hbm, ⟨41, _⟩ => ⟨S102400x128, .f32⟩
  | .hbm, ⟨42, _⟩ => ⟨S1x256, .f32⟩
  | .hbm, ⟨43, _⟩ => ⟨S102400x256, .f32⟩
  | .hbm, ⟨44, _⟩ => ⟨S10240x256, .f32⟩
  | .hbm, ⟨45, _⟩ => ⟨S_, .i32⟩
  | .hbm, ⟨46, _⟩ => ⟨S102400, .i32⟩
  | .hbm, ⟨47, _⟩ => ⟨S102400, .i1⟩
  | .hbm, ⟨48, _⟩ => ⟨S_, .i32⟩
  | .hbm, ⟨49, _⟩ => ⟨S102400, .i32⟩
  | .hbm, ⟨50, _⟩ => ⟨S102400, .i32⟩
  | .hbm, ⟨51, _⟩ => ⟨S102400, .i32⟩
  | .hbm, ⟨52, _⟩ => ⟨S102400x1, .i32⟩
  | .hbm, ⟨53, _⟩ => ⟨S102400x256, .f32⟩
  | .hbm, ⟨54, _⟩ => ⟨S_, .f32⟩
  | .hbm, ⟨55, _⟩ => ⟨S10240x256, .f32⟩
  | .hbm, ⟨56, _⟩ => ⟨S102400x1, .i32⟩
  | .hbm, ⟨57, _⟩ => ⟨S10240x256, .f32⟩
  | .hbm, ⟨58, _⟩ => ⟨S_, .f32⟩
  | .hbm, ⟨59, _⟩ => ⟨S102400, .f32⟩
  | .hbm, ⟨60, _⟩ => ⟨S_, .f32⟩
  | .hbm, ⟨61, _⟩ => ⟨S10240, .f32⟩
  | .hbm, ⟨62, _⟩ => ⟨S102400x1, .i32⟩
  | .hbm, ⟨63, _⟩ => ⟨S10240, .f32⟩
  | .hbm, ⟨64, _⟩ => ⟨S_, .f32⟩
  | .hbm, ⟨65, _⟩ => ⟨S10240, .f32⟩
  | .hbm, ⟨66, _⟩ => ⟨S10240, .f32⟩
  | .hbm, ⟨67, _⟩ => ⟨S10240x1, .f32⟩
  | .hbm, ⟨68, _⟩ => ⟨S10240x256, .f32⟩
  | .hbm, ⟨69, _⟩ => ⟨S10240x256, .f32⟩
  | .hbm, ⟨70, _⟩ => ⟨S1x256, .f32⟩
  | .hbm, ⟨71, _⟩ => ⟨S10240x256, .f32⟩
  | .hbm, ⟨72, _⟩ => ⟨S1024x256, .f32⟩
  | .hbm, ⟨73, _⟩ => ⟨S_, .i32⟩
  | .hbm, ⟨74, _⟩ => ⟨S10240, .i32⟩
  | .hbm, ⟨75, _⟩ => ⟨S10240, .i1⟩
  | .hbm, ⟨76, _⟩ => ⟨S_, .i32⟩
  | .hbm, ⟨77, _⟩ => ⟨S10240, .i32⟩
  | .hbm, ⟨78, _⟩ => ⟨S10240, .i32⟩
  | .hbm, ⟨79, _⟩ => ⟨S10240, .i32⟩
  | .hbm, ⟨80, _⟩ => ⟨S10240x1, .i32⟩
  | .hbm, ⟨81, _⟩ => ⟨S10240x256, .f32⟩
  | .hbm, ⟨82, _⟩ => ⟨S_, .f32⟩
  | .hbm, ⟨83, _⟩ => ⟨S1024x256, .f32⟩
  | .hbm, ⟨84, _⟩ => ⟨S10240x1, .i32⟩
  | .hbm, ⟨85, _⟩ => ⟨S1024x256, .f32⟩
  | .hbm, ⟨86, _⟩ => ⟨S_, .f32⟩
  | .hbm, ⟨87, _⟩ => ⟨S10240, .f32⟩
  | .hbm, ⟨88, _⟩ => ⟨S_, .f32⟩
  | .hbm, ⟨89, _⟩ => ⟨S1024, .f32⟩
  | .hbm, ⟨90, _⟩ => ⟨S10240x1, .i32⟩
  | .hbm, ⟨91, _⟩ => ⟨S1024, .f32⟩
  | .hbm, ⟨92, _⟩ => ⟨S_, .f32⟩
  | .hbm, ⟨93, _⟩ => ⟨S1024, .f32⟩
  | .hbm, ⟨94, _⟩ => ⟨S1024, .f32⟩
  | .hbm, ⟨95, _⟩ => ⟨S1024x1, .f32⟩
  | .hbm, ⟨96, _⟩ => ⟨S1024x256, .f32⟩
  | .hbm, ⟨97, _⟩ => ⟨S1024x256, .f32⟩
  | .hbm, ⟨98, _⟩ => ⟨S1x47, .f32⟩
  | .hbm, ⟨99, _⟩ => ⟨S1024x47, .f32⟩
  | .hbm, ⟨100, _⟩ => ⟨S1024x47, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S2048x256, .f32⟩
  | .local _ .vmem, ⟨8, _⟩ => ⟨S2048x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S256x47, .f32⟩
  | .local _ .vmem, ⟨21, _⟩ => ⟨S1x47, .f32⟩
  | .local _ .vmem, ⟨22, _⟩ => ⟨S256x47, .f32⟩
  | .local _ .vmem, ⟨23, _⟩ => ⟨S1024x47, .f32⟩
  | .local _ .vmem, ⟨24, _⟩ => ⟨S1024x47, .f32⟩
  | _, _ => ⟨S1024000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_cst_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_9 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_10 : Ref sig .tc := ⟨.hbm, 73, rfl⟩
abbrev main_v45 : Ref sig .tc := ⟨.hbm, 74, rfl⟩
abbrev main_v46 : Ref sig .tc := ⟨.hbm, 75, rfl⟩
abbrev main_c_11 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_12 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_13 : Ref sig .tc := ⟨.hbm, 86, rfl⟩
abbrev main_v55 : Ref sig .tc := ⟨.hbm, 87, rfl⟩
abbrev main_cst_14 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_15 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65_0 : Ref sig .tc := ⟨.hbm, 99, rfl⟩
abbrev main_v65_1 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1024x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1024x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S256x47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x47 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S1024x47 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

class Facts₀ : Prop where
  slices_S1024000x128_S102400x128_0_0 : S1024000x128.Slices ![0, 0] S102400x128
  bcast_S_S1024000 : S_.BroadcastsInDim S1024000 (![] : Fin 0 → Fin S1024000.rank)
  bcast_S1024000_S1024000x1_0 : S1024000.BroadcastsInDim S1024000x1 (![0] : Fin 1 → Fin S1024000x1.rank)
  bcast_S_S102400x128 : S_.BroadcastsInDim S102400x128 (![] : Fin 0 → Fin S102400x128.rank)
  bcast_S_S102400 : S_.BroadcastsInDim S102400 (![] : Fin 0 → Fin S102400.rank)
  bcast_S102400_S102400x1_0 : S102400.BroadcastsInDim S102400x1 (![0] : Fin 1 → Fin S102400x1.rank)
  bcast_S102400x1_S102400x128_0_1 : S102400x1.BroadcastsInDim S102400x128 (![0, 1] : Fin 2 → Fin S102400x128.rank)
  shapeCasts_S256_S1x256 : S256.ShapeCasts S1x256
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  slices_S102400x256_S10240x256_0_0 : S102400x256.Slices ![0, 0] S10240x256
  bcast_S_S10240x256 : S_.BroadcastsInDim S10240x256 (![] : Fin 0 → Fin S10240x256.rank)
  bcast_S_S10240 : S_.BroadcastsInDim S10240 (![] : Fin 0 → Fin S10240.rank)
  bcast_S10240_S10240x1_0 : S10240.BroadcastsInDim S10240x1 (![0] : Fin 1 → Fin S10240x1.rank)
  bcast_S10240x1_S10240x256_0_1 : S10240x1.BroadcastsInDim S10240x256 (![0, 1] : Fin 2 → Fin S10240x256.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  broadcasts_S1x256_S1024x256 : S1x256.Broadcasts S1024x256
  slices_S10240x256_S1024x256_0_0 : S10240x256.Slices ![0, 0] S1024x256
  bcast_S_S1024x256 : S_.BroadcastsInDim S1024x256 (![] : Fin 0 → Fin S1024x256.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  shapeCasts_S47_S1x47 : S47.ShapeCasts S1x47
  inb_S256x47_S256x47_0_0 : ∀ a, (![0, 0] : Fin 2 → Nat) a + S256x47.size a ≤ S256x47.size a
  h_S256x47 : 0 < S256x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S1024x47 : S1x47.Broadcasts S1024x47
  inb_S1024x47_S1024x47_0_0 : ∀ a, (![0, 0] : Fin 2 → Nat) a + S1024x47.size a ≤ S1024x47.size a
  h_S1024x47 : 0 < S1024x47.numel
  reduces_S1024x47_S1024 : S1024x47.Reduces [1] S1024
  shapeCasts_S1024_S1024x1 : S1024.ShapeCasts S1024x1
  broadcasts_S1024x1_S1024x47 : S1024x1.Broadcasts S1024x47
  gather_S1024000x128_S1024000x1_S1024000x128_1_0_n_n_0_1_1128_wf : GatherDims.WF S1024000x128 S1024000x1 S1024000x128 [1] [0] [] [0] [] 1 ![1, 128]
  scatter_S102400x128_S1024000x1_S1024000x128_1_0_0_1_wf : ScatterDims.WF S102400x128 S1024000x1 S1024000x128 [1] [0] [0] 1
  scatter_S102400_S1024000x1_S1024000_n_0_0_1_wf : ScatterDims.WF S102400 S1024000x1 S1024000 [] [0] [0] 1
  dot_S2048x128_S128x256_S2048x256_1_0_0_1_n_n_wf : DotDims.WF S2048x128 S128x256 S2048x256 [1] [0] [0] [1] [] []
  gather_S102400x256_S102400x1_S102400x256_1_0_n_n_0_1_1256_wf : GatherDims.WF S102400x256 S102400x1 S102400x256 [1] [0] [] [0] [] 1 ![1, 256]
  scatter_S10240x256_S102400x1_S102400x256_1_0_0_1_wf : ScatterDims.WF S10240x256 S102400x1 S102400x256 [1] [0] [0] 1
  scatter_S10240_S102400x1_S102400_n_0_0_1_wf : ScatterDims.WF S10240 S102400x1 S102400 [] [0] [0] 1
  dot_S1024x256_S256x256_S1024x256_1_0_0_1_n_n_wf : DotDims.WF S1024x256 S256x256 S1024x256 [1] [0] [0] [1] [] []
  gather_S10240x256_S10240x1_S10240x256_1_0_n_n_0_1_1256_wf : GatherDims.WF S10240x256 S10240x1 S10240x256 [1] [0] [] [0] [] 1 ![1, 256]
  scatter_S1024x256_S10240x1_S10240x256_1_0_0_1_wf : ScatterDims.WF S1024x256 S10240x1 S10240x256 [1] [0] [0] 1
  scatter_S1024_S10240x1_S10240_n_0_0_1_wf : ScatterDims.WF S1024 S10240x1 S10240 [] [0] [0] 1
  dot_S1024x256_S256x47_S1024x47_1_0_0_1_n_n_wf : DotDims.WF S1024x256 S256x47 S1024x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S102400x128.size a
  hwx0_0 : ∀ i : grid0.Coords, EltTy.bits .f32 = 32 ∨ (Rect.block (s := S102400x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S102400x128.size a
  hwx0_1 : ∀ i : grid0.Coords, EltTy.bits .f32 = 32 ∨ (Rect.block (s := S102400x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S102400x256.size a
  hwx0_5 : ∀ i : grid0.Coords, EltTy.bits .f32 = 32 ∨ (Rect.block (s := S102400x256) S2048x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S10240x256.size a
  hwx1_0 : ∀ i : grid1.Coords, EltTy.bits .f32 = 32 ∨ (Rect.block (s := S10240x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S10240x256.size a
  hwx1_1 : ∀ i : grid1.Coords, EltTy.bits .f32 = 32 ∨ (Rect.block (s := S10240x256) S1024x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S10240x256.size a
  hwx1_5 : ∀ i : grid1.Coords, EltTy.bits .f32 = 32 ∨ (Rect.block (s := S10240x256) S1024x256.size (cc1_transform_5 i) (hinb1_5 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S1024x256.size a
  hwx2_0 : ∀ i : grid2.Coords, EltTy.bits .f32 = 32 ∨ (Rect.block (s := S1024x256) S1024x256.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S1024x256.size a
  hwx2_1 : ∀ i : grid2.Coords, EltTy.bits .f32 = 32 ∨ (Rect.block (s := S1024x256) S1024x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x47.size a ≤ S256x47.size a
  hwx2_2 : ∀ i : grid2.Coords, EltTy.bits .f32 = 32 ∨ (Rect.block (s := S256x47) S256x47.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x47.size a ≤ S1x47.size a
  hwx2_3 : ∀ i : grid2.Coords, EltTy.bits .f32 = 32 ∨ (Rect.block (s := S1x47) S1x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x47.size a ≤ S256x47.size a
  hwx2_4 : ∀ i : grid2.Coords, EltTy.bits .f32 = 32 ∨ (Rect.block (s := S256x47) S256x47.size (cc2_transform_4 i) (hinb2_4 i)).WholeWords (EltTy.packing .f32)
  hstage2_5 : ∀ j, (stage2_5 j).IsWhole
  nbuf2_5 : grid2.bufCount reads2_5 false = 1
  hreads2_5 : ∀ i i' : grid2.Coords, (∀ a, reads2_5 a = true → i a = i' a) → cc2_transform_5 i = cc2_transform_5 i'
  hinb2_5 : ∀ (i : grid2.Coords) a, (cc2_transform_5 i a + 1) * S1024x47.size a ≤ S1024x47.size a
  hwx2_5 : ∀ i : grid2.Coords, EltTy.bits .f32 = 32 ∨ (Rect.block (s := S1024x47) S1024x47.size (cc2_transform_5 i) (hinb2_5 i)).WholeWords (EltTy.packing .f32)
  hstage2_6 : ∀ j, (stage2_6 j).IsWhole
  nbuf2_6 : grid2.bufCount reads2_6 false = 1
  hreads2_6 : ∀ i i' : grid2.Coords, (∀ a, reads2_6 a = true → i a = i' a) → cc2_transform_6 i = cc2_transform_6 i'
  hinb2_6 : ∀ (i : grid2.Coords) a, (cc2_transform_6 i a + 1) * S1024x47.size a ≤ S1024x47.size a
  hwx2_6 : ∀ i : grid2.Coords, EltTy.bits .f32 = 32 ∨ (Rect.block (s := S1024x47) S1024x47.size (cc2_transform_6 i) (hinb2_6 i)).WholeWords (EltTy.packing .f32)

variable [Facts₀]

def gather_S1024000x128_S1024000x1_S1024000x128_1_0_n_n_0_1_1128 : GatherDims S1024000x128 S1024000x1 S1024000x128 where
  offsetDims := [1]
  collapsedSliceDims := [0]
  operandBatchingDims := []
  startIndicesBatchingDims := []
  startIndexMap := [0]
  indexVectorDim := 1
  sliceSizes := ![1, 128]
  wf := gather_S1024000x128_S1024000x1_S1024000x128_1_0_n_n_0_1_1128_wf
def scatter_S102400x128_S1024000x1_S1024000x128_1_0_0_1 : ScatterDims S102400x128 S1024000x1 S1024000x128 where
  updateWindowDims := [1]
  insertedWindowDims := [0]
  scatterDimsToOperandDims := [0]
  indexVectorDim := 1
  wf := scatter_S102400x128_S1024000x1_S1024000x128_1_0_0_1_wf
def scatter_S102400_S1024000x1_S1024000_n_0_0_1 : ScatterDims S102400 S1024000x1 S1024000 where
  updateWindowDims := []
  insertedWindowDims := [0]
  scatterDimsToOperandDims := [0]
  indexVectorDim := 1
  wf := scatter_S102400_S1024000x1_S1024000_n_0_0_1_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def gather_S102400x256_S102400x1_S102400x256_1_0_n_n_0_1_1256 : GatherDims S102400x256 S102400x1 S102400x256 where
  offsetDims := [1]
  collapsedSliceDims := [0]
  operandBatchingDims := []
  startIndicesBatchingDims := []
  startIndexMap := [0]
  indexVectorDim := 1
  sliceSizes := ![1, 256]
  wf := gather_S102400x256_S102400x1_S102400x256_1_0_n_n_0_1_1256_wf
def scatter_S10240x256_S102400x1_S102400x256_1_0_0_1 : ScatterDims S10240x256 S102400x1 S102400x256 where
  updateWindowDims := [1]
  insertedWindowDims := [0]
  scatterDimsToOperandDims := [0]
  indexVectorDim := 1
  wf := scatter_S10240x256_S102400x1_S102400x256_1_0_0_1_wf
def scatter_S10240_S102400x1_S102400_n_0_0_1 : ScatterDims S10240 S102400x1 S102400 where
  updateWindowDims := []
  insertedWindowDims := [0]
  scatterDimsToOperandDims := [0]
  indexVectorDim := 1
  wf := scatter_S10240_S102400x1_S102400_n_0_0_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def gather_S10240x256_S10240x1_S10240x256_1_0_n_n_0_1_1256 : GatherDims S10240x256 S10240x1 S10240x256 where
  offsetDims := [1]
  collapsedSliceDims := [0]
  operandBatchingDims := []
  startIndicesBatchingDims := []
  startIndexMap := [0]
  indexVectorDim := 1
  sliceSizes := ![1, 256]
  wf := gather_S10240x256_S10240x1_S10240x256_1_0_n_n_0_1_1256_wf
def scatter_S1024x256_S10240x1_S10240x256_1_0_0_1 : ScatterDims S1024x256 S10240x1 S10240x256 where
  updateWindowDims := [1]
  insertedWindowDims := [0]
  scatterDimsToOperandDims := [0]
  indexVectorDim := 1
  wf := scatter_S1024x256_S10240x1_S10240x256_1_0_0_1_wf
def scatter_S1024_S10240x1_S10240_n_0_0_1 : ScatterDims S1024 S10240x1 S10240 where
  updateWindowDims := []
  insertedWindowDims := [0]
  scatterDimsToOperandDims := [0]
  indexVectorDim := 1
  wf := scatter_S1024_S10240x1_S10240_n_0_0_1_wf
def dot_S1024x256_S256x47_S1024x47_1_0_0_1_n_n : DotDims S1024x256 S256x47 S1024x47 where
  lhsContracting := [1]
  rhsContracting := [0]
  lhsNonContracting := [0]
  rhsNonContracting := [1]
  lhsBatch := []
  rhsBatch := []
  wf := dot_S1024x256_S256x47_S1024x47_1_0_0_1_n_n_wf

abbrev win0_0 : Pipeline.Window sig grid0 :=
  Pipeline.Window.ofSpec (Memref.whole main_v19) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1024x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v63) S1024x256.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1024x256.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S256x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S256x47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65_0) S1024x47.size cc2_transform_5 reads2_5 true false 1 stage2_5 sem2_5
    hrank2 hreads2_5 hinb2_5 nbuf2_5 (Memref.isWhole_whole _) hwx2_5 hstage2_5

abbrev win2_6 : Pipeline.Window sig grid2 :=
  Pipeline.Window.ofSpec (Memref.whole main_v65_1) S1024x47.size cc2_transform_6 reads2_6 true false 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S1024000x128 : Shape := ⟨2, ![1024000, 128]⟩
abbrev S1024000 : Shape := ⟨1, ![1024000]⟩
abbrev S102400 : Shape := ⟨1, ![102400]⟩
abbrev S10240 : Shape := ⟨1, ![10240]⟩
abbrev S128x256 : Shape := ⟨2, ![128, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S102400x128 : Shape := ⟨2, ![102400, 128]⟩
abbrev S_ : Shape := ⟨0, ![]⟩
abbrev S1024000x1 : Shape := ⟨2, ![1024000, 1]⟩
abbrev S102400x1 : Shape := ⟨2, ![102400, 1]⟩
abbrev S102400x256 : Shape := ⟨2, ![102400, 256]⟩
abbrev S1x256 : Shape := ⟨2, ![1, 256]⟩
abbrev S10240x256 : Shape := ⟨2, ![10240, 256]⟩
abbrev S10240x1 : Shape := ⟨2, ![10240, 1]⟩
abbrev S1024x256 : Shape := ⟨2, ![1024, 256]⟩
abbrev S1024 : Shape := ⟨1, ![1024]⟩
abbrev S1024x1 : Shape := ⟨2, ![1024, 1]⟩
abbrev S1024x47 : Shape := ⟨2, ![1024, 47]⟩
abbrev S1x47 : Shape := ⟨2, ![1, 47]⟩

abbrev nBuf : Space → Nat
  | .hbm => 133
  | .vmem => 0
  | .smem => 0
  | _ => 0

abbrev hbmTy0_0 (i : Nat) : BufTy := match i % 128 with
  | 0 => ⟨S1024000x128, .f32⟩
  | 1 => ⟨S1024000, .i32⟩
  | 2 => ⟨S1024000, .i32⟩
  | 3 => ⟨S102400, .i32⟩
  | 4 => ⟨S102400, .i32⟩
  | 5 => ⟨S10240, .i32⟩
  | 6 => ⟨S10240, .i32⟩
  | 7 => ⟨S128x256, .f32⟩
  | 8 => ⟨S256, .f32⟩
  | 9 => ⟨S128x256, .f32⟩
  | 10 => ⟨S256x256, .f32⟩
  | 11 => ⟨S256, .f32⟩
  | 12 => ⟨S256x256, .f32⟩
  | 13 => ⟨S256x47, .f32⟩
  | 14 => ⟨S47, .f32⟩
  | 15 => ⟨S256x47, .f32⟩
  | 16 => ⟨S102400x128, .f32⟩
  | 17 => ⟨S_, .i32⟩
  | 18 => ⟨S1024000, .i32⟩
  | 19 => ⟨S1024000, .i1⟩
  | 20 => ⟨S_, .i32⟩
  | 21 => ⟨S1024000, .i32⟩
  | 22 => ⟨S1024000, .i32⟩
  | 23 => ⟨S1024000, .i32⟩
  | 24 => ⟨S1024000x1, .i32⟩
  | 25 => ⟨S1024000x128, .f32⟩
  | 26 => ⟨S_, .f32⟩
  | 27 => ⟨S102400x128, .f32⟩
  | 28 => ⟨S1024000x1, .i32⟩
  | 29 => ⟨S102400x128, .f32⟩
  | 30 => ⟨S_, .f32⟩
  | 31 => ⟨S1024000, .f32⟩
  | 32 => ⟨S_, .f32⟩
  | 33 => ⟨S102400, .f32⟩
  | 34 => ⟨S1024000x1, .i32⟩
  | 35 => ⟨S102400, .f32⟩
  | 36 => ⟨S_, .f32⟩
  | 37 => ⟨S102400, .f32⟩
  | 38 => ⟨S102400, .f32⟩
  | 39 => ⟨S102400x1, .f32⟩
  | 40 => ⟨S102400x128, .f32⟩
  | 41 => ⟨S102400x128, .f32⟩
  | 42 => ⟨S102400x256, .f32⟩
  | 43 => ⟨S1x256, .f32⟩
  | 44 => ⟨S102400x256, .f32⟩
  | 45 => ⟨S102400x256, .f32⟩
  | 46 => ⟨S102400x256, .f32⟩
  | 47 => ⟨S102400x256, .f32⟩
  | 48 => ⟨S_, .f32⟩
  | 49 => ⟨S102400x256, .f32⟩
  | 50 => ⟨S102400x256, .f32⟩
  | 51 => ⟨S10240x256, .f32⟩
  | 52 => ⟨S_, .i32⟩
  | 53 => ⟨S102400, .i32⟩
  | 54 => ⟨S102400, .i1⟩
  | 55 => ⟨S_, .i32⟩
  | 56 => ⟨S102400, .i32⟩
  | 57 => ⟨S102400, .i32⟩
  | 58 => ⟨S102400, .i32⟩
  | 59 => ⟨S102400x1, .i32⟩
  | 60 => ⟨S102400x256, .f32⟩
  | 61 => ⟨S_, .f32⟩
  | 62 => ⟨S10240x256, .f32⟩
  | 63 => ⟨S102400x1, .i32⟩
  | 64 => ⟨S10240x256, .f32⟩
  | 65 => ⟨S_, .f32⟩
  | 66 => ⟨S102400, .f32⟩
  | 67 => ⟨S_, .f32⟩
  | 68 => ⟨S10240, .f32⟩
  | 69 => ⟨S102400x1, .i32⟩
  | 70 => ⟨S10240, .f32⟩
  | 71 => ⟨S_, .f32⟩
  | 72 => ⟨S10240, .f32⟩
  | 73 => ⟨S10240, .f32⟩
  | 74 => ⟨S10240x1, .f32⟩
  | 75 => ⟨S10240x256, .f32⟩
  | 76 => ⟨S10240x256, .f32⟩
  | 77 => ⟨S10240x256, .f32⟩
  | 78 => ⟨S1x256, .f32⟩
  | 79 => ⟨S10240x256, .f32⟩
  | 80 => ⟨S10240x256, .f32⟩
  | 81 => ⟨S10240x256, .f32⟩
  | 82 => ⟨S10240x256, .f32⟩
  | 83 => ⟨S_, .f32⟩
  | 84 => ⟨S10240x256, .f32⟩
  | 85 => ⟨S10240x256, .f32⟩
  | 86 => ⟨S1024x256, .f32⟩
  | 87 => ⟨S_, .i32⟩
  | 88 => ⟨S10240, .i32⟩
  | 89 => ⟨S10240, .i1⟩
  | 90 => ⟨S_, .i32⟩
  | 91 => ⟨S10240, .i32⟩
  | 92 => ⟨S10240, .i32⟩
  | 93 => ⟨S10240, .i32⟩
  | 94 => ⟨S10240x1, .i32⟩
  | 95 => ⟨S10240x256, .f32⟩
  | 96 => ⟨S_, .f32⟩
  | 97 => ⟨S1024x256, .f32⟩
  | 98 => ⟨S10240x1, .i32⟩
  | 99 => ⟨S1024x256, .f32⟩
  | 100 => ⟨S_, .f32⟩
  | 101 => ⟨S10240, .f32⟩
  | 102 => ⟨S_, .f32⟩
  | 103 => ⟨S1024, .f32⟩
  | 104 => ⟨S10240x1, .i32⟩
  | 105 => ⟨S1024, .f32⟩
  | 106 => ⟨S_, .f32⟩
  | 107 => ⟨S1024, .f32⟩
  | 108 => ⟨S1024, .f32⟩
  | 109 => ⟨S1024x1, .f32⟩
  | 110 => ⟨S1024x256, .f32⟩
  | 111 => ⟨S1024x256, .f32⟩
  | 112 => ⟨S1024x47, .f32⟩
  | 113 => ⟨S1x47, .f32⟩
  | 114 => ⟨S1024x47, .f32⟩
  | 115 => ⟨S1024x47, .f32⟩
  | 116 => ⟨S1024x47, .f32⟩
  | 117 => ⟨S1024x47, .f32⟩
  | 118 => ⟨S_, .f32⟩
  | 119 => ⟨S1024, .f32⟩
  | 120 => ⟨S_, .f32⟩
  | 121 => ⟨S1024, .f32⟩
  | 122 => ⟨S1024, .f32⟩
  | 123 => ⟨S1024x1, .f32⟩
  | 124 => ⟨S1024x47, .f32⟩
  | 125 => ⟨S1024x47, .f32⟩
  | 126 => ⟨S1024x47, .f32⟩
  | 127 => ⟨S_, .f32⟩
  | _ => ⟨S1024000x128, .f32⟩

abbrev hbmTy0_1 (i : Nat) : BufTy := match i % 128 with
  | 0 => ⟨S1024, .f32⟩
  | 1 => ⟨S1024x1, .f32⟩
  | 2 => ⟨S1024x1, .f32⟩
  | 3 => ⟨S1024x47, .f32⟩
  | 4 => ⟨S1024x47, .f32⟩
  | _ => ⟨S1024000x128, .f32⟩

abbrev hbmTy (i : Nat) : BufTy := match i / 128 with
  | 0 => hbmTy0_0 i
  | 1 => hbmTy0_1 i
  | _ => ⟨S1024000x128, .f32⟩

abbrev bufTy : (tb : Table) → Fin (tcTables nBuf tb) → BufTy
  | .hbm, ⟨i, _⟩ => hbmTy i
  | _, _ => ⟨S1024000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call0_cst : Ref sig .tc := ⟨.hbm, 48, rfl⟩
abbrev main_call0_v0 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call1_cst : Ref sig .tc := ⟨.hbm, 83, rfl⟩
abbrev main_call1_v0 : Ref sig .tc := ⟨.hbm, 84, rfl⟩
abbrev main_v53 : Ref sig .tc := ⟨.hbm, 85, rfl⟩
abbrev main_v54 : Ref sig .tc := ⟨.hbm, 86, rfl⟩
abbrev main_c_10 : Ref sig .tc := ⟨.hbm, 87, rfl⟩
abbrev main_v55 : Ref sig .tc := ⟨.hbm, 88, rfl⟩
abbrev main_v56 : Ref sig .tc := ⟨.hbm, 89, rfl⟩
abbrev main_c_11 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_13 : Ref sig .tc := ⟨.hbm, 100, rfl⟩
abbrev main_v65 : Ref sig .tc := ⟨.hbm, 101, rfl⟩
abbrev main_cst_14 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_15 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_call2_cst : Ref sig .tc := ⟨.hbm, 118, rfl⟩
abbrev main_call2_v0 : Ref sig .tc := ⟨.hbm, 119, rfl⟩
abbrev main_call2_cst_0 : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_v6 : Ref sig .tc := ⟨.hbm, 126, rfl⟩
abbrev main_call2_cst_1 : Ref sig .tc := ⟨.hbm, 127, rfl⟩
abbrev main_call2_v7 : Ref sig .tc := ⟨.hbm, 128, rfl⟩
abbrev main_call2_v8 : Ref sig .tc := ⟨.hbm, 129, rfl⟩
abbrev main_call2_v9 : Ref sig .tc := ⟨.hbm, 130, rfl⟩
abbrev main_call2_v10 : Ref sig .tc := ⟨.hbm, 131, rfl⟩
abbrev main_v80 : Ref sig .tc := ⟨.hbm, 132, rfl⟩

abbrev nD : Nat := 1
abbrev τ : Topo := Topo.v7x

variable {F : FTy → Type} [FloatOps F]

class Facts₀ : Prop where
  slices_S1024000x128_S102400x128_0_0 : S1024000x128.Slices ![0, 0] S102400x128
  bcast_S_S1024000 : S_.BroadcastsInDim S1024000 (![] : Fin 0 → Fin S1024000.rank)
  bcast_S1024000_S1024000x1_0 : S1024000.BroadcastsInDim S1024000x1 (![0] : Fin 1 → Fin S1024000x1.rank)
  bcast_S_S102400x128 : S_.BroadcastsInDim S102400x128 (![] : Fin 0 → Fin S102400x128.rank)
  bcast_S_S102400 : S_.BroadcastsInDim S102400 (![] : Fin 0 → Fin S102400.rank)
  bcast_S102400_S102400x1_0 : S102400.BroadcastsInDim S102400x1 (![0] : Fin 1 → Fin S102400x1.rank)
  bcast_S102400x1_S102400x128_0_1 : S102400x1.BroadcastsInDim S102400x128 (![0, 1] : Fin 2 → Fin S102400x128.rank)
  bcast_S256_S1x256_1 : S256.BroadcastsInDim S1x256 (![1] : Fin 1 → Fin S1x256.rank)
  bcast_S1x256_S102400x256_0_1 : S1x256.BroadcastsInDim S102400x256 (![0, 1] : Fin 2 → Fin S102400x256.rank)
  bcast_S_S102400x256 : S_.BroadcastsInDim S102400x256 (![] : Fin 0 → Fin S102400x256.rank)
  slices_S102400x256_S10240x256_0_0 : S102400x256.Slices ![0, 0] S10240x256
  bcast_S_S10240x256 : S_.BroadcastsInDim S10240x256 (![] : Fin 0 → Fin S10240x256.rank)
  bcast_S_S10240 : S_.BroadcastsInDim S10240 (![] : Fin 0 → Fin S10240.rank)
  bcast_S10240_S10240x1_0 : S10240.BroadcastsInDim S10240x1 (![0] : Fin 1 → Fin S10240x1.rank)
  bcast_S10240x1_S10240x256_0_1 : S10240x1.BroadcastsInDim S10240x256 (![0, 1] : Fin 2 → Fin S10240x256.rank)
  bcast_S1x256_S10240x256_0_1 : S1x256.BroadcastsInDim S10240x256 (![0, 1] : Fin 2 → Fin S10240x256.rank)
  slices_S10240x256_S1024x256_0_0 : S10240x256.Slices ![0, 0] S1024x256
  bcast_S_S1024x256 : S_.BroadcastsInDim S1024x256 (![] : Fin 0 → Fin S1024x256.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  bcast_S47_S1x47_1 : S47.BroadcastsInDim S1x47 (![1] : Fin 1 → Fin S1x47.rank)
  bcast_S1x47_S1024x47_0_1 : S1x47.BroadcastsInDim S1024x47 (![0, 1] : Fin 2 → Fin S1024x47.rank)
  reducesTo_S1024x47_S1024_d1 : S1024x47.ReducesTo [1] S1024
  h_S_ : 0 < S_.numel
  bcast_S1024x1_S1024x47_0_1 : S1024x1.BroadcastsInDim S1024x47 (![0, 1] : Fin 2 → Fin S1024x47.rank)
  gather_S1024000x128_S1024000x1_S1024000x128_1_0_n_n_0_1_1128_wf : GatherDims.WF S1024000x128 S1024000x1 S1024000x128 [1] [0] [] [0] [] 1 ![1, 128]
  scatter_S102400x128_S1024000x1_S1024000x128_1_0_0_1_wf : ScatterDims.WF S102400x128 S1024000x1 S1024000x128 [1] [0] [0] 1
  scatter_S102400_S1024000x1_S1024000_n_0_0_1_wf : ScatterDims.WF S102400 S1024000x1 S1024000 [] [0] [0] 1
  dot_S102400x128_S128x256_S102400x256_1_0_0_1_n_n_wf : DotDims.WF S102400x128 S128x256 S102400x256 [1] [0] [0] [1] [] []
  gather_S102400x256_S102400x1_S102400x256_1_0_n_n_0_1_1256_wf : GatherDims.WF S102400x256 S102400x1 S102400x256 [1] [0] [] [0] [] 1 ![1, 256]
  scatter_S10240x256_S102400x1_S102400x256_1_0_0_1_wf : ScatterDims.WF S10240x256 S102400x1 S102400x256 [1] [0] [0] 1
  scatter_S10240_S102400x1_S102400_n_0_0_1_wf : ScatterDims.WF S10240 S102400x1 S102400 [] [0] [0] 1
  dot_S10240x256_S256x256_S10240x256_1_0_0_1_n_n_wf : DotDims.WF S10240x256 S256x256 S10240x256 [1] [0] [0] [1] [] []
  gather_S10240x256_S10240x1_S10240x256_1_0_n_n_0_1_1256_wf : GatherDims.WF S10240x256 S10240x1 S10240x256 [1] [0] [] [0] [] 1 ![1, 256]
  scatter_S1024x256_S10240x1_S10240x256_1_0_0_1_wf : ScatterDims.WF S1024x256 S10240x1 S10240x256 [1] [0] [0] 1
  scatter_S1024_S10240x1_S10240_n_0_0_1_wf : ScatterDims.WF S1024 S10240x1 S10240 [] [0] [0] 1
  dot_S1024x256_S256x47_S1024x47_1_0_0_1_n_n_wf : DotDims.WF S1024x256 S256x47 S1024x47 [1] [0] [0] [1] [] []

variable [Facts₀]

def gather_S1024000x128_S1024000x1_S1024000x128_1_0_n_n_0_1_1128 : GatherDims S1024000x128 S1024000x1 S1024000x128 where
  offsetDims := [1]
  collapsedSliceDims := [0]
  operandBatchingDims := []
  startIndicesBatchingDims := []
  startIndexMap := [0]
  indexVectorDim := 1
  sliceSizes := ![1, 128]
  wf := gather_S1024000x128_S1024000x1_S1024000x128_1_0_n_n_0_1_1128_wf
def scatter_S102400x128_S1024000x1_S1024000x128_1_0_0_1 : ScatterDims S102400x128 S1024000x1 S1024000x128 where
  updateWindowDims := [1]
  insertedWindowDims := [0]
  scatterDimsToOperandDims := [0]
  indexVectorDim := 1
  wf := scatter_S102400x128_S1024000x1_S1024000x128_1_0_0_1_wf
def scatter_S102400_S1024000x1_S1024000_n_0_0_1 : ScatterDims S102400 S1024000x1 S1024000 where
  updateWindowDims := []
  insertedWindowDims := [0]
  scatterDimsToOperandDims := [0]
  indexVectorDim := 1
  wf := scatter_S102400_S1024000x1_S1024000_n_0_0_1_wf
def dot_S102400x128_S128x256_S102400x256_1_0_0_1_n_n : DotDims S102400x128 S128x256 S102400x256 where
  lhsContracting := [1]
  rhsContracting := [0]
  lhsNonContracting := [0]
  rhsNonContracting := [1]
  lhsBatch := []
  rhsBatch := []
  wf := dot_S102400x128_S128x256_S102400x256_1_0_0_1_n_n_wf
def gather_S102400x256_S102400x1_S102400x256_1_0_n_n_0_1_1256 : GatherDims S102400x256 S102400x1 S102400x256 where
  offsetDims := [1]
  collapsedSliceDims := [0]
  operandBatchingDims := []
  startIndicesBatchingDims := []
  startIndexMap := [0]
  indexVectorDim := 1
  sliceSizes := ![1, 256]
  wf := gather_S102400x256_S102400x1_S102400x256_1_0_n_n_0_1_1256_wf
def scatter_S10240x256_S102400x1_S102400x256_1_0_0_1 : ScatterDims S10240x256 S102400x1 S102400x256 where
  updateWindowDims := [1]
  insertedWindowDims := [0]
  scatterDimsToOperandDims := [0]
  indexVectorDim := 1
  wf := scatter_S10240x256_S102400x1_S102400x256_1_0_0_1_wf
def scatter_S10240_S102400x1_S102400_n_0_0_1 : ScatterDims S10240 S102400x1 S102400 where
  updateWindowDims := []
  insertedWindowDims := [0]
  scatterDimsToOperandDims := [0]
  indexVectorDim := 1
  wf := scatter_S10240_S102400x1_S102400_n_0_0_1_wf
def dot_S10240x256_S256x256_S10240x256_1_0_0_1_n_n : DotDims S10240x256 S256x256 S10240x256 where
  lhsContracting := [1]
  rhsContracting := [0]
  lhsNonContracting := [0]
  rhsNonContracting := [1]
  lhsBatch := []
  rhsBatch := []
  wf := dot_S10240x256_S256x256_S10240x256_1_0_0_1_n_n_wf
def gather_S10240x256_S10240x1_S10240x256_1_0_n_n_0_1_1256 : GatherDims S10240x256 S10240x1 S10240x256 where
  offsetDims := [1]
  collapsedSliceDims := [0]
  operandBatchingDims := []
  startIndicesBatchingDims := []
  startIndexMap := [0]
  indexVectorDim := 1
  sliceSizes := ![1, 256]
  wf := gather_S10240x256_S10240x1_S10240x256_1_0_n_n_0_1_1256_wf
def scatter_S1024x256_S10240x1_S10240x256_1_0_0_1 : ScatterDims S1024x256 S10240x1 S10240x256 where
  updateWindowDims := [1]
  insertedWindowDims := [0]
  scatterDimsToOperandDims := [0]
  indexVectorDim := 1
  wf := scatter_S1024x256_S10240x1_S10240x256_1_0_0_1_wf
def scatter_S1024_S10240x1_S10240_n_0_0_1 : ScatterDims S1024 S10240x1 S10240 where
  updateWindowDims := []
  insertedWindowDims := [0]
  scatterDimsToOperandDims := [0]
  indexVectorDim := 1
  wf := scatter_S1024_S10240x1_S10240_n_0_0_1_wf
def dot_S1024x256_S256x47_S1024x47_1_0_0_1_n_n : DotDims S1024x256 S256x47 S1024x47 where
  lhsContracting := [1]
  rhsContracting := [0]
  lhsNonContracting := [0]
  rhsNonContracting := [1]
  lhsBatch := []
  rhsBatch := []
  wf := dot_S1024x256_S256x47_S1024x47_1_0_0_1_n_n_wf

class Facts : Prop extends Facts₀ where

variable [Facts]
-- ==== Proof.Spec.lean ====
/- The mathematics of one graph-convolution layer and of the final log-softmax, as functions of whole arrays
   read index by index over the extended reals.

   A layer's linear part at (a, b) is  (Σₖ agg(a,k)·Wl(k,b) + bl(b)) + Σₖ xd(a,k)·Wr(k,b);  the hidden layers
   clamp it below at 0.  The log-softmax of a row subtracts the row's maximum m and the logarithm of the sum of
   the shifted exponentials, grouped either as  h − (m + log Σ)  or as  (h − m) − log Σ. -/
import Idealize.ShloMosaic.PureOps.Ideal
import Idealize.ShloMosaic.Lib.ValueIdx

noncomputable section

namespace Cert.Sage

open Idealize.ShloMosaic Idealize.ShloMosaic.ValueIdx
open scoped BigOperators

/-- A matrix of extended reals over a literal rank-2 shape. -/
abbrev Mat (a b : ℕ) : Type := (⟨2, ![a, b]⟩ : Shape).Idx → EReal

variable {M K N : ℕ}

/-- The layer's linear part at row `a`, column `b`: the aggregated neighbours through `Wl`, plus the bias, plus
    the node's own features through `Wr`. -/
def linAt (agg xd : Mat M K) (Wl Wr : Mat K N) (bl : Fin N → EReal) (a : Fin M) (b : Fin N) : EReal :=
  ((∑ k : Fin K, agg (ix2 a k) * Wl (ix2 k b)) + bl b) + ∑ k : Fin K, xd (ix2 a k) * Wr (ix2 k b)

/-- The same, with the bias added after both products. -/
def linAt' (agg xd : Mat M K) (Wl Wr : Mat K N) (bl : Fin N → EReal) (a : Fin M) (b : Fin N) : EReal :=
  ((∑ k : Fin K, agg (ix2 a k) * Wl (ix2 k b)) + ∑ k : Fin K, xd (ix2 a k) * Wr (ix2 k b)) + bl b

/-- Addition of extended reals is commutative and associative, so the bias may be added last. -/
theorem linAt'_eq (agg xd : Mat M K) (Wl Wr : Mat K N) (bl : Fin N → EReal) (a : Fin M) (b : Fin N) :
    linAt' agg xd Wl Wr bl a b = linAt agg xd Wl Wr bl a b := by
  unfold linAt' linAt
  exact add_right_comm _ _ _

/-- The linear part as a whole array. -/
def lin (agg xd : Mat M K) (Wl Wr : Mat K N) (bl : Fin N → EReal) : Mat M N :=
  fun j => linAt agg xd Wl Wr bl (j 0) (j 1)

theorem lin_apply (agg xd : Mat M K) (Wl Wr : Mat K N) (bl : Fin N → EReal) (a : Fin M) (b : Fin N) :
    lin agg xd Wl Wr bl (ix2 a b) = linAt agg xd Wl Wr bl a b := rfl

/-- The clamp below at zero, entry by entry. -/
def relu (h : Mat M N) : Mat M N := fun j => max (h j) 0

theorem relu_apply (h : Mat M N) (j : (⟨2, ![M, N]⟩ : Shape).Idx) : relu h j = max (h j) 0 := rfl

/-- A row's maximum, folded from −∞. -/
def rowMax (h : Mat M N) (a : Fin M) : EReal :=
  (Finset.univ : Finset (Fin N)).fold max ⊥ (fun q => h (ix2 a q))

/-- The sum of a row's exponentials after the shift by the row's maximum. -/
def rowExpSum (h : Mat M N) (a : Fin M) : EReal :=
  ∑ q : Fin N, Ideal.exp (h (ix2 a q) - rowMax h a)

/-- Log-softmax with the maximum and the logarithm added before the subtraction:  h − (m + log Σ). -/
def lsmKAt (h : Mat M N) (a : Fin M) (b : Fin N) : EReal :=
  h (ix2 a b) - (rowMax h a + Ideal.log (rowExpSum h a))

/-- Log-softmax with two subtractions:  (h − m) − log Σ. -/
def lsmRAt (h : Mat M N) (a : Fin M) (b : Fin N) : EReal :=
  (h (ix2 a b) - rowMax h a) - Ideal.log (rowExpSum h a)

def lsmK (h : Mat M N) : Mat M N := fun j => lsmKAt h (j 0) (j 1)
def lsmR (h : Mat M N) : Mat M N := fun j => lsmRAt h (j 0) (j 1)

theorem lsmK_apply (h : Mat M N) (a : Fin M) (b : Fin N) : lsmK h (ix2 a b) = lsmKAt h a b := rfl
theorem lsmR_apply (h : Mat M N) (a : Fin M) (b : Fin N) : lsmR h (ix2 a b) = lsmRAt h a b := rfl

/-- Two arrays over a rank-2 shape that agree at every (a, b) are equal. -/
theorem mat_ext {α : Type} {f g : (⟨2, ![M, N]⟩ : Shape).Idx → α} (h : ∀ (a : Fin M) (b : Fin N), f (ix2 a b) = g (ix2 a b)) : f = g := by
  funext j
  rw [eq_ix2 j]
  exact h _ _

end Cert.Sage

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.LibKeepdims.lean ====
/- Layout operations and one-axis reductions of small ranks read at an index written by coordinates.

   What a row-wise kernel with `keepdims` sums meets: a column [a] viewed as [a, 1]; a matrix [a, c] viewed as
   [a, 1, c]; the broadcasts [a, 1, c] → [a, b, c] and [a, 1] → [a, b]; a sum or a maximum over the last axis of a
   rank-3 or rank-2 vector, and a sum over the first axis of a rank-2 vector, each as a sum or fold over that axis's
   coordinate; the host's reductions over the last axis of a rank-2 array likewise. Every shape fact is a variable,
   so a lemma applies whatever proof term a program carries for it. -/
import Idealize.ShloMosaic.Lib.Pipeline.Value
import Idealize.ShloMosaic.Lib.ValueIdx
import Idealize.ShloMosaic.PureOps.Ideal.Laws

noncomputable section

open scoped BigOperators

namespace Cert.Keepdims

open Idealize.ShloMosaic Idealize.ShloMosaic.ValueIdx

variable {α : Type}

/-- A column [a] viewed as [a, 1] reads, at (r, u), the column at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A matrix [a, c] viewed as [a, 1, c] reads, at (r, u, q), the matrix at (r, q). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (q : Fin c) :
    shapeCast ⟨3, ![a, 1, c]⟩ x h (ix3 r u q) = x (ix2 r q) :=
  shapeCast_apply x h _ _ (by
    have hu : u.val = 0 := by omega
    rw [Shape.rowMajor_val_three, Shape.rowMajor_val_two]
    show r.val * c + q.val = (r.val * 1 + u.val) * c + q.val
    rw [hu, Nat.mul_one, Nat.add_zero])

/-- [a, 1, c] broadcast along its middle axis reads, at (r, k, q), the operand at (r, 0, q). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (k : Fin b) (q : Fin c) :
    broadcastTo ⟨3, ![a, b, c]⟩ x h (ix3 r k q) = x (ix3 r (0 : Fin 1) q) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl]
    | ⟨2, _⟩ => by
      have := q.isLt
      show q.val = if c = 1 then 0 else q.val
      split <;> omega)

/-- A column [a, 1] broadcast along its unit axis reads, at (r, k), the column at (r, 0). -/
theorem broadcastTo_a1_ab_apply {a b : ℕ} (x : (⟨2, ![a, 1]⟩ : Shape).Idx → α)
    (h : (⟨2, ![a, 1]⟩ : Shape).Broadcasts ⟨2, ![a, b]⟩) (r : Fin a) (k : Fin b) :
    broadcastTo ⟨2, ![a, b]⟩ x h (ix2 r k) = x (ix2 r (0 : Fin 1)) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl])

/-- The index over (r, k) with q inserted on the last of three axes is (r, k, q). -/
theorem lift_last3 {a b c : ℕ} (h : (⟨3, ![a, b, c]⟩ : Shape).Reduces [2] ⟨2, ![a, b]⟩) (r : Fin a) (k : Fin b) (q : Fin c) :
    h.lift (ix2 r k) q = ix3 r k q :=
  funext fun ax => Fin.ext (by match ax with | ⟨0, _⟩ => rfl | ⟨1, _⟩ => rfl | ⟨2, _⟩ => rfl)

/-- The index over (r) with k inserted on the last of two axes is (r, k). -/
theorem lift_last2 {a b : ℕ} (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- The index over (q) with r inserted on the first of two axes is (r, q). -/
theorem lift_first2 {a b : ℕ} (h : (⟨2, ![a, b]⟩ : Shape).Reduces [0] ⟨1, ![b]⟩) (r : Fin a) (q : Fin b) :
    h.lift (ix1 q) r = ix2 r q :=
  funext fun ax => Fin.ext (by match ax with | ⟨0, _⟩ => rfl | ⟨1, _⟩ => rfl)

variable {φ : FTy}

/-- A sum over the last of three axes, at (r, k): the sum over q of the source at (r, k, q). -/
theorem sum_last3_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (r : Fin a) (k : Fin b) :
    multiReduction .add [2] ⟨2, ![a, b]⟩ src acc h hφ hacc (ix2 r k) = ∑ q : Fin c, src (ix3 r k q) :=
  (Ideal.multiReduction_add_single src acc h hφ hacc (ix2 r k)).trans
    (Finset.sum_congr rfl fun q _ => congrArg src (lift_last3 h r k q))

/-- A sum over the last of two axes, at (r): the sum over k of the source at (r, k). -/
theorem sum_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_last2 h r k))

/-- A sum over the first of two axes, at (q): the sum over r of the source at (r, q). -/
theorem sum_first2_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ r : Fin a, src (ix2 r q) :=
  (Ideal.multiReduction_add_single src acc h hφ hacc (ix1 q)).trans
    (Finset.sum_congr rfl fun r _ => congrArg src (lift_first2 h r q))

/-- A maximum over the last of two axes, at (r): the fold of max, from the accumulator's value, over k of the
    source at (r, k). -/
theorem max_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun g => (Finset.univ : Finset (Fin b)).fold max (Ideal.ofBits φ acc) g)
      (funext fun k => congrArg src (lift_last2 h r k)))

/-- The host's maximum over the last of two axes, at (r): the same fold, from the initial value's element. -/
theorem host_max_last2_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) :=
  (Host.reduce_eq_fold_single (FloatOps.maximumf (F := Ideal) (φ := φ)) x init h' h hu (ix1 r)).trans
    (congrArg (fun g => (Finset.univ : Finset (Fin b)).fold max (init (Shape.Idx.first hu)) g)
      (funext fun k => congrArg x (lift_last2 h r k)))

end Cert.Keepdims

end
-- ==== Proof.KVal0.lean ====
/- The first layer's region, read as one whole-array function: over its fifty row blocks the output array ends at the clamped linear map of the two row-blocked inputs, the two weight matrices and the bias row. -/
import proofs.«171139_j32804960207226_1_alg».proof.Proof.Gen.KernelIdeal.Frame
import proofs.«171139_j32804960207226_1_alg».proof.Proof.Spec
import proofs.«171139_j32804960207226_1_alg».proof.Proof.LibDotPlain
import proofs.«171139_j32804960207226_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal0

open Cert.KernelIdeal Cert.KernelIdeal.Gen
open Idealize.ShloMosaic Idealize.ShloMosaic.TcCoe Idealize.ShloMosaic.ValueIdx
open Idealize.ShloMosaic.Pipeline (Dat Cfg Window)
open scoped BigOperators

/-- The product of a row block with a weight matrix into a zero accumulator, at row p and column q: the sum over the
    contracted coordinate k of l(p,k)·r(k,q). -/
theorem prod_apply (l : FVec Ideal S2048x128 .bf16) (r : FVec Ideal S128x256 .bf16) (p : Fin 2048) (q : Fin 256) :
    matmul dot_S2048x128_S128x256_S2048x256_1_0_0_1_n_n none l r (constant (F := Ideal) S2048x256 .f32 0x00000000#32) (ix2 p q)
      = ∑ k : Fin 128, l (ix2 p k) * r (ix2 k q) :=
  Cert.DotPlain.matmul_zero_rows_cols dot_S2048x128_S128x256_S2048x256_1_0_0_1_n_n rfl rfl rfl rfl rfl rfl none l r p q

/-- The payload of one row block at row p and column q: the clamp at zero of the two products' sum plus the bias row. -/
theorem pay_apply (x0 x1 : Vec Ideal S2048x128 .f32) (x2 x4 : Vec Ideal S128x256 .f32) (x3 : Vec Ideal S1x256 .f32)
    (p : Fin 2048) (q : Fin 256) :
    k0_pay1 (F := Ideal) x0 x1 x2 x4 x3 (ix2 p q)
      = max (((∑ k : Fin 128, x0 (ix2 p k) * x2 (ix2 k q)) + ∑ k : Fin 128, x1 (ix2 p k) * x4 (ix2 k q)) + x3 (ix2 (0 : Fin 1) q)) 0 := by
  unfold k0_pay1
  rw [maximumf_apply, addf_apply, addf_apply, broadcast_apply, prod_apply, prod_apply, broadcastTo_1b_ab_apply]
  simp only [truncf_apply, shapeCast_self]
  show max _ (Ideal.ofBits .f32 0x00000000#32) = _
  rw [Ideal.ofBits_zero_f32]

/-- The payload of a row block whose rows are rows of the two blocked arrays, at an entry (p, q) of the block that is
    entry (a, q) of the whole array: the layer's clamped linear part there. -/
theorem pay_eq_spec (x0 x1 : Vec Ideal S2048x128 .f32) (x2 x4 : Vec Ideal S128x256 .f32) (x3 : Vec Ideal S1x256 .f32)
    (agg xd : Sage.Mat 102400 128) (p : Fin 2048) (q : Fin 256) (a : Fin 102400)
    (e0 : ∀ k : Fin 128, x0 (ix2 p k) = agg (ix2 a k)) (e1 : ∀ k : Fin 128, x1 (ix2 p k) = xd (ix2 a k)) :
    k0_pay1 (F := Ideal) x0 x1 x2 x4 x3 (ix2 p q)
      = Sage.relu (Sage.lin agg xd x2 x4 (fun b => x3 (ix2 (0 : Fin 1) b))) (ix2 a q) := by
  rw [pay_apply, Sage.relu_apply, Sage.lin_apply, ← Sage.linAt'_eq]
  unfold Sage.linAt'
  simp only [e0, e1]

theorem hz : (![0, 0] : Fin 2 → Nat) = fun _ => 0 := funext fun a => by fin_cases a <;> rfl

/-- The printed index maps over the fifty points: the row-blocked windows sit at block (t, 0), the whole ones at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

-- the TensorCore's buffer contents when the region is entered
variable (V : (c : Dev nD) → (b : Ref sig .tc) → Buf (Elt Ideal) ((c : Thread nD τ).loc b))

/-- Window 0's block at point t is rows 2048·t … 2048·t + 2047 of the aggregate. -/
theorem iblk_agg (c : Dev nD) (t : Fin cfg0.N) (x : S2048x128.Idx) (k : S102400x128.Idx)
    (hk0 : (k 0).val = 2048 * t.val + (x 0).val) (hk1 : (k 1).val = (x 1).val) :
    (iblk0 V c 0 t : Vec Ideal S2048x128 .f32) x = (V c main_v19 : S102400x128.Idx → EReal) k := by
  obtain ⟨i0, i1, -⟩ := idx_facts t
  unfold iblk0
  rw [View.read_apply]
  show V c main_v19 _ = V c main_v19 _
  congr 1
  funext a
  apply Fin.ext
  match a with
  | ⟨0, _⟩ => show win0_0.index t 0 * 2048 + 1 * (x 0).val = (k 0).val; rw [i0, hk0]; omega
  | ⟨1, _⟩ => show win0_0.index t 1 * 128 + 1 * (x 1).val = (k 1).val; rw [i1, hk1]; omega

/-- Window 1's block at point t is the same rows of the nodes' own features. -/
theorem iblk_own (c : Dev nD) (t : Fin cfg0.N) (x : S2048x128.Idx) (k : S102400x128.Idx)
    (hk0 : (k 0).val = 2048 * t.val + (x 0).val) (hk1 : (k 1).val = (x 1).val) :
    (iblk0 V c 1 t : Vec Ideal S2048x128 .f32) x = (V c main_v0 : S102400x128.Idx → EReal) k := by
  obtain ⟨-, -, i0, i1, -⟩ := idx_facts t
  unfold iblk0
  rw [View.read_apply]
  show V c main_v0 _ = V c main_v0 _
  congr 1
  funext a
  apply Fin.ext
  match a with
  | ⟨0, _⟩ => show win0_1.index t 0 * 2048 + 1 * (x 0).val = (k 0).val; rw [i0, hk0]; omega
  | ⟨1, _⟩ => show win0_1.index t 1 * 128 + 1 * (x 1).val = (k 1).val; rw [i1, hk1]; omega

/-- Window 2's one block is the whole first weight matrix. -/
theorem iblk_wl (c : Dev nD) (t : Fin cfg0.N) :
    (iblk0 V c 2 t : Vec Ideal S128x256 .f32) = (V c main_arg7 : S128x256.Idx → EReal) := by
  obtain ⟨-, -, -, -, i0, i1, -⟩ := idx_facts t
  funext x
  unfold iblk0
  rw [View.read_apply]
  show V c main_arg7 _ = V c main_arg7 _
  congr 1
  funext a
  apply Fin.ext
  match a with
  | ⟨0, _⟩ => show win0_2.index t 0 * 128 + 1 * (x 0).val = (x 0).val; rw [i0]; omega
  | ⟨1, _⟩ => show win0_2.index t 1 * 256 + 1 * (x 1).val = (x 1).val; rw [i1]; omega

/-- Window 3's one block is the whole bias row. -/
theorem iblk_bias (c : Dev nD) (t : Fin cfg0.N) :
    (iblk0 V c 3 t : Vec Ideal S1x256 .f32) = (V c main_v20 : S1x256.Idx → EReal) := by
  obtain ⟨-, -, -, -, -, -, i0, i1, -⟩ := idx_facts t
  funext x
  unfold iblk0
  rw [View.read_apply]
  show V c main_v20 _ = V c main_v20 _
  congr 1
  funext a
  apply Fin.ext
  match a with
  | ⟨0, _⟩ => show win0_3.index t 0 * 1 + 1 * (x 0).val = (x 0).val; rw [i0]; omega
  | ⟨1, _⟩ => show win0_3.index t 1 * 256 + 1 * (x 1).val = (x 1).val; rw [i1]; omega

/-- Window 4's one block is the whole second weight matrix. -/
theorem iblk_wr (c : Dev nD) (t : Fin cfg0.N) :
    (iblk0 V c 4 t : Vec Ideal S128x256 .f32) = (V c main_arg9 : S128x256.Idx → EReal) := by
  obtain ⟨-, -, -, -, -, -, -, -, i0, i1, -⟩ := idx_facts t
  funext x
  unfold iblk0
  rw [View.read_apply]
  show V c main_arg9 _ = V c main_arg9 _
  congr 1
  funext a
  apply Fin.ext
  match a with
  | ⟨0, _⟩ => show win0_4.index t 0 * 128 + 1 * (x 0).val = (x 0).val; rw [i0]; omega
  | ⟨1, _⟩ => show win0_4.index t 1 * 256 + 1 * (x 1).val = (x 1).val; rw [i1]; omega

/-- The layer's clamped linear part of the arrays the region was entered with. -/
abbrev layer (c : Dev nD) : Sage.Mat 102400 256 :=
  Sage.relu (Sage.lin (V c main_v19) (V c main_v0) (V c main_arg7) (V c main_arg9) (fun b => V c main_v20 (ix2 0 b)))

/-- What point t writes back is block t of the layer's clamped linear part. -/
theorem flushed_eq (c : Dev nD) (t : Fin cfg0.N) :
    (dat0 (F := Ideal) V c).flushed 5 t = ((cfg0.win 5).blk t).view.read (Elt Ideal) (layer V c) := by
  show (cfg0.win 5).cut (grid0.coords t) ((dat0 (F := Ideal) V c).after 5 t) = _
  rw [after0_5]
  unfold out0_5
  rw [View.canon_unit_zero hz]
  simp only [View.ld_unit_zero (S := S2048x128) hz, View.ld_unit_zero (S := S128x256) hz, View.ld_unit_zero (S := S1x256) hz]
  rw [iblk_wl, iblk_bias, iblk_wr]
  obtain ⟨-, -, -, -, -, -, -, -, -, -, i0, i1⟩ := idx_facts t
  funext j
  obtain ⟨p, q, rfl⟩ : ∃ (p : Fin 2048) (q : Fin 256), j = ix2 p q := ⟨j 0, j 1, eq_ix2 j⟩
  have ha : 2048 * t.val + p.val < 102400 := by
    have ht : t.val < 50 := lt_of_lt_of_eq t.isLt N_0
    have := p.isLt; omega
  show k0_pay1 (F := Ideal) (iblk0 V c 0 t) (iblk0 V c 1 t) _ _ _ (ix2 p q) = layer V c (((cfg0.win 5).blk t).view.emb (ix2 p q))
  have hemb : ((cfg0.win 5).blk t).view.emb (ix2 p q) = ix2 (⟨2048 * t.val + p.val, ha⟩ : Fin 102400) q := by
    funext a
    apply Fin.ext
    match a with
    | ⟨0, _⟩ => show win0_5.index t 0 * 2048 + 1 * p.val = 2048 * t.val + p.val; rw [i0]; omega
    | ⟨1, _⟩ => show win0_5.index t 1 * 256 + 1 * q.val = q.val; rw [i1]; omega
  rw [hemb]
  exact pay_eq_spec _ _ _ _ _ _ _ p q ⟨2048 * t.val + p.val, ha⟩
    (fun k => iblk_agg V c t _ _ rfl rfl) (fun k => iblk_own V c t _ _ rfl rfl)

/-- Row r of the output array lies in the block of point r / 2048. -/
theorem cover (i : S102400x256.Idx) :
    ∃ t : Fin cfg0.N, (cfg0.win 5).flush t = true ∧ i ∈ ((cfg0.win 5).blk t).view.set := by
  have h0 : (i 0).val < 102400 := (i 0).isLt
  have h1 : (i 1).val < 256 := (i 1).isLt
  obtain ⟨t, ht⟩ : ∃ t : Fin cfg0.N, t.val = (i 0).val / 2048 :=
    ⟨⟨(i 0).val / 2048, lt_of_lt_of_eq (by omega : (i 0).val / 2048 < 50) N_0.symm⟩, rfl⟩
  refine ⟨t, flush0_5 t, ?_⟩
  obtain ⟨-, -, -, -, -, -, -, -, -, -, i0, i1⟩ := idx_facts t
  show i ∈ ((View.whole main_v21).slice (win0_5.rect t)).set
  rw [View.set_slice_whole, Rect.mem_set_unit]
  intro a
  match a with
  | ⟨0, _⟩ =>
    show win0_5.index t 0 * 2048 ≤ (i 0).val ∧ (i 0).val < win0_5.index t 0 * 2048 + 2048
    rw [i0, ht]; omega
  | ⟨1, _⟩ =>
    show win0_5.index t 1 * 256 ≤ (i 1).val ∧ (i 1).val < win0_5.index t 1 * 256 + 256
    rw [i1]; omega

/-- After the region's run its output array is, entry by entry, max((Σₖ agg·Wl + bias) + Σₖ xd·Wr, 0) of the arrays the
    region was entered with. -/
theorem arr0 (c : Dev nD) :
    (dat0 (F := Ideal) V c).arrAt 5 cfg0.N
      = Sage.relu (Sage.lin (V c main_v19) (V c main_v0) (V c main_arg7) (V c main_arg9) (fun b => V c main_v20 (ix2 0 b))) :=
  (dat0 (F := Ideal) V c).arrAt_eq_of_cover 5 (layer V c) (fun t _ => flushed_eq V c t) cover

end Cert.KernelIdeal.KVal0

end
-- ==== Proof.KVal1.lean ====
/- The second layer's region, read as one whole-array function: over its ten row blocks the output array ends at the clamped linear map of the two row-blocked inputs, the two weight matrices and the bias row. -/
import proofs.«171139_j32804960207226_1_alg».proof.Proof.Gen.KernelIdeal.Frame
import proofs.«171139_j32804960207226_1_alg».proof.Proof.Spec
import proofs.«171139_j32804960207226_1_alg».proof.Proof.LibDotPlain
import proofs.«171139_j32804960207226_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal1

open Cert.KernelIdeal Cert.KernelIdeal.Gen
open Idealize.ShloMosaic Idealize.ShloMosaic.TcCoe Idealize.ShloMosaic.ValueIdx
open Idealize.ShloMosaic.Pipeline (Dat Cfg Window)
open scoped BigOperators

/-- The product of a row block with a weight matrix into a zero accumulator, at row p and column q: the sum over the
    contracted coordinate k of l(p,k)·r(k,q). -/
theorem prod_apply (l : FVec Ideal S1024x256 .bf16) (r : FVec Ideal S256x256 .bf16) (p : Fin 1024) (q : Fin 256) :
    matmul dot_S1024x256_S256x256_S1024x256_1_0_0_1_n_n none l r (constant (F := Ideal) S1024x256 .f32 0x00000000#32) (ix2 p q)
      = ∑ k : Fin 256, l (ix2 p k) * r (ix2 k q) :=
  Cert.DotPlain.matmul_zero_rows_cols dot_S1024x256_S256x256_S1024x256_1_0_0_1_n_n rfl rfl rfl rfl rfl rfl none l r p q

/-- The payload of one row block at row p and column q: the clamp at zero of the two products' sum plus the bias row. -/
theorem pay_apply (x0 x1 : Vec Ideal S1024x256 .f32) (x2 x4 : Vec Ideal S256x256 .f32) (x3 : Vec Ideal S1x256 .f32)
    (p : Fin 1024) (q : Fin 256) :
    k1_pay1 (F := Ideal) x0 x1 x2 x4 x3 (ix2 p q)
      = max (((∑ k : Fin 256, x0 (ix2 p k) * x2 (ix2 k q)) + ∑ k : Fin 256, x1 (ix2 p k) * x4 (ix2 k q)) + x3 (ix2 (0 : Fin 1) q)) 0 := by
  unfold k1_pay1
  rw [maximumf_apply, addf_apply, addf_apply, broadcast_apply, prod_apply, prod_apply, broadcastTo_1b_ab_apply]
  simp only [truncf_apply, shapeCast_self]
  show max _ (Ideal.ofBits .f32 0x00000000#32) = _
  rw [Ideal.ofBits_zero_f32]

/-- The payload of a row block whose rows are rows of the two blocked arrays, at an entry (p, q) of the block that is
    entry (a, q) of the whole array: the layer's clamped linear part there. -/
theorem pay_eq_spec (x0 x1 : Vec Ideal S1024x256 .f32) (x2 x4 : Vec Ideal S256x256 .f32) (x3 : Vec Ideal S1x256 .f32)
    (agg xd : Sage.Mat 10240 256) (p : Fin 1024) (q : Fin 256) (a : Fin 10240)
    (e0 : ∀ k : Fin 256, x0 (ix2 p k) = agg (ix2 a k)) (e1 : ∀ k : Fin 256, x1 (ix2 p k) = xd (ix2 a k)) :
    k1_pay1 (F := Ideal) x0 x1 x2 x4 x3 (ix2 p q)
      = Sage.relu (Sage.lin agg xd x2 x4 (fun b => x3 (ix2 (0 : Fin 1) b))) (ix2 a q) := by
  rw [pay_apply, Sage.relu_apply, Sage.lin_apply, ← Sage.linAt'_eq]
  unfold Sage.linAt'
  simp only [e0, e1]

theorem hz : (![0, 0] : Fin 2 → Nat) = fun _ => 0 := funext fun a => by fin_cases a <;> rfl

/-- The printed index maps over the ten points: the row-blocked windows sit at block (t, 0), the whole ones at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

-- the TensorCore's buffer contents when the region is entered
variable (V : (c : Dev nD) → (b : Ref sig .tc) → Buf (Elt Ideal) ((c : Thread nD τ).loc b))

/-- Window 0's block at point t is rows 1024·t … 1024·t + 1023 of the aggregate. -/
theorem iblk_agg (c : Dev nD) (t : Fin cfg1.N) (x : S1024x256.Idx) (k : S10240x256.Idx)
    (hk0 : (k 0).val = 1024 * t.val + (x 0).val) (hk1 : (k 1).val = (x 1).val) :
    (iblk1 V c 0 t : Vec Ideal S1024x256 .f32) x = (V c main_v41 : S10240x256.Idx → EReal) k := by
  obtain ⟨i0, i1, -⟩ := idx_facts t
  unfold iblk1
  rw [View.read_apply]
  show V c main_v41 _ = V c main_v41 _
  congr 1
  funext a
  apply Fin.ext
  match a with
  | ⟨0, _⟩ => show win1_0.index t 0 * 1024 + 1 * (x 0).val = (k 0).val; rw [i0, hk0]; omega
  | ⟨1, _⟩ => show win1_0.index t 1 * 256 + 1 * (x 1).val = (k 1).val; rw [i1, hk1]; omega

/-- Window 1's block at point t is the same rows of the nodes' own features. -/
theorem iblk_own (c : Dev nD) (t : Fin cfg1.N) (x : S1024x256.Idx) (k : S10240x256.Idx)
    (hk0 : (k 0).val = 1024 * t.val + (x 0).val) (hk1 : (k 1).val = (x 1).val) :
    (iblk1 V c 1 t : Vec Ideal S1024x256 .f32) x = (V c main_v22 : S10240x256.Idx → EReal) k := by
  obtain ⟨-, -, i0, i1, -⟩ := idx_facts t
  unfold iblk1
  rw [View.read_apply]
  show V c main_v22 _ = V c main_v22 _
  congr 1
  funext a
  apply Fin.ext
  match a with
  | ⟨0, _⟩ => show win1_1.index t 0 * 1024 + 1 * (x 0).val = (k 0).val; rw [i0, hk0]; omega
  | ⟨1, _⟩ => show win1_1.index t 1 * 256 + 1 * (x 1).val = (k 1).val; rw [i1, hk1]; omega

/-- Window 2's one block is the whole first weight matrix. -/
theorem iblk_wl (c : Dev nD) (t : Fin cfg1.N) :
    (iblk1 V c 2 t : Vec Ideal S256x256 .f32) = (V c main_arg10 : S256x256.Idx → EReal) := by
  obtain ⟨-, -, -, -, i0, i1, -⟩ := idx_facts t
  funext x
  unfold iblk1
  rw [View.read_apply]
  show V c main_arg10 _ = V c main_arg10 _
  congr 1
  funext a
  apply Fin.ext
  match a with
  | ⟨0, _⟩ => show win1_2.index t 0 * 256 + 1 * (x 0).val = (x 0).val; rw [i0]; omega
  | ⟨1, _⟩ => show win1_2.index t 1 * 256 + 1 * (x 1).val = (x 1).val; rw [i1]; omega

/-- Window 3's one block is the whole bias row. -/
theorem iblk_bias (c : Dev nD) (t : Fin cfg1.N) :
    (iblk1 V c 3 t : Vec Ideal S1x256 .f32) = (V c main_v42 : S1x256.Idx → EReal) := by
  obtain ⟨-, -, -, -, -, -, i0, i1, -⟩ := idx_facts t
  funext x
  unfold iblk1
  rw [View.read_apply]
  show V c main_v42 _ = V c main_v42 _
  congr 1
  funext a
  apply Fin.ext
  match a with
  | ⟨0, _⟩ => show win1_3.index t 0 * 1 + 1 * (x 0).val = (x 0).val; rw [i0]; omega
  | ⟨1, _⟩ => show win1_3.index t 1 * 256 + 1 * (x 1).val = (x 1).val; rw [i1]; omega

/-- Window 4's one block is the whole second weight matrix. -/
theorem iblk_wr (c : Dev nD) (t : Fin cfg1.N) :
    (iblk1 V c 4 t : Vec Ideal S256x256 .f32) = (V c main_arg12 : S256x256.Idx → EReal) := by
  obtain ⟨-, -, -, -, -, -, -, -, i0, i1, -⟩ := idx_facts t
  funext x
  unfold iblk1
  rw [View.read_apply]
  show V c main_arg12 _ = V c main_arg12 _
  congr 1
  funext a
  apply Fin.ext
  match a with
  | ⟨0, _⟩ => show win1_4.index t 0 * 256 + 1 * (x 0).val = (x 0).val; rw [i0]; omega
  | ⟨1, _⟩ => show win1_4.index t 1 * 256 + 1 * (x 1).val = (x 1).val; rw [i1]; omega

/-- The layer's clamped linear part of the arrays the region was entered with. -/
abbrev layer (c : Dev nD) : Sage.Mat 10240 256 :=
  Sage.relu (Sage.lin (V c main_v41) (V c main_v22) (V c main_arg10) (V c main_arg12) (fun b => V c main_v42 (ix2 0 b)))

/-- What point t writes back is block t of the layer's clamped linear part. -/
theorem flushed_eq (c : Dev nD) (t : Fin cfg1.N) :
    (dat1 (F := Ideal) V c).flushed 5 t = ((cfg1.win 5).blk t).view.read (Elt Ideal) (layer V c) := by
  show (cfg1.win 5).cut (grid1.coords t) ((dat1 (F := Ideal) V c).after 5 t) = _
  rw [after1_5]
  unfold out1_5
  rw [View.canon_unit_zero hz]
  simp only [View.ld_unit_zero (S := S1024x256) hz, View.ld_unit_zero (S := S256x256) hz, View.ld_unit_zero (S := S1x256) hz]
  rw [iblk_wl, iblk_bias, iblk_wr]
  obtain ⟨-, -, -, -, -, -, -, -, -, -, i0, i1⟩ := idx_facts t
  funext j
  obtain ⟨p, q, rfl⟩ : ∃ (p : Fin 1024) (q : Fin 256), j = ix2 p q := ⟨j 0, j 1, eq_ix2 j⟩
  have ha : 1024 * t.val + p.val < 10240 := by
    have ht : t.val < 10 := lt_of_lt_of_eq t.isLt N_1
    have := p.isLt; omega
  show k1_pay1 (F := Ideal) (iblk1 V c 0 t) (iblk1 V c 1 t) _ _ _ (ix2 p q) = layer V c (((cfg1.win 5).blk t).view.emb (ix2 p q))
  have hemb : ((cfg1.win 5).blk t).view.emb (ix2 p q) = ix2 (⟨1024 * t.val + p.val, ha⟩ : Fin 10240) q := by
    funext a
    apply Fin.ext
    match a with
    | ⟨0, _⟩ => show win1_5.index t 0 * 1024 + 1 * p.val = 1024 * t.val + p.val; rw [i0]; omega
    | ⟨1, _⟩ => show win1_5.index t 1 * 256 + 1 * q.val = q.val; rw [i1]; omega
  rw [hemb]
  exact pay_eq_spec _ _ _ _ _ _ _ p q ⟨1024 * t.val + p.val, ha⟩
    (fun k => iblk_agg V c t _ _ rfl rfl) (fun k => iblk_own V c t _ _ rfl rfl)

/-- Row r of the output array lies in the block of point r / 1024. -/
theorem cover (i : S10240x256.Idx) :
    ∃ t : Fin cfg1.N, (cfg1.win 5).flush t = true ∧ i ∈ ((cfg1.win 5).blk t).view.set := by
  have h0 : (i 0).val < 10240 := (i 0).isLt
  have h1 : (i 1).val < 256 := (i 1).isLt
  obtain ⟨t, ht⟩ : ∃ t : Fin cfg1.N, t.val = (i 0).val / 1024 :=
    ⟨⟨(i 0).val / 1024, lt_of_lt_of_eq (by omega : (i 0).val / 1024 < 10) N_1.symm⟩, rfl⟩
  refine ⟨t, flush1_5 t, ?_⟩
  obtain ⟨-, -, -, -, -, -, -, -, -, -, i0, i1⟩ := idx_facts t
  show i ∈ ((View.whole main_v43).slice (win1_5.rect t)).set
  rw [View.set_slice_whole, Rect.mem_set_unit]
  intro a
  match a with
  | ⟨0, _⟩ =>
    show win1_5.index t 0 * 1024 ≤ (i 0).val ∧ (i 0).val < win1_5.index t 0 * 1024 + 1024
    rw [i0, ht]; omega
  | ⟨1, _⟩ =>
    show win1_5.index t 1 * 256 ≤ (i 1).val ∧ (i 1).val < win1_5.index t 1 * 256 + 256
    rw [i1]; omega

/-- After the region's run its output array is, entry by entry, max((Σₖ agg·Wl + bias) + Σₖ xd·Wr, 0) of the arrays the
    region was entered with. -/
theorem arr1 (c : Dev nD) :
    (dat1 (F := Ideal) V c).arrAt 5 cfg1.N
      = Sage.relu (Sage.lin (V c main_v41) (V c main_v22) (V c main_arg10) (V c main_arg12) (fun b => V c main_v42 (ix2 0 b))) :=
  (dat1 (F := Ideal) V c).arrAt_eq_of_cover 5 (layer V c) (fun t _ => flushed_eq V c t) cover

end Cert.KernelIdeal.KVal1

end
-- ==== Proof.KVal2.lean ====
/- The last layer's region, one grid point over the whole arrays: its first output is the linear map, its second the log-softmax of that map's rows with the maximum and the logarithm added before the subtraction. -/
import proofs.«171139_j32804960207226_1_alg».proof.Proof.Gen.KernelIdeal.Frame
import proofs.«171139_j32804960207226_1_alg».proof.Proof.Spec
import proofs.«171139_j32804960207226_1_alg».proof.Proof.LibDotPlain
import proofs.«171139_j32804960207226_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal2

open Cert.KernelIdeal Cert.KernelIdeal.Gen
open Idealize.ShloMosaic Idealize.ShloMosaic.TcCoe Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

/-- The word of minus infinity reads as the bottom of the extended reals. -/
theorem negInf_word : Ideal.ofBits .f32 0xFF800000#32 = (⊥ : EReal) := by simp [Ideal.ofBits, Ideal.ieee]

/-- The first payload at (p, q): both products summed over the contracted coordinate, then the bias row's entry. -/
theorem pay1_apply (x0 x1 : Vec Ideal S1024x256 .f32) (x2 x4 : Vec Ideal S256x47 .f32) (x3 : Vec Ideal S1x47 .f32)
    (p : Fin 1024) (q : Fin 47) :
    k2_pay1 (F := Ideal) x0 x1 x2 x4 x3 (ix2 p q)
      = Sage.linAt' x0 x1 x2 x4 (fun b => x3 (ix2 (0 : Fin 1) b)) p q := by
  unfold k2_pay1 Sage.linAt'
  simp only [shapeCast_self]
  refine congrArg₂ (· + ·) (congrArg₂ (· + ·) ?_ ?_) ?_
  · exact Cert.DotPlain.matmul_zero_rows_cols dot_S1024x256_S256x47_S1024x47_1_0_0_1_n_n rfl rfl rfl rfl rfl rfl none _ _ p q
  · exact Cert.DotPlain.matmul_zero_rows_cols dot_S1024x256_S256x47_S1024x47_1_0_0_1_n_n rfl rfl rfl rfl rfl rfl none _ _ p q
  · exact broadcastTo_1b_ab_apply x3 broadcasts_S1x47_S1024x47 p q

/-- The first payload as a whole array is the linear map with the bias added last. -/
theorem pay1_eq (x0 x1 : Vec Ideal S1024x256 .f32) (x2 x4 : Vec Ideal S256x47 .f32) (x3 : Vec Ideal S1x47 .f32) :
    (k2_pay1 (F := Ideal) x0 x1 x2 x4 x3 : S1024x47.Idx → EReal)
      = Sage.lin x0 x1 x2 x4 (fun b => x3 (ix2 (0 : Fin 1) b)) :=
  Sage.mat_ext fun p q => (pay1_apply x0 x1 x2 x4 x3 p q).trans (Sage.linAt'_eq _ _ _ _ _ p q)

/-- A row's maximum as the vector operations compute it: the reduction over the last axis from −∞, the column
    viewed as [1024, 1]. -/
theorem rowMax_col (h : FVec Ideal S1024x47 .f32) (p : Fin 1024) (u : Fin 1) :
    shapeCast S1024x1 (multiReduction .maximumf [1] S1024 h 0xFF800000#32 reduces_S1024x47_S1024 (.inl rfl) rfl) shapeCasts_S1024_S1024x1 (ix2 p u)
      = Sage.rowMax h p := by
  rw [Cert.Keepdims.shapeCast_a_a1_apply]
  refine (Cert.Keepdims.max_last2_apply (a := 1024) (b := 47) h _ reduces_S1024x47_S1024 _ _ p).trans ?_
  rw [negInf_word]
  rfl

/-- The same column broadcast along its unit axis. -/
theorem rowMax_bcast (h : FVec Ideal S1024x47 .f32) (p : Fin 1024) (k : Fin 47) :
    broadcastTo S1024x47 (shapeCast S1024x1 (multiReduction .maximumf [1] S1024 h 0xFF800000#32 reduces_S1024x47_S1024 (.inl rfl) rfl) shapeCasts_S1024_S1024x1) broadcasts_S1024x1_S1024x47 (ix2 p k)
      = Sage.rowMax h p := by
  rw [Cert.Keepdims.broadcastTo_a1_ab_apply]
  exact rowMax_col h p 0

/-- The second payload at (p, q), over the first payload h: h(p,q) − (max_row + log Σ exp(h − max_row)). -/
theorem pay2_apply (x0 x1 : Vec Ideal S1024x256 .f32) (x2 x4 : Vec Ideal S256x47 .f32) (x3 : Vec Ideal S1x47 .f32)
    (p : Fin 1024) (q : Fin 47) :
    k2_pay2 (F := Ideal) x0 x1 x2 x4 x3 (ix2 p q)
      = Sage.lsmKAt (k2_pay1 (F := Ideal) x0 x1 x2 x4 x3) p q := by
  unfold k2_pay2
  generalize k2_pay1 (F := Ideal) x0 x1 x2 x4 x3 = h
  rw [subf_apply, Cert.Keepdims.broadcastTo_a1_ab_apply, addf_apply]
  unfold Sage.lsmKAt
  refine congrArg₂ (· - ·) rfl (congrArg₂ (· + ·) (rowMax_col h p 0) ?_)
  show Ideal.log (shapeCast S1024x1 _ shapeCasts_S1024_S1024x1 (ix2 p (0 : Fin 1))) = Ideal.log (Sage.rowExpSum h p)
  refine congrArg Ideal.log ?_
  rw [Cert.Keepdims.shapeCast_a_a1_apply]
  refine (Cert.Keepdims.sum_last2_apply (a := 1024) (b := 47) _ _ reduces_S1024x47_S1024 _ _ p).trans ?_
  unfold Sage.rowExpSum
  refine Finset.sum_congr rfl fun k _ => ?_
  show Ideal.exp (subf h _ (ix2 p k)) = _
  rw [subf_apply, rowMax_bcast]

/-- The second payload as a whole array is the row-wise log-softmax of the linear map. -/
theorem pay2_eq (x0 x1 : Vec Ideal S1024x256 .f32) (x2 x4 : Vec Ideal S256x47 .f32) (x3 : Vec Ideal S1x47 .f32) :
    (k2_pay2 (F := Ideal) x0 x1 x2 x4 x3 : S1024x47.Idx → EReal)
      = Sage.lsmK (M := 1024) (N := 47) (Sage.lin x0 x1 x2 x4 (fun b => x3 (ix2 (0 : Fin 1) b))) :=
  (Sage.mat_ext fun p q => (pay2_apply x0 x1 x2 x4 x3 p q).trans (Sage.lsmK_apply (M := 1024) (N := 47) _ p q).symm).trans
    (congrArg (Sage.lsmK (M := 1024) (N := 47)) (pay1_eq x0 x1 x2 x4 x3))

/-- The zero offsets of a whole-buffer access, spelt as a constant function. -/
theorem hz : (![0, 0] : Fin 2 → Nat) = fun _ => 0 := funext fun a => by fin_cases a <;> rfl

/-! With one grid point each input window's block is its whole array. -/

theorem iblk_0 (c : Dev nD) : iblk2 (F := Ideal) V c 0 t2_0 = V c main_v63 := by
  unfold iblk2
  have hz' : (fun a => win2_0.index t2_0 a * main_v63.ty.shape.size a) = fun _ => 0 := funext fun a => by fin_cases a <;> decide
  exact Memref.read_access_unit_zero (Elt Ideal) main_v63 hz' (fun a => by rw [congrFun hz' a]; simp) (V c main_v63)
theorem iblk_1 (c : Dev nD) : iblk2 (F := Ideal) V c 1 t2_0 = V c main_v44 := by
  unfold iblk2
  have hz' : (fun a => win2_1.index t2_0 a * main_v44.ty.shape.size a) = fun _ => 0 := funext fun a => by fin_cases a <;> decide
  exact Memref.read_access_unit_zero (Elt Ideal) main_v44 hz' (fun a => by rw [congrFun hz' a]; simp) (V c main_v44)
theorem iblk_2 (c : Dev nD) : iblk2 (F := Ideal) V c 2 t2_0 = V c main_arg13 := by
  unfold iblk2
  have hz' : (fun a => win2_2.index t2_0 a * main_arg13.ty.shape.size a) = fun _ => 0 := funext fun a => by fin_cases a <;> decide
  exact Memref.read_access_unit_zero (Elt Ideal) main_arg13 hz' (fun a => by rw [congrFun hz' a]; simp) (V c main_arg13)
theorem iblk_3 (c : Dev nD) : iblk2 (F := Ideal) V c 3 t2_0 = V c main_v64 := by
  unfold iblk2
  have hz' : (fun a => win2_3.index t2_0 a * main_v64.ty.shape.size a) = fun _ => 0 := funext fun a => by fin_cases a <;> decide
  exact Memref.read_access_unit_zero (Elt Ideal) main_v64 hz' (fun a => by rw [congrFun hz' a]; simp) (V c main_v64)
theorem iblk_4 (c : Dev nD) : iblk2 (F := Ideal) V c 4 t2_0 = V c main_arg15 := by
  unfold iblk2
  have hz' : (fun a => win2_4.index t2_0 a * main_arg15.ty.shape.size a) = fun _ => 0 := funext fun a => by fin_cases a <;> decide
  exact Memref.read_access_unit_zero (Elt Ideal) main_arg15 hz' (fun a => by rw [congrFun hz' a]; simp) (V c main_arg15)

/-- What the one point writes back to output window 5 is the whole array's closed form read through the point's block. -/
theorem flushed5_eq (c : Dev nD) (t : Fin cfg2.N) :
    (dat2 (F := Ideal) V c).flushed 5 t = ((cfg2.win 5).blk t).view.read (Elt Ideal) (Sage.lin (V c main_v63) (V c main_v44) (V c main_arg13) (V c main_arg15) (fun b => V c main_v64 (ix2 0 b))) := by
  obtain rfl := fin_N2 t
  show (cfg2.win 5).cut (grid2.coords t2_0) ((dat2 V c).after 5 t2_0) = _
  rw [after2_5]
  unfold out2_5
  rw [View.canon_unit_zero hz]
  simp only [View.ld_unit_zero (S := S1024x256) hz, View.ld_unit_zero (S := S256x47) hz, View.ld_unit_zero (S := S1x47) hz]
  rw [iblk_0, iblk_1, iblk_2, iblk_3, iblk_4]
  have hz' : (fun a => win2_5.index t2_0 a * main_v65_0.ty.shape.size a) = fun _ => 0 := funext fun a => by fin_cases a <;> decide
  refine Eq.trans ?_ (Memref.read_access_unit_zero (Elt Ideal) main_v65_0 hz' (fun a => by rw [congrFun hz' a]; simp) _).symm
  exact pay1_eq _ _ _ _ _

/-- The one point's block of output window 5 is the whole array, so it covers every index. -/
theorem cover5 (c : Dev nD) (i : ((cfg2.win 5).arr.view.loc (c.tc : Thread nD τ)).2.ty.Idx) :
    ∃ t : Fin cfg2.N, (cfg2.win 5).flush t = true ∧ i ∈ ((cfg2.win 5).blk t).view.set :=
  ⟨t2_0, flush2_5 t2_0, by
    show i ∈ ((View.whole main_v65_0).slice (win2_5.rect t2_0)).set
    rw [View.set_slice_whole, Rect.mem_set_unit]
    intro a
    have h0 : (i 0 : Nat) < 1024 := (i 0).isLt
    have h1 : (i 1 : Nat) < 47 := (i 1).isLt
    match a with
    | ⟨0, _⟩ => show win2_5.index t2_0 0 * win2_5.size 0 ≤ (i 0 : Nat) ∧ (i 0 : Nat) < win2_5.index t2_0 0 * win2_5.size 0 + win2_5.xsize (grid2.coords t2_0) 0
                rw [show win2_5.index t2_0 0 * win2_5.size 0 = 0 from by decide +kernel, show win2_5.xsize (grid2.coords t2_0) 0 = 1024 from by decide +kernel]; omega
    | ⟨1, _⟩ => show win2_5.index t2_0 1 * win2_5.size 1 ≤ (i 1 : Nat) ∧ (i 1 : Nat) < win2_5.index t2_0 1 * win2_5.size 1 + win2_5.xsize (grid2.coords t2_0) 1
                rw [show win2_5.index t2_0 1 * win2_5.size 1 = 0 from by decide +kernel, show win2_5.xsize (grid2.coords t2_0) 1 = 47 from by decide +kernel]; omega⟩

/-- What the one point writes back to output window 6 is the whole array's closed form read through the point's block. -/
theorem flushed6_eq (c : Dev nD) (t : Fin cfg2.N) :
    (dat2 (F := Ideal) V c).flushed 6 t = ((cfg2.win 6).blk t).view.read (Elt Ideal) (Sage.lsmK (Sage.lin (V c main_v63) (V c main_v44) (V c main_arg13) (V c main_arg15) (fun b => V c main_v64 (ix2 0 b)))) := by
  obtain rfl := fin_N2 t
  show (cfg2.win 6).cut (grid2.coords t2_0) ((dat2 V c).after 6 t2_0) = _
  rw [after2_6]
  unfold out2_6
  rw [View.canon_unit_zero hz]
  simp only [View.ld_unit_zero (S := S1024x256) hz, View.ld_unit_zero (S := S256x47) hz, View.ld_unit_zero (S := S1x47) hz]
  rw [iblk_0, iblk_1, iblk_2, iblk_3, iblk_4]
  have hz' : (fun a => win2_6.index t2_0 a * main_v65_1.ty.shape.size a) = fun _ => 0 := funext fun a => by fin_cases a <;> decide
  refine Eq.trans ?_ (Memref.read_access_unit_zero (Elt Ideal) main_v65_1 hz' (fun a => by rw [congrFun hz' a]; simp) _).symm
  exact pay2_eq _ _ _ _ _

/-- The one point's block of output window 6 is the whole array, so it covers every index. -/
theorem cover6 (c : Dev nD) (i : ((cfg2.win 6).arr.view.loc (c.tc : Thread nD τ)).2.ty.Idx) :
    ∃ t : Fin cfg2.N, (cfg2.win 6).flush t = true ∧ i ∈ ((cfg2.win 6).blk t).view.set :=
  ⟨t2_0, flush2_6 t2_0, by
    show i ∈ ((View.whole main_v65_1).slice (win2_6.rect t2_0)).set
    rw [View.set_slice_whole, Rect.mem_set_unit]
    intro a
    have h0 : (i 0 : Nat) < 1024 := (i 0).isLt
    have h1 : (i 1 : Nat) < 47 := (i 1).isLt
    match a with
    | ⟨0, _⟩ => show win2_6.index t2_0 0 * win2_6.size 0 ≤ (i 0 : Nat) ∧ (i 0 : Nat) < win2_6.index t2_0 0 * win2_6.size 0 + win2_6.xsize (grid2.coords t2_0) 0
                rw [show win2_6.index t2_0 0 * win2_6.size 0 = 0 from by decide +kernel, show win2_6.xsize (grid2.coords t2_0) 0 = 1024 from by decide +kernel]; omega
    | ⟨1, _⟩ => show win2_6.index t2_0 1 * win2_6.size 1 ≤ (i 1 : Nat) ∧ (i 1 : Nat) < win2_6.index t2_0 1 * win2_6.size 1 + win2_6.xsize (grid2.coords t2_0) 1
                rw [show win2_6.index t2_0 1 * win2_6.size 1 = 0 from by decide +kernel, show win2_6.xsize (grid2.coords t2_0) 1 = 47 from by decide +kernel]; omega⟩

/-- The first output array: (Σₖ agg·Wl + bias) + Σₖ xd·Wr, entry by entry. -/
theorem arr2_h (c : Dev nD) :
    (dat2 (F := Ideal) V c).arrAt 5 cfg2.N
      = Sage.lin (V c main_v63) (V c main_v44) (V c main_arg13) (V c main_arg15) (fun b => V c main_v64 (ix2 0 b)) :=
  (dat2 (F := Ideal) V c).arrAt_eq_of_cover 5 _ (fun t _ => flushed5_eq V c t) (cover5 c)

/-- The second output array: the row-wise log-softmax  h − (max h + log Σ exp(h − max h))  of the first. -/
theorem arr2_logp (c : Dev nD) :
    (dat2 (F := Ideal) V c).arrAt 6 cfg2.N
      = Sage.lsmK (Sage.lin (V c main_v63) (V c main_v44) (V c main_arg13) (V c main_arg15) (fun b => V c main_v64 (ix2 0 b))) :=
  (dat2 (F := Ideal) V c).arrAt_eq_of_cover 6 _ (fun t _ => flushed6_eq V c t) (cover6 c)

end Cert.KernelIdeal.KVal2

end
-- ==== Proof.KHost.lean ====
/- The host stretches between the regions, read through the run's fold: the arrays each region is entered with
   are the reference's own stages of the launch arguments, once the previous region's output is known to be the
   reference's previous layer. -/
import proofs.«171139_j32804960207226_1_alg».proof.Proof.Gen.KernelIdeal.Frame
import proofs.«171139_j32804960207226_1_alg».proof.Proof.ReadP
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.KHost

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-! ## Launch arguments read back through the fold

No host operation writes a launch argument, and none of the arguments below is an array a region owns, so
every stage of the fold holds, at such an argument's reference, the launch memory. -/

private theorem W1_arg3 (c : Dev nD) : W1 m ρ c (Proc.devRef .tc main_arg3) = m ((c.tc : Thread nD τ).loc main_arg3) := by
  dsimp only [W1]
  after_results_simp <;> rfl

private theorem W2_arg3 (c : Dev nD) : W2 m ρ c (Proc.devRef .tc main_arg3) = m ((c.tc : Thread nD τ).loc main_arg3) :=
  (W2_of_ne m ρ c main_arg3 (by decide)).trans (W1_arg3 m ρ c)

private theorem W1_arg4 (c : Dev nD) : W1 m ρ c (Proc.devRef .tc main_arg4) = m ((c.tc : Thread nD τ).loc main_arg4) := by
  dsimp only [W1]
  after_results_simp <;> rfl

private theorem W2_arg4 (c : Dev nD) : W2 m ρ c (Proc.devRef .tc main_arg4) = m ((c.tc : Thread nD τ).loc main_arg4) :=
  (W2_of_ne m ρ c main_arg4 (by decide)).trans (W1_arg4 m ρ c)

private theorem W1_arg5 (c : Dev nD) : W1 m ρ c (Proc.devRef .tc main_arg5) = m ((c.tc : Thread nD τ).loc main_arg5) := by
  dsimp only [W1]
  after_results_simp <;> rfl

private theorem W2_arg5 (c : Dev nD) : W2 m ρ c (Proc.devRef .tc main_arg5) = m ((c.tc : Thread nD τ).loc main_arg5) :=
  (W2_of_ne m ρ c main_arg5 (by decide)).trans (W1_arg5 m ρ c)

private theorem W1_arg6 (c : Dev nD) : W1 m ρ c (Proc.devRef .tc main_arg6) = m ((c.tc : Thread nD τ).loc main_arg6) := by
  dsimp only [W1]
  after_results_simp <;> rfl

private theorem W2_arg6 (c : Dev nD) : W2 m ρ c (Proc.devRef .tc main_arg6) = m ((c.tc : Thread nD τ).loc main_arg6) :=
  (W2_of_ne m ρ c main_arg6 (by decide)).trans (W1_arg6 m ρ c)

private theorem W1_arg10 (c : Dev nD) : W1 m ρ c (Proc.devRef .tc main_arg10) = m ((c.tc : Thread nD τ).loc main_arg10) := by
  dsimp only [W1]
  after_results_simp <;> rfl

private theorem W2_arg10 (c : Dev nD) : W2 m ρ c (Proc.devRef .tc main_arg10) = m ((c.tc : Thread nD τ).loc main_arg10) :=
  (W2_of_ne m ρ c main_arg10 (by decide)).trans (W1_arg10 m ρ c)

private theorem W1_arg11 (c : Dev nD) : W1 m ρ c (Proc.devRef .tc main_arg11) = m ((c.tc : Thread nD τ).loc main_arg11) := by
  dsimp only [W1]
  after_results_simp <;> rfl

private theorem W2_arg11 (c : Dev nD) : W2 m ρ c (Proc.devRef .tc main_arg11) = m ((c.tc : Thread nD τ).loc main_arg11) :=
  (W2_of_ne m ρ c main_arg11 (by decide)).trans (W1_arg11 m ρ c)

private theorem W1_arg12 (c : Dev nD) : W1 m ρ c (Proc.devRef .tc main_arg12) = m ((c.tc : Thread nD τ).loc main_arg12) := by
  dsimp only [W1]
  after_results_simp <;> rfl

private theorem W2_arg12 (c : Dev nD) : W2 m ρ c (Proc.devRef .tc main_arg12) = m ((c.tc : Thread nD τ).loc main_arg12) :=
  (W2_of_ne m ρ c main_arg12 (by decide)).trans (W1_arg12 m ρ c)

private theorem W1_arg13 (c : Dev nD) : W1 m ρ c (Proc.devRef .tc main_arg13) = m ((c.tc : Thread nD τ).loc main_arg13) := by
  dsimp only [W1]
  after_results_simp <;> rfl

private theorem W2_arg13 (c : Dev nD) : W2 m ρ c (Proc.devRef .tc main_arg13) = m ((c.tc : Thread nD τ).loc main_arg13) :=
  (W2_of_ne m ρ c main_arg13 (by decide)).trans (W1_arg13 m ρ c)

private theorem W1_arg14 (c : Dev nD) : W1 m ρ c (Proc.devRef .tc main_arg14) = m ((c.tc : Thread nD τ).loc main_arg14) := by
  dsimp only [W1]
  after_results_simp <;> rfl

private theorem W2_arg14 (c : Dev nD) : W2 m ρ c (Proc.devRef .tc main_arg14) = m ((c.tc : Thread nD τ).loc main_arg14) :=
  (W2_of_ne m ρ c main_arg14 (by decide)).trans (W1_arg14 m ρ c)

private theorem W1_arg15 (c : Dev nD) : W1 m ρ c (Proc.devRef .tc main_arg15) = m ((c.tc : Thread nD τ).loc main_arg15) := by
  dsimp only [W1]
  after_results_simp <;> rfl

private theorem W2_arg15 (c : Dev nD) : W2 m ρ c (Proc.devRef .tc main_arg15) = m ((c.tc : Thread nD τ).loc main_arg15) :=
  (W2_of_ne m ρ c main_arg15 (by decide)).trans (W1_arg15 m ρ c)

private theorem W3_arg5 (c : Dev nD) : W3 m ρ c (Proc.devRef .tc main_arg5) = m ((c.tc : Thread nD τ).loc main_arg5) := by
  dsimp only [W3]
  after_results_simp
  exact W2_arg5 m ρ c

private theorem W4_arg5 (c : Dev nD) : W4 m ρ c (Proc.devRef .tc main_arg5) = m ((c.tc : Thread nD τ).loc main_arg5) :=
  (W4_of_ne m ρ c main_arg5 (by decide)).trans (W3_arg5 m ρ c)

private theorem W3_arg6 (c : Dev nD) : W3 m ρ c (Proc.devRef .tc main_arg6) = m ((c.tc : Thread nD τ).loc main_arg6) := by
  dsimp only [W3]
  after_results_simp
  exact W2_arg6 m ρ c

private theorem W4_arg6 (c : Dev nD) : W4 m ρ c (Proc.devRef .tc main_arg6) = m ((c.tc : Thread nD τ).loc main_arg6) :=
  (W4_of_ne m ρ c main_arg6 (by decide)).trans (W3_arg6 m ρ c)

private theorem W3_arg13 (c : Dev nD) : W3 m ρ c (Proc.devRef .tc main_arg13) = m ((c.tc : Thread nD τ).loc main_arg13) := by
  dsimp only [W3]
  after_results_simp
  exact W2_arg13 m ρ c

private theorem W4_arg13 (c : Dev nD) : W4 m ρ c (Proc.devRef .tc main_arg13) = m ((c.tc : Thread nD τ).loc main_arg13) :=
  (W4_of_ne m ρ c main_arg13 (by decide)).trans (W3_arg13 m ρ c)

private theorem W3_arg14 (c : Dev nD) : W3 m ρ c (Proc.devRef .tc main_arg14) = m ((c.tc : Thread nD τ).loc main_arg14) := by
  dsimp only [W3]
  after_results_simp
  exact W2_arg14 m ρ c

private theorem W4_arg14 (c : Dev nD) : W4 m ρ c (Proc.devRef .tc main_arg14) = m ((c.tc : Thread nD τ).loc main_arg14) :=
  (W4_of_ne m ρ c main_arg14 (by decide)).trans (W3_arg14 m ρ c)

private theorem W3_arg15 (c : Dev nD) : W3 m ρ c (Proc.devRef .tc main_arg15) = m ((c.tc : Thread nD τ).loc main_arg15) := by
  dsimp only [W3]
  after_results_simp
  exact W2_arg15 m ρ c

private theorem W4_arg15 (c : Dev nD) : W4 m ρ c (Proc.devRef .tc main_arg15) = m ((c.tc : Thread nD τ).loc main_arg15) :=
  (W4_of_ne m ρ c main_arg15 (by decide)).trans (W3_arg15 m ρ c)

/-! ## Region 0's entry: the first stretch over the launch memory -/

/-- The mean-aggregated neighbour features the first region reads. -/
theorem V1_agg (c : Dev nD) :
    V1 m ρ c main_v19 = Cert.ReferenceIdeal.ReadP.val_main_v19 (F := Ideal) (m ((c.tc : Thread nD τ).loc main_arg0)) (m ((c.tc : Thread nD τ).loc main_arg1)) (m ((c.tc : Thread nD τ).loc main_arg2)) := by
  dsimp only [V1, W1]
  after_results_simp
  rfl

/-- The target nodes' own features: the leading rows of the input. -/
theorem V1_xd (c : Dev nD) :
    V1 m ρ c main_v0 = Cert.ReferenceIdeal.ReadP.val_main_v0 (F := Ideal) (m ((c.tc : Thread nD τ).loc main_arg0)) := by
  dsimp only [V1, W1]
  after_results_simp
  rfl

theorem V1_wl (c : Dev nD) : V1 m ρ c main_arg7 = m ((c.tc : Thread nD τ).loc main_arg7) := by
  dsimp only [V1, W1]
  after_results_simp <;> rfl

theorem V1_wr (c : Dev nD) : V1 m ρ c main_arg9 = m ((c.tc : Thread nD τ).loc main_arg9) := by
  dsimp only [V1, W1]
  after_results_simp <;> rfl

/-- The bias viewed as one row. -/
theorem V1_bl (c : Dev nD) (b : Fin 256) :
    V1 m ρ c main_v20 (ix2 (0 : Fin 1) b) = m ((c.tc : Thread nD τ).loc main_arg8) (ix1 b) := by
  have e : V1 m ρ c main_v20 = fun i => shapeCast S1x256 (m ((c.tc : Thread nD τ).loc main_arg8)) shapeCasts_S256_S1x256 i := by
    dsimp only [V1, W1]
    after_results_simp
    rfl
  rw [e]
  exact shapeCast_a_1a_apply _ _ _ _

/-! ## Region 1's entry: the second stretch over region 0's exit -/

theorem V3_agg (c : Dev nD)
    (h1 : W2 m ρ c (Proc.devRef .tc main_v21) = Cert.ReferenceIdeal.ReadP.val_main_v26 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9))) :
    V3 m ρ c main_v41 = Cert.ReferenceIdeal.ReadP.val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) := by
  dsimp only [V3, W3]
  after_results_simp
  rw [h1, W2_arg3 m ρ c, W2_arg4 m ρ c]
  rfl

theorem V3_xd (c : Dev nD)
    (h1 : W2 m ρ c (Proc.devRef .tc main_v21) = Cert.ReferenceIdeal.ReadP.val_main_v26 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9))) :
    V3 m ρ c main_v22 = Cert.ReferenceIdeal.ReadP.val_main_v27 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) := by
  dsimp only [V3, W3]
  after_results_simp
  rw [h1]
  rfl

theorem V3_wl (c : Dev nD) : V3 m ρ c main_arg10 = m ((c.tc : Thread nD τ).loc main_arg10) := by
  dsimp only [V3, W3]
  after_results_simp
  exact W2_arg10 m ρ c

theorem V3_wr (c : Dev nD) : V3 m ρ c main_arg12 = m ((c.tc : Thread nD τ).loc main_arg12) := by
  dsimp only [V3, W3]
  after_results_simp
  exact W2_arg12 m ρ c

theorem V3_bl (c : Dev nD) (b : Fin 256) :
    V3 m ρ c main_v42 (ix2 (0 : Fin 1) b) = m ((c.tc : Thread nD τ).loc main_arg11) (ix1 b) := by
  have e : V3 m ρ c main_v42 = fun i => shapeCast S1x256 (m ((c.tc : Thread nD τ).loc main_arg11)) shapeCasts_S256_S1x256 i := by
    dsimp only [V3, W3]
    after_results_simp
    rw [W2_arg11 m ρ c]
    rfl
  rw [e]
  exact shapeCast_a_1a_apply _ _ _ _

/-! ## Region 2's entry: the third stretch over region 1's exit -/

theorem V5_agg (c : Dev nD)
    (h2 : W4 m ρ c (Proc.devRef .tc main_v43) = Cert.ReferenceIdeal.ReadP.val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) :
    V5 m ρ c main_v63 = Cert.ReferenceIdeal.ReadP.val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  dsimp only [V5, W5]
  after_results_simp
  rw [h2, W4_arg5 m ρ c, W4_arg6 m ρ c]
  rfl

theorem V5_xd (c : Dev nD)
    (h2 : W4 m ρ c (Proc.devRef .tc main_v43) = Cert.ReferenceIdeal.ReadP.val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) :
    V5 m ρ c main_v44 = Cert.ReferenceIdeal.ReadP.val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  dsimp only [V5, W5]
  after_results_simp
  rw [h2]
  rfl

theorem V5_wl (c : Dev nD) : V5 m ρ c main_arg13 = m ((c.tc : Thread nD τ).loc main_arg13) := by
  dsimp only [V5, W5]
  after_results_simp
  exact W4_arg13 m ρ c

theorem V5_wr (c : Dev nD) : V5 m ρ c main_arg15 = m ((c.tc : Thread nD τ).loc main_arg15) := by
  dsimp only [V5, W5]
  after_results_simp
  exact W4_arg15 m ρ c

theorem V5_bl (c : Dev nD) (b : Fin 47) :
    V5 m ρ c main_v64 (ix2 (0 : Fin 1) b) = m ((c.tc : Thread nD τ).loc main_arg14) (ix1 b) := by
  have e : V5 m ρ c main_v64 = fun i => shapeCast S1x47 (m ((c.tc : Thread nD τ).loc main_arg14)) shapeCasts_S47_S1x47 i := by
    dsimp only [V5, W5]
    after_results_simp
    rw [W4_arg14 m ρ c]
    rfl
  rw [e]
  exact shapeCast_a_1a_apply _ _ _ _

end Cert.KernelIdeal.KHost

end
-- ==== Proof.RLayers.lean ====
/- The reference's three layers and its log-softmax, each stage read index by index: a hidden layer is the
   clamped linear map of the previous stage's aggregate and leading rows; the last layer is the linear map; the
   second result is the row-wise log-softmax with two subtractions. -/
import proofs.«171139_j32804960207226_1_alg».proof.Proof.ReadP
import proofs.«171139_j32804960207226_1_alg».proof.Proof.Spec
import proofs.«171139_j32804960207226_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RLayers

open Cert.ReferenceIdeal Cert.ReferenceIdeal.ReadP
open Idealize.ShloMosaic Idealize.ShloMosaic.ValueIdx

variable (x0 : (⟨S1024000x128, .f32⟩ : BufTy).Contents (Elt Ideal)) (x1 : (⟨S1024000, .i32⟩ : BufTy).Contents (Elt Ideal)) (x2 : (⟨S1024000, .i32⟩ : BufTy).Contents (Elt Ideal)) (x3 : (⟨S102400, .i32⟩ : BufTy).Contents (Elt Ideal)) (x4 : (⟨S102400, .i32⟩ : BufTy).Contents (Elt Ideal)) (x5 : (⟨S10240, .i32⟩ : BufTy).Contents (Elt Ideal)) (x6 : (⟨S10240, .i32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal)) (x13 : (⟨S256x47, .f32⟩ : BufTy).Contents (Elt Ideal)) (x14 : (⟨S47, .f32⟩ : BufTy).Contents (Elt Ideal)) (x15 : (⟨S256x47, .f32⟩ : BufTy).Contents (Elt Ideal))

/-- The first hidden layer. -/
theorem layer1 :
    val_main_v26 (F := Ideal) x0 x1 x2 x7 x8 x9
      = Sage.relu (Sage.lin (val_main_v19 (F := Ideal) x0 x1 x2) (val_main_v0 (F := Ideal) x0) x7 x9 (fun b => x8 (ix1 b))) := by
  refine Sage.mat_ext fun a b => ?_
  rw [val_main_v26_apply, val_main_v25_apply, val_main_v23_apply, val_main_v20_apply, val_main_v22_apply,
    val_main_v21_apply, val_main_v24_apply, val_main_call0_v0_apply, val_main_call0_cst_apply,
    Sage.relu_apply, Sage.lin_apply]
  have el : ∀ k : Fin 128, lidx_main_v20 (ix2 a b) k = ix2 a k := fun k =>
    funext fun x => Fin.ext (by match x with | ⟨0, _⟩ => rfl | ⟨1, _⟩ => rfl)
  have er : ∀ k : Fin 128, ridx_main_v20 (ix2 a b) k = ix2 k b := fun k =>
    funext fun x => Fin.ext (by match x with | ⟨0, _⟩ => rfl | ⟨1, _⟩ => rfl)
  have el' : ∀ k : Fin 128, lidx_main_v24 (ix2 a b) k = ix2 a k := fun k =>
    funext fun x => Fin.ext (by match x with | ⟨0, _⟩ => rfl | ⟨1, _⟩ => rfl)
  have er' : ∀ k : Fin 128, ridx_main_v24 (ix2 a b) k = ix2 k b := fun k =>
    funext fun x => Fin.ext (by match x with | ⟨0, _⟩ => rfl | ⟨1, _⟩ => rfl)
  have eb : idx_main_v21 (idx_main_v22 (ix2 a b)) = ix1 b :=
    funext fun x => Fin.ext (by match x with | ⟨0, _⟩ => rfl)
  simp only [el, er, el', er', eb, Ideal.addf_def, Ideal.maximumf_def, Ideal.ofBits_def, Ideal.ofBits_zero_f32]
  rfl

/-- The second hidden layer. -/
theorem layer2 :
    val_main_v53 (F := Ideal) x0 x1 x2 x3 x4 x7 x8 x9 x10 x11 x12
      = Sage.relu (Sage.lin (val_main_v46 (F := Ideal) x0 x1 x2 x3 x4 x7 x8 x9) (val_main_v27 (F := Ideal) x0 x1 x2 x7 x8 x9) x10 x12 (fun b => x11 (ix1 b))) := by
  refine Sage.mat_ext fun a b => ?_
  rw [val_main_v53_apply, val_main_v52_apply, val_main_v50_apply, val_main_v47_apply, val_main_v49_apply,
    val_main_v48_apply, val_main_v51_apply, val_main_call1_v0_apply, val_main_call1_cst_apply,
    Sage.relu_apply, Sage.lin_apply]
  have el : ∀ k : Fin 256, lidx_main_v47 (ix2 a b) k = ix2 a k := fun k =>
    funext fun x => Fin.ext (by match x with | ⟨0, _⟩ => rfl | ⟨1, _⟩ => rfl)
  have er : ∀ k : Fin 256, ridx_main_v47 (ix2 a b) k = ix2 k b := fun k =>
    funext fun x => Fin.ext (by match x with | ⟨0, _⟩ => rfl | ⟨1, _⟩ => rfl)
  have el' : ∀ k : Fin 256, lidx_main_v51 (ix2 a b) k = ix2 a k := fun k =>
    funext fun x => Fin.ext (by match x with | ⟨0, _⟩ => rfl | ⟨1, _⟩ => rfl)
  have er' : ∀ k : Fin 256, ridx_main_v51 (ix2 a b) k = ix2 k b := fun k =>
    funext fun x => Fin.ext (by match x with | ⟨0, _⟩ => rfl | ⟨1, _⟩ => rfl)
  have eb : idx_main_v48 (idx_main_v49 (ix2 a b)) = ix1 b :=
    funext fun x => Fin.ext (by match x with | ⟨0, _⟩ => rfl)
  simp only [el, er, el', er', eb, Ideal.addf_def, Ideal.maximumf_def, Ideal.ofBits_def, Ideal.ofBits_zero_f32]
  rfl

/-- The last layer: no clamp. -/
theorem layer3 :
    val_main_v79 (F := Ideal) x0 x1 x2 x3 x4 x5 x6 x7 x8 x9 x10 x11 x12 x13 x14 x15
      = Sage.lin (val_main_v73 (F := Ideal) x0 x1 x2 x3 x4 x5 x6 x7 x8 x9 x10 x11 x12) (val_main_v54 (F := Ideal) x0 x1 x2 x3 x4 x7 x8 x9 x10 x11 x12) x13 x15 (fun b => x14 (ix1 b)) := by
  refine Sage.mat_ext fun a b => ?_
  rw [val_main_v79_apply, val_main_v77_apply, val_main_v74_apply, val_main_v76_apply,
    val_main_v75_apply, val_main_v78_apply, Sage.lin_apply]
  have el : ∀ k : Fin 256, lidx_main_v74 (ix2 a b) k = ix2 a k := fun k =>
    funext fun x => Fin.ext (by match x with | ⟨0, _⟩ => rfl | ⟨1, _⟩ => rfl)
  have er : ∀ k : Fin 256, ridx_main_v74 (ix2 a b) k = ix2 k b := fun k =>
    funext fun x => Fin.ext (by match x with | ⟨0, _⟩ => rfl | ⟨1, _⟩ => rfl)
  have el' : ∀ k : Fin 256, lidx_main_v78 (ix2 a b) k = ix2 a k := fun k =>
    funext fun x => Fin.ext (by match x with | ⟨0, _⟩ => rfl | ⟨1, _⟩ => rfl)
  have er' : ∀ k : Fin 256, ridx_main_v78 (ix2 a b) k = ix2 k b := fun k =>
    funext fun x => Fin.ext (by match x with | ⟨0, _⟩ => rfl | ⟨1, _⟩ => rfl)
  have eb : idx_main_v75 (idx_main_v76 (ix2 a b)) = ix1 b :=
    funext fun x => Fin.ext (by match x with | ⟨0, _⟩ => rfl)
  simp only [el, er, el', er', eb, Ideal.addf_def]
  rfl

/-- The bit pattern of −∞ reads as the least extended real. -/
private theorem ofBits_negInf_f32 : Ideal.ofBits .f32 0xFF800000#32 = ⊥ := by
  simp [Ideal.ofBits, Ideal.ieee]

/-- Inside the log-softmax, the row maximum (reduced from −∞, then clamped below at −∞) is the row's maximum. -/
private theorem call2_max (r : Fin 1024) :
    val_main_call2_v2 (F := Ideal) x0 x1 x2 x3 x4 x5 x6 x7 x8 x9 x10 x11 x12 x13 x14 x15 (ix1 r)
      = Sage.rowMax (val_main_v79 (F := Ideal) x0 x1 x2 x3 x4 x5 x6 x7 x8 x9 x10 x11 x12 x13 x14 x15) r := by
  rw [val_main_call2_v2_apply, val_main_call2_v1_apply, val_main_call2_cst_0_apply]
  unfold val_main_call2_v0
  rw [Cert.Keepdims.host_max_last2_apply _ _ Gen.reducesTo_S1024x47_S1024_d1 (by decide) Gen.h_S_ r,
    val_main_call2_cst_apply]
  simp only [Ideal.maximumf_def, Ideal.ofBits_def, ofBits_negInf_f32]
  rw [max_eq_right bot_le]
  rfl

/-- Inside the log-softmax, the reduced sum (from 0) of the shifted exponentials is the row's sum. -/
private theorem call2_sum (r : Fin 1024) :
    val_main_call2_v7 (F := Ideal) x0 x1 x2 x3 x4 x5 x6 x7 x8 x9 x10 x11 x12 x13 x14 x15 (ix1 r)
      = Sage.rowExpSum (val_main_v79 (F := Ideal) x0 x1 x2 x3 x4 x5 x6 x7 x8 x9 x10 x11 x12 x13 x14 x15) r := by
  rw [val_main_call2_v7_apply, val_main_call2_cst_1_apply]
  have e1 : ∀ k : Fin 47, idx_main_call2_v7 (ix1 r) k = ix2 r k := fun k =>
    funext fun x => Fin.ext (by match x with | ⟨0, _⟩ => rfl | ⟨1, _⟩ => rfl)
  have e2 : ∀ k : Fin 47, idx_main_call2_v3 (idx_main_call2_v4 (ix2 r k)) = ix1 r := fun k =>
    funext fun x => Fin.ext (by match x with | ⟨0, _⟩ => rfl)
  simp only [e1, val_main_call2_v6_apply, val_main_call2_v5_apply, val_main_call2_v4_apply,
    val_main_call2_v3_apply, e2, call2_max, Ideal.ofBits_def, Ideal.ofBits_zero_f32, zero_add,
    Ideal.hostUnary_exp_def, Ideal.subf_def]
  rfl

/-- The second result: (h − max h) − log Σ exp(h − max h), row by row, of the last layer. -/
theorem logp :
    val_main_v80 (F := Ideal) x0 x1 x2 x3 x4 x5 x6 x7 x8 x9 x10 x11 x12 x13 x14 x15
      = Sage.lsmR (val_main_v79 (F := Ideal) x0 x1 x2 x3 x4 x5 x6 x7 x8 x9 x10 x11 x12 x13 x14 x15) := by
  refine Sage.mat_ext fun a b => ?_
  rw [val_main_v80_apply, val_main_call2_v5_apply, val_main_call2_v4_apply, val_main_call2_v3_apply,
    val_main_call2_v10_apply, val_main_call2_v9_apply, val_main_call2_v8_apply, Sage.lsmR_apply]
  have e3 : idx_main_call2_v3 (idx_main_call2_v4 (ix2 a b)) = ix1 a :=
    funext fun x => Fin.ext (by match x with | ⟨0, _⟩ => rfl)
  have e4 : idx_main_call2_v8 (idx_main_call2_v10 (ix2 a b)) = ix1 a :=
    funext fun x => Fin.ext (by match x with | ⟨0, _⟩ => rfl)
  rw [e3, e4, call2_max, call2_sum]
  rfl

end Cert.ReferenceIdeal.RLayers

end
-- ==== Proof.LibERealBatchNorm.lean ====
/- Extended-real arithmetic on real-valued data, and the identity between the two spellings of the
   variance of a finite family: the mean of the squares minus the square of the mean, and the mean of the
   squared deviations. Both are stated for families every entry of which is a real number; at an infinity
   the two spellings differ. -/
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Ring.Finset
import Mathlib.Analysis.SpecialFunctions.Pow.Real
import Mathlib.Tactic.Ring
import Mathlib.Tactic.FieldSimp
import Mathlib.Tactic.Positivity
import Mathlib.Tactic.Linarith

noncomputable section

namespace Cert.ERealBN

open Idealize.ShloMosaic
open scoped BigOperators

/-- An extended real that is a real number. -/
def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- The sum of real numbers, read in the extended reals, is the real sum. -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact IsReal.add (h a (Finset.mem_insert_self a s))
      (ih (fun i hi => h i (Finset.mem_insert_of_mem hi)))

theorem IsReal.div_coe {x : EReal} (hx : IsReal x) {r : ℝ} (hr : r ≠ 0) : IsReal (Ideal.div x (r : EReal)) := by
  rw [Ideal.div_coe hr x]
  exact IsReal.mul hx (IsReal.coe _)

theorem IsReal.rsqrt_of_pos {x : EReal} (hx : IsReal x) (hpos : 0 < x) : IsReal (Ideal.rsqrt x) := by
  obtain ⟨r, rfl⟩ := hx
  have hr : 0 < r := by exact_mod_cast hpos
  rw [Ideal.rsqrt_coe, if_neg (not_lt.mpr hr.le), if_neg hr.ne']
  exact ⟨_, rfl⟩

/-! The float constants the programs spell, as the extended reals their patterns denote. -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_1e5 : Ideal.ofBits .f32 0x47C35000#32 = ((100000 : ℝ) : EReal) := by
  simp [Ideal.ofBits, Ideal.ieee, -EReal.coe_mul]; norm_num

/-- The batch-normalisation epsilon is a positive real (the dyadic `10995116 · 2⁻⁴⁰`, about `1e-5`). -/
theorem ofBits_eps_pos : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul]

/-! The variance law. -/

/-- Division of a real sum by a nonzero real, in the reals. -/
private theorem div_sum_coe {ι : Type*} [Fintype ι] (f : ι → ℝ) {N : ℝ} (hN : N ≠ 0) :
    Ideal.div (∑ i, ((f i : ℝ) : EReal)) (N : EReal) = (((∑ i, f i) * (1 / N) : ℝ) : EReal) := by
  rw [Ideal.div_coe hN, coe_sum, ← EReal.coe_mul]

/-- The sum of squared deviations from `m`, expanded. -/
private theorem sum_dev_sq {ι : Type*} [Fintype ι] (f : ι → ℝ) (m : ℝ) :
    ∑ i, (f i - m) * (f i - m)
      = ∑ i, f i * f i - 2 * m * ∑ i, f i + (Fintype.card ι : ℝ) * (m * m) := by
  have h : ∀ i, (f i - m) * (f i - m) = f i * f i - 2 * m * f i + m * m := fun i => by ring
  simp_rw [h, Finset.sum_add_distrib, Finset.sum_sub_distrib, ← Finset.mul_sum, Finset.sum_const,
    Finset.card_univ, nsmul_eq_mul]
  ring

/-- The deviations' side, in the reals. -/
private theorem dev_coe {ι : Type*} [Fintype ι] (f : ι → ℝ) {N : ℝ} (hN : N ≠ 0) :
    Ideal.div (∑ i, (((f i : ℝ) : EReal) - Ideal.div (∑ i, ((f i : ℝ) : EReal)) (N : EReal))
        * (((f i : ℝ) : EReal) - Ideal.div (∑ i, ((f i : ℝ) : EReal)) (N : EReal))) (N : EReal)
      = (((∑ i, (f i - (∑ i, f i) * (1 / N)) * (f i - (∑ i, f i) * (1 / N))) * (1 / N) : ℝ) : EReal) := by
  rw [div_sum_coe f hN]
  simp_rw [← EReal.coe_sub, ← EReal.coe_mul]
  rw [div_sum_coe _ hN]

theorem var_eq {ι : Type*} [Fintype ι] (c : ι → EReal) (hc : ∀ i, IsReal (c i)) (N : ℝ) (hN : (Fintype.card ι : ℝ) = N) (hpos : 0 < N) :
    Ideal.div (∑ i, c i * c i) (N : EReal) - Ideal.div (∑ i, c i) (N : EReal) * Ideal.div (∑ i, c i) (N : EReal)
      = Ideal.div (∑ i, (c i - Ideal.div (∑ i, c i) (N : EReal)) * (c i - Ideal.div (∑ i, c i) (N : EReal))) (N : EReal) := by
  choose f hf using hc
  obtain rfl : c = fun i => ((f i : ℝ) : EReal) := funext hf
  have hN0 : N ≠ 0 := hpos.ne'
  rw [dev_coe f hN0, div_sum_coe f hN0]
  simp_rw [← EReal.coe_mul]
  rw [div_sum_coe _ hN0, ← EReal.coe_sub, sum_dev_sq, hN]
  congr 1
  field_simp
  ring

theorem var_isReal_nonneg {ι : Type*} [Fintype ι] (c : ι → EReal) (hc : ∀ i, IsReal (c i)) (N : ℝ) (hpos : 0 < N) :
    IsReal (Ideal.div (∑ i, (c i - Ideal.div (∑ i, c i) (N : EReal)) * (c i - Ideal.div (∑ i, c i) (N : EReal))) (N : EReal))
    ∧ 0 ≤ Ideal.div (∑ i, (c i - Ideal.div (∑ i, c i) (N : EReal)) * (c i - Ideal.div (∑ i, c i) (N : EReal))) (N : EReal) := by
  choose f hf using hc
  obtain rfl : c = fun i => ((f i : ℝ) : EReal) := funext hf
  rw [dev_coe f hpos.ne']
  refine ⟨IsReal.coe _, ?_⟩
  rw [EReal.coe_nonneg]
  exact mul_nonneg (Finset.sum_nonneg (fun i _ => mul_self_nonneg _)) (by positivity)

theorem rsqrt_var_isReal {v e : EReal} (hv : IsReal v) (hv0 : 0 ≤ v) (he : IsReal e) (he0 : 0 < e) : IsReal (Ideal.rsqrt (v + e)) := by
  obtain ⟨a, rfl⟩ := hv
  obtain ⟨b, rfl⟩ := he
  have ha : 0 ≤ a := by exact_mod_cast hv0
  have hb : 0 < b := by exact_mod_cast he0
  rw [← EReal.coe_add]
  refine IsReal.rsqrt_of_pos (IsReal.coe _) ?_
  exact_mod_cast (by linarith : 0 < a + b)

end Cert.ERealBN

end
-- ==== Proof.Algebra.lean ====
/- Extended-real facts the layers need: a layer's linear map and its clamp keep real entries real, and for a row
   of real entries the two groupings of the log-softmax agree, because the row's maximum is then a real number
   and  x − (m + L) = (x − m) − L  for real m and any L. -/
import proofs.«171139_j32804960207226_1_alg».proof.Proof.Spec
import proofs.«171139_j32804960207226_1_alg».proof.Proof.LibERealBatchNorm

noncomputable section

namespace Cert.Sage

open Idealize.ShloMosaic Idealize.ShloMosaic.ValueIdx Cert.ERealBN
open scoped BigOperators

variable {M K N : ℕ}

/-- A linear-map entry of real operands is real. -/
theorem linAt_isReal (agg xd : Mat M K) (Wl Wr : Mat K N) (bl : Fin N → EReal)
    (hagg : ∀ i, IsReal (agg i)) (hxd : ∀ i, IsReal (xd i)) (hWl : ∀ i, IsReal (Wl i)) (hWr : ∀ i, IsReal (Wr i))
    (hbl : ∀ b, IsReal (bl b)) (a : Fin M) (b : Fin N) : IsReal (linAt agg xd Wl Wr bl a b) := by
  unfold linAt
  -- sums of products of reals are real, and so is their sum with the bias
  refine IsReal.add (IsReal.add (IsReal.sum _ _ fun k _ => IsReal.mul (hagg _) (hWl _)) (hbl b))
    (IsReal.sum _ _ fun k _ => IsReal.mul (hxd _) (hWr _))

theorem lin_isReal (agg xd : Mat M K) (Wl Wr : Mat K N) (bl : Fin N → EReal)
    (hagg : ∀ i, IsReal (agg i)) (hxd : ∀ i, IsReal (xd i)) (hWl : ∀ i, IsReal (Wl i)) (hWr : ∀ i, IsReal (Wr i))
    (hbl : ∀ b, IsReal (bl b)) (j : (⟨2, ![M, N]⟩ : Shape).Idx) : IsReal (lin agg xd Wl Wr bl j) :=
  linAt_isReal agg xd Wl Wr bl hagg hxd hWl hWr hbl (j 0) (j 1)

theorem relu_isReal (h : Mat M N) (hh : ∀ i, IsReal (h i)) (j : (⟨2, ![M, N]⟩ : Shape).Idx) : IsReal (relu h j) :=
  IsReal.max (hh j) IsReal.zero

/-- The maximum, folded from −∞, of a non-empty finite family of reals is real: the first real entry absorbs −∞,
    and the maximum of two reals is one of them. -/
private theorem fold_max_isReal {ι : Type*} (s : Finset ι) (f : ι → EReal) (hs : s.Nonempty)
    (hf : ∀ i ∈ s, IsReal (f i)) : IsReal (s.fold max ⊥ f) := by
  classical
  induction s using Finset.induction_on with
  | empty => exact absurd hs Finset.not_nonempty_empty
  | insert a s ha ih =>
    rw [Finset.fold_insert ha]
    rcases s.eq_empty_or_nonempty with rfl | hne
    · rw [Finset.fold_empty, max_eq_left bot_le]
      exact hf a (Finset.mem_insert_self a _)
    · exact IsReal.max (hf a (Finset.mem_insert_self a s))
        (ih hne fun i hi => hf i (Finset.mem_insert_of_mem hi))

/-- The maximum of a non-empty row of reals is real. -/
theorem rowMax_isReal (h : Mat M N) (a : Fin M) (hN : 0 < N) (hr : ∀ q : Fin N, IsReal (h (ix2 a q))) : IsReal (rowMax h a) := by
  unfold rowMax
  exact fold_max_isReal _ _ ⟨⟨0, hN⟩, Finset.mem_univ _⟩ fun q _ => hr q

/-- For a real m and any x, L:  x − (m + L) = (x − m) − L.  The negation distributes over m + L because m is
    neither infinity, and addition is associative. -/
private theorem sub_add_real (x L : EReal) (r : ℝ) : x - ((r : EReal) + L) = (x - (r : EReal)) - L := by
  rw [sub_eq_add_neg, EReal.neg_add (Or.inl (EReal.coe_ne_bot r)) (Or.inl (EReal.coe_ne_top r)),
    sub_eq_add_neg, sub_eq_add_neg, sub_eq_add_neg, add_assoc]

/-- For a non-empty row of reals the two groupings of the log-softmax agree. -/
theorem lsm_eq (h : Mat M N) (a : Fin M) (hN : 0 < N) (hr : ∀ q : Fin N, IsReal (h (ix2 a q))) (b : Fin N) :
    lsmKAt h a b = lsmRAt h a b := by
  obtain ⟨r, hm⟩ := rowMax_isReal h a hN hr
  unfold lsmKAt lsmRAt
  rw [hm]
  exact sub_add_real _ _ r

theorem lsmK_eq_lsmR (h : Mat M N) (hN : 0 < N) (hr : ∀ i, IsReal (h i)) : lsmK h = lsmR h :=
  mat_ext fun a b => by
    rw [lsmK_apply, lsmR_apply]
    exact lsm_eq h a hN (fun q => hr _) b

end Cert.Sage

end
-- ==== Proof.LibScatterGather.lean ====
/- The host's accumulating scatter and its row gather, read at one index, for the shapes that a segment sum
   over a list of edges and a row lookup by a list of edges take: a vector or a matrix of rows indexed by an
   [E × 1] column of signed index words.

   An update whose index word, read signed, lies in [0, N) is added into that row; any other update is dropped.
   A gathered row is the row at the index word read signed and clamped into [0, N − 1]. -/
import Idealize.ShloMosaic.PureOps.Ideal
import Idealize.ShloMosaic.Lib.ValueIdx
import Idealize.ShloMosaic.Lib.StableHlo.Predicate

noncomputable section

namespace Cert.ScatterGather

open Idealize.ShloMosaic Idealize.ShloMosaic.ValueIdx
open scoped BigOperators

/-- The row an index word names for a scatter into `N` rows: the word read signed, when it lies in [0, N);
    no row otherwise (the update is dropped). -/
def tgtW (N : Nat) {w : Nat} (x : BitVec w) : Option (Fin N) :=
  if h : 0 ≤ x.toInt ∧ x.toInt < (N : Int) then some ⟨x.toInt.toNat, by omega⟩ else none

/-- The row an index word names for a gather from `N` rows: the word read signed and clamped into [0, N − 1]. -/
def rowW (N : Nat) (hN : 0 < N) {w : Nat} (x : BitVec w) : Fin N := ⟨min x.toInt.toNat (N - 1), by omega⟩

/-- A word that names row `i` for the scatter names the same row for the gather. -/
theorem rowW_of_tgtW {N : Nat} (hN : 0 < N) {w : Nat} (x : BitVec w) (i : Fin N) (h : tgtW N x = some i) :
    rowW N hN x = i := by
  unfold tgtW at h
  split at h
  · next hx =>
    have hi : (⟨x.toInt.toNat, by omega⟩ : Fin N) = i := Option.some.inj h
    subst hi
    apply Fin.ext
    show min x.toInt.toNat (N - 1) = x.toInt.toNat
    omega
  · exact absurd h (by simp)

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The scatter into a vector -/

section Vec

variable {N E w : Nat} (d : ScatterDims ⟨1, ![N]⟩ ⟨2, ![E, 1]⟩ ⟨1, ![E]⟩)

/-- The start of update `e`'s window on the operand's one axis: the e-th index word, read signed. -/
theorem start_vec (hs : d.scatterDimsToOperandDims = [0]) (hv : d.indexVectorDim = 1)
    (idx : IVec ⟨2, ![E, 1]⟩ w) (e : Fin E) :
    d.start (ix1 e) idx 0 = (idx (ix2 e 0)).toInt := by
  have hm : (0 : Fin 1) ∈ d.scatterDimsToOperandDims := by rw [hs]; exact List.mem_singleton.mpr rfl
  unfold ScatterDims.start
  rw [dif_pos hm]
  congr 2
  funext b
  match b with
  | ⟨0, _⟩ =>
    unfold ScatterDims.siIdx
    rw [dif_neg (by rw [hv]; simp)]
    unfold ScatterDims.siCoord
    apply Fin.ext
    simp only [Fin.val_cast]
    have e' : ∀ X : Fin 1, ((ix1 e : (⟨1, ![E]⟩ : Shape).Idx) X).val = e.val := fun X => by
      have hX : X = 0 := Subsingleton.elim _ _
      subst hX; rfl
    exact e' _
  | ⟨1, _⟩ =>
    unfold ScatterDims.siIdx
    rw [dif_pos (by rw [hv])]
    apply Fin.ext
    show List.idxOf (0 : Fin 1) d.scatterDimsToOperandDims = 0
    rw [hs]; simp

/-- The operand's one axis is inserted: the window coordinate there is 0. -/
theorem window_vec (hi : d.insertedWindowDims = [0]) (j : (⟨1, ![E]⟩ : Shape).Idx) : d.window j 0 = 0 := by
  have hk : (0 : Fin 1) ∉ d.sKept := by simp [ScatterDims.sKept, Shape.kept, hi]
  unfold ScatterDims.window
  rw [dif_neg hk]

/-- Where update `e` lands: the row its index word names, when it names one. -/
theorem resultIdx?_vec (hi : d.insertedWindowDims = [0])
    (hs : d.scatterDimsToOperandDims = [0]) (hv : d.indexVectorDim = 1)
    (idx : IVec ⟨2, ![E, 1]⟩ w) (e : Fin E) :
    d.resultIdx? (ix1 e) idx = (tgtW N (idx (ix2 e 0))).map ix1 := by
  have hst := start_vec d hs hv idx e
  have hwi := window_vec d hi (ix1 e)
  unfold ScatterDims.resultIdx? tgtW
  by_cases hx : 0 ≤ (idx (ix2 e 0)).toInt ∧ (idx (ix2 e 0)).toInt < (N : Int)
  · have hall : ∀ a : Fin 1, 0 ≤ d.start (ix1 e) idx a + d.window (ix1 e) a ∧
        d.start (ix1 e) idx a + d.window (ix1 e) a < (⟨1, ![N]⟩ : Shape).size a := fun a => by
      obtain rfl : a = 0 := Subsingleton.elim _ _
      rw [hst, hwi]
      show 0 ≤ (idx (ix2 e 0)).toInt + ((0 : Nat) : Int) ∧ (idx (ix2 e 0)).toInt + ((0 : Nat) : Int) < (N : Int)
      omega
    rw [dif_pos hall, dif_pos hx]
    show some _ = some _
    congr 1
    funext a
    obtain rfl : a = 0 := Subsingleton.elim _ _
    apply Fin.ext
    show (d.start (ix1 e) idx 0 + d.window (ix1 e) 0).toNat = (idx (ix2 e 0)).toInt.toNat
    rw [hst, hwi]
    simp
  · have hnall : ¬ ∀ a : Fin 1, 0 ≤ d.start (ix1 e) idx a + d.window (ix1 e) a ∧
        d.start (ix1 e) idx a + d.window (ix1 e) a < (⟨1, ![N]⟩ : Shape).size a := fun hall => by
      have h0 := hall 0
      rw [hst, hwi] at h0
      apply hx
      have h0' : 0 ≤ (idx (ix2 e 0)).toInt + ((0 : Nat) : Int) ∧ (idx (ix2 e 0)).toInt + ((0 : Nat) : Int) < (N : Int) := h0
      omega
    rw [dif_neg hnall, dif_neg hx]
    rfl

end Vec

/-- The scatter-add into a vector, at row `i`: the operand there plus the updates whose index word names row `i`. -/
theorem scatterAdd_vec_apply {N E w : Nat}
    (d : ScatterDims ⟨1, ![N]⟩ ⟨2, ![E, 1]⟩ ⟨1, ![E]⟩)
    (hu : d.updateWindowDims = []) (hi : d.insertedWindowDims = [0])
    (hs : d.scatterDimsToOperandDims = [0]) (hv : d.indexVectorDim = 1)
    (x : (⟨1, ![N]⟩ : Shape).Idx → EReal) (idx : IVec ⟨2, ![E, 1]⟩ w) (upd : (⟨1, ![E]⟩ : Shape).Idx → EReal) (i : Fin N) :
    Ideal.hostScatterAdd d x idx upd (ix1 i)
      = x (ix1 i) + ∑ e ∈ Finset.univ.filter (fun e : Fin E => tgtW N (idx (ix2 e 0)) = some i), upd (ix1 e) := by
  show x (ix1 i) + ∑ j ∈ Finset.univ.filter (fun j => d.resultIdx? j idx = some (ix1 i)), upd j = _
  congr 1
  rw [Finset.sum_filter, Finset.sum_filter, sum_idx1]
  refine Finset.sum_congr rfl fun e _ => ?_
  have hiff : d.resultIdx? (ix1 e) idx = some (ix1 i) ↔ tgtW N (idx (ix2 e 0)) = some i := by
    rw [resultIdx?_vec d hi hs hv idx e]
    cases tgtW N (idx (ix2 e 0)) with
    | none => simp
    | some r =>
      simp only [Option.map_some, Option.some.injEq]
      constructor
      · intro h'
        exact congrFun h' 0
      · intro h'
        rw [h']
  exact if_congr hiff rfl rfl

/-! ## The scatter of rows into a matrix -/

/-- The first coordinate of a rank-2 index, read on an axis known to be axis 0. -/
theorem ix2_val_axis0 {n0 n1 : Nat} (a : Fin n0) (b : Fin n1) (X : Fin 2) (hX : X = 0) :
    ((ix2 a b : (⟨2, ![n0, n1]⟩ : Shape).Idx) X).val = a.val := by
  subst hX; rfl

/-- The second coordinate of a rank-2 index, read on an axis known to be axis 1. -/
theorem ix2_val_axis1 {n0 n1 : Nat} (a : Fin n0) (b : Fin n1) (X : Fin 2) (hX : X = 1) :
    ((ix2 a b : (⟨2, ![n0, n1]⟩ : Shape).Idx) X).val = b.val := by
  subst hX; rfl

section Rows

variable {N H E w : Nat} (d : ScatterDims ⟨2, ![N, H]⟩ ⟨2, ![E, 1]⟩ ⟨2, ![E, H]⟩)

/-- The updates' scatter axis is axis 0 (axis 1 is the window axis). -/
theorem uScatter_rows (hu : d.updateWindowDims = [1]) : d.uScatter = [0] := by
  show (List.finRange 2).filter (fun a => a ∉ d.updateWindowDims) = [0]
  rw [hu]
  exact (by decide : (List.finRange 2).filter (fun a : Fin 2 => a ∉ [(1 : Fin 2)]) = [(0 : Fin 2)])

/-- The operand's kept axis is axis 1 (axis 0 is inserted). -/
theorem sKept_rows (hi : d.insertedWindowDims = [0]) : d.sKept = [1] := by
  show (List.finRange 2).filter (fun a => a ∉ d.insertedWindowDims) = [1]
  rw [hi]
  exact (by decide : (List.finRange 2).filter (fun a : Fin 2 => a ∉ [(0 : Fin 2)]) = [(1 : Fin 2)])

/-- The start of update (e, c)'s window on the operand's row axis: the e-th index word, read signed. -/
theorem start_rows0 (hu : d.updateWindowDims = [1])
    (hs : d.scatterDimsToOperandDims = [0]) (hv : d.indexVectorDim = 1)
    (idx : IVec ⟨2, ![E, 1]⟩ w) (e : Fin E) (c : Fin H) :
    d.start (ix2 e c) idx 0 = (idx (ix2 e 0)).toInt := by
  have hm : (0 : Fin 2) ∈ d.scatterDimsToOperandDims := by rw [hs]; exact List.mem_singleton.mpr rfl
  unfold ScatterDims.start
  rw [dif_pos hm]
  congr 2
  funext b
  match b with
  | ⟨0, _⟩ =>
    unfold ScatterDims.siIdx
    rw [dif_neg (by rw [hv]; simp)]
    unfold ScatterDims.siCoord
    apply Fin.ext
    simp only [Fin.val_cast]
    refine ix2_val_axis0 e c _ ?_
    have hall : ∀ X ∈ d.uScatter, X = 0 := by
      rw [uScatter_rows d hu]; intro X hX; exact List.mem_singleton.mp hX
    exact hall _ (List.getElem_mem _)
  | ⟨1, _⟩ =>
    unfold ScatterDims.siIdx
    rw [dif_pos (by rw [hv])]
    apply Fin.ext
    show List.idxOf (0 : Fin 2) d.scatterDimsToOperandDims = 0
    rw [hs]; simp

/-- The start index names no column: the window starts at column 0. -/
theorem start_rows1 (hs : d.scatterDimsToOperandDims = [0])
    (idx : IVec ⟨2, ![E, 1]⟩ w) (j : (⟨2, ![E, H]⟩ : Shape).Idx) : d.start j idx 1 = 0 := by
  have hm : (1 : Fin 2) ∉ d.scatterDimsToOperandDims := by
    rw [hs]; exact (by decide : (1 : Fin 2) ∉ [(0 : Fin 2)])
  unfold ScatterDims.start
  rw [dif_neg hm]

/-- The operand's row axis is inserted: the window coordinate there is 0. -/
theorem window_rows0 (hi : d.insertedWindowDims = [0]) (j : (⟨2, ![E, H]⟩ : Shape).Idx) : d.window j 0 = 0 := by
  have hk : (0 : Fin 2) ∉ d.sKept := by
    rw [sKept_rows d hi]; exact (by decide : (0 : Fin 2) ∉ [(1 : Fin 2)])
  unfold ScatterDims.window
  rw [dif_neg hk]

/-- The operand's column axis is the window axis: the window coordinate there is the update's column. -/
theorem window_rows1 (hu : d.updateWindowDims = [1]) (hi : d.insertedWindowDims = [0]) (e : Fin E) (c : Fin H) :
    d.window (ix2 e c) 1 = c.val := by
  have hk : (1 : Fin 2) ∈ d.sKept := by rw [sKept_rows d hi]; exact List.mem_singleton.mpr rfl
  unfold ScatterDims.window
  rw [dif_pos hk]
  refine ix2_val_axis1 e c _ ?_
  have hall : ∀ X ∈ d.updateWindowDims, X = 1 := by
    rw [hu]; intro X hX; exact List.mem_singleton.mp hX
  exact hall _ (List.getElem_mem _)

/-- Where update (e, c) lands: column `c` of the row its index word names, when it names one. -/
theorem resultIdx?_rows (hu : d.updateWindowDims = [1]) (hi : d.insertedWindowDims = [0])
    (hs : d.scatterDimsToOperandDims = [0]) (hv : d.indexVectorDim = 1)
    (idx : IVec ⟨2, ![E, 1]⟩ w) (e : Fin E) (c : Fin H) :
    d.resultIdx? (ix2 e c) idx = (tgtW N (idx (ix2 e 0))).map (fun r => ix2 r c) := by
  have hst0 := start_rows0 d hu hs hv idx e c
  have hst1 := start_rows1 d hs idx (ix2 e c)
  have hwi0 := window_rows0 d hi (ix2 e c)
  have hwi1 := window_rows1 d hu hi e c
  have hc := c.isLt
  unfold ScatterDims.resultIdx? tgtW
  by_cases hx : 0 ≤ (idx (ix2 e 0)).toInt ∧ (idx (ix2 e 0)).toInt < (N : Int)
  · have hall : ∀ a : Fin 2, 0 ≤ d.start (ix2 e c) idx a + d.window (ix2 e c) a ∧
        d.start (ix2 e c) idx a + d.window (ix2 e c) a < (⟨2, ![N, H]⟩ : Shape).size a := by
      refine Fin.forall_fin_two.2 ⟨?_, ?_⟩
      · rw [hst0, hwi0]
        show 0 ≤ (idx (ix2 e 0)).toInt + ((0 : Nat) : Int) ∧ (idx (ix2 e 0)).toInt + ((0 : Nat) : Int) < (N : Int)
        omega
      · rw [hst1, hwi1]
        show 0 ≤ (0 : Int) + (c.val : Int) ∧ (0 : Int) + (c.val : Int) < (H : Int)
        omega
    rw [dif_pos hall, dif_pos hx]
    show some _ = some _
    congr 1
    have hpt : ∀ a : Fin 2,
        (⟨(d.start (ix2 e c) idx a + d.window (ix2 e c) a).toNat, by have := hall a; omega⟩ :
          Fin ((⟨2, ![N, H]⟩ : Shape).size a))
        = (ix2 (⟨(idx (ix2 e 0)).toInt.toNat, by omega⟩ : Fin N) c : (⟨2, ![N, H]⟩ : Shape).Idx) a := by
      refine Fin.forall_fin_two.2 ⟨?_, ?_⟩
      · apply Fin.ext
        show (d.start (ix2 e c) idx 0 + d.window (ix2 e c) 0).toNat = (idx (ix2 e 0)).toInt.toNat
        rw [hst0, hwi0]
        simp
      · apply Fin.ext
        show (d.start (ix2 e c) idx 1 + d.window (ix2 e c) 1).toNat = c.val
        rw [hst1, hwi1]
        simp
    funext a
    exact hpt a
  · have hnall : ¬ ∀ a : Fin 2, 0 ≤ d.start (ix2 e c) idx a + d.window (ix2 e c) a ∧
        d.start (ix2 e c) idx a + d.window (ix2 e c) a < (⟨2, ![N, H]⟩ : Shape).size a := fun hall => by
      have h0 := hall 0
      rw [hst0, hwi0] at h0
      apply hx
      have h0' : 0 ≤ (idx (ix2 e 0)).toInt + ((0 : Nat) : Int) ∧ (idx (ix2 e 0)).toInt + ((0 : Nat) : Int) < (N : Int) := h0
      omega
    rw [dif_neg hnall, dif_neg hx]
    rfl

end Rows

/-- The scatter-add of rows into a matrix, at (i, j): the operand there plus column `j` of the update rows whose
    index word names row `i`. -/
theorem scatterAdd_rows_apply {N H E w : Nat}
    (d : ScatterDims ⟨2, ![N, H]⟩ ⟨2, ![E, 1]⟩ ⟨2, ![E, H]⟩)
    (hu : d.updateWindowDims = [1]) (hi : d.insertedWindowDims = [0])
    (hs : d.scatterDimsToOperandDims = [0]) (hv : d.indexVectorDim = 1)
    (x : (⟨2, ![N, H]⟩ : Shape).Idx → EReal) (idx : IVec ⟨2, ![E, 1]⟩ w) (upd : (⟨2, ![E, H]⟩ : Shape).Idx → EReal)
    (i : Fin N) (j : Fin H) :
    Ideal.hostScatterAdd d x idx upd (ix2 i j)
      = x (ix2 i j) + ∑ e ∈ Finset.univ.filter (fun e : Fin E => tgtW N (idx (ix2 e 0)) = some i), upd (ix2 e j) := by
  show x (ix2 i j) + ∑ u ∈ Finset.univ.filter (fun u => d.resultIdx? u idx = some (ix2 i j)), upd u = _
  congr 1
  rw [Finset.sum_filter, Finset.sum_filter, sum_idx2]
  refine Finset.sum_congr rfl fun e _ => ?_
  have hiff : ∀ c : Fin H, d.resultIdx? (ix2 e c) idx = some (ix2 i j) ↔ (tgtW N (idx (ix2 e 0)) = some i ∧ c = j) := by
    intro c
    rw [resultIdx?_rows d hu hi hs hv idx e c]
    cases tgtW N (idx (ix2 e 0)) with
    | none => simp
    | some r =>
      simp only [Option.map_some, Option.some.injEq]
      constructor
      · intro h'
        exact ⟨congrFun h' 0, congrFun h' 1⟩
      · rintro ⟨h1, h2⟩
        rw [h1, h2]
  by_cases hq : tgtW N (idx (ix2 e 0)) = some i
  · rw [if_pos hq]
    rw [Finset.sum_eq_single j]
    · rw [if_pos ((hiff j).2 ⟨hq, rfl⟩)]
    · intro c _ hcj
      rw [if_neg (fun h => hcj ((hiff c).1 h).2)]
    · intro hj
      exact absurd (Finset.mem_univ j) hj
  · rw [if_neg hq]
    refine Finset.sum_eq_zero fun c _ => ?_
    rw [if_neg (fun h => hq ((hiff c).1 h).1)]

/-! ## The row gather -/

section GatherRows

variable {N H E w : Nat} (d : GatherDims ⟨2, ![N, H]⟩ ⟨2, ![E, 1]⟩ ⟨2, ![E, H]⟩)

/-- The operand's kept axis is the column axis (the row axis is collapsed). -/
theorem gather_sKept_rows (hcoll : d.collapsedSliceDims = [0]) (hob : d.operandBatchingDims = []) : d.sKept = [1] := by
  show (List.finRange 2).filter (fun a => a ∉ d.collapsedSliceDims ++ d.operandBatchingDims) = [1]
  rw [hcoll, hob]
  exact (by decide : (List.finRange 2).filter (fun a : Fin 2 => a ∉ [(0 : Fin 2)] ++ []) = [(1 : Fin 2)])

/-- The result's batch axis is axis 0 (axis 1 is the offset axis). -/
theorem gather_batchDims_rows (hoff : d.offsetDims = [1]) : d.batchDims = [0] := by
  show (List.finRange 2).filter (fun a => a ∉ d.offsetDims) = [0]
  rw [hoff]
  exact (by decide : (List.finRange 2).filter (fun a : Fin 2 => a ∉ [(1 : Fin 2)]) = [(0 : Fin 2)])

/-- Result index (e, j) reads its start index at row `e` of the column of index words. -/
theorem gather_siIdx_rows (hoff : d.offsetDims = [1]) (hsim : d.startIndexMap = [0]) (hivd : d.indexVectorDim = 1)
    (e : Fin E) (j : Fin H) (c : Fin d.startIndexMap.length) :
    d.siIdx (ix2 e j) c = ix2 e 0 := by
  funext b
  match b with
  | ⟨0, _⟩ =>
    unfold GatherDims.siIdx
    rw [dif_neg (by rw [hivd]; simp)]
    unfold GatherDims.siCoord
    apply Fin.ext
    simp only [Fin.val_cast]
    refine ix2_val_axis0 e j _ ?_
    have hall : ∀ X ∈ d.batchDims, X = 0 := by
      rw [gather_batchDims_rows d hoff]; intro X hX; exact List.mem_singleton.mp hX
    exact hall _ (List.getElem_mem _)
  | ⟨1, _⟩ =>
    unfold GatherDims.siIdx
    rw [dif_pos (by rw [hivd])]
    apply Fin.ext
    show c.val = 0
    have hlen : d.startIndexMap.length = 1 := by rw [hsim]; rfl
    have hc := c.isLt
    omega

/-- The start of the slice on the row axis: the e-th index word read signed and clamped into [0, N − 1]. -/
theorem gather_start_rows0 (hoff : d.offsetDims = [1]) (hcoll : d.collapsedSliceDims = [0])
    (hsim : d.startIndexMap = [0]) (hivd : d.indexVectorDim = 1)
    (idx : IVec ⟨2, ![E, 1]⟩ w) (e : Fin E) (j : Fin H) :
    d.start (ix2 e j) idx 0 = min (idx (ix2 e 0)).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, gather_siIdx_rows d hoff hsim hivd e j]
  show min (idx (ix2 e 0)).toInt.toNat (N - d.sliceSizes 0) = _
  rw [hsl]

/-- The start index names no column: the slice starts at column 0. -/
theorem gather_start_rows1 (hsim : d.startIndexMap = [0])
    (idx : IVec ⟨2, ![E, 1]⟩ w) (y : (⟨2, ![E, H]⟩ : Shape).Idx) : d.start y idx 1 = 0 := by
  have hm : (1 : Fin 2) ∉ d.startIndexMap := by
    rw [hsim]; exact (by decide : (1 : Fin 2) ∉ [(0 : Fin 2)])
  unfold GatherDims.start
  rw [dif_neg hm]

/-- The offset coordinate on the column axis is the result's column. -/
theorem gather_offCoord_rows1 (hoff : d.offsetDims = [1]) (hcoll : d.collapsedSliceDims = [0])
    (hob : d.operandBatchingDims = []) (e : Fin E) (j : Fin H) :
    d.offCoord (ix2 e j) 1 = j.val := by
  have hk : (1 : Fin 2) ∈ d.sKept := by rw [gather_sKept_rows d hcoll hob]; exact List.mem_singleton.mpr rfl
  unfold GatherDims.offCoord
  rw [dif_pos hk]
  refine ix2_val_axis1 e j _ ?_
  have hall : ∀ X ∈ d.offsetDims, X = 1 := by
    rw [hoff]; intro X hX; exact List.mem_singleton.mp hX
  exact hall _ (List.getElem_mem _)

end GatherRows

/-- The gather of rows of a matrix, at (e, j): column `j` of the row the e-th index word names. -/
theorem gather_rows_apply {α : Type} {N H E w : Nat} (hN : 0 < N)
    (d : GatherDims ⟨2, ![N, H]⟩ ⟨2, ![E, 1]⟩ ⟨2, ![E, H]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, H])
    (x : (⟨2, ![N, H]⟩ : Shape).Idx → α) (idx : IVec ⟨2, ![E, 1]⟩ w) (e : Fin E) (j : Fin H) :
    Host.gather d x idx (ix2 e j) = x (ix2 (rowW N hN (idx (ix2 e 0))) j) := by
  unfold Host.gather
  congr 1
  have hb : ∀ a : Fin 2, a ∉ d.operandBatchingDims := fun a => by rw [hob]; exact List.not_mem_nil
  have hk0 : (0 : Fin 2) ∉ d.sKept := by
    rw [gather_sKept_rows d hcoll hob]; exact (by decide : (0 : Fin 2) ∉ [(1 : Fin 2)])
  have hpt : ∀ a : Fin 2, d.operandIdx (ix2 e j) idx a
      = (ix2 (rowW N hN (idx (ix2 e 0))) j : (⟨2, ![N, H]⟩ : Shape).Idx) a := by
    refine Fin.forall_fin_two.2 ⟨?_, ?_⟩
    · apply Fin.ext
      show d.start (ix2 e j) idx 0 + d.batchCoord (ix2 e j) 0 + d.offCoord (ix2 e j) 0
        = min (idx (ix2 e 0)).toInt.toNat (N - 1)
      rw [GatherDims.batchCoord_eq_zero _ _ _ (hb 0), GatherDims.offCoord_eq_zero _ _ _ hk0,
        gather_start_rows0 d hoff hcoll hsim hivd idx e j]
      simp only [Nat.add_zero]
    · apply Fin.ext
      show d.start (ix2 e j) idx 1 + d.batchCoord (ix2 e j) 1 + d.offCoord (ix2 e j) 1 = j.val
      rw [GatherDims.batchCoord_eq_zero _ _ _ (hb 1), gather_offCoord_rows1 d hoff hcoll hob e j,
        gather_start_rows1 d hsim idx (ix2 e j)]
      omega
  funext a
  exact hpt a

/-- The gather of entries of a vector, at `e`: the entry the e-th index word names (the library's take, restated
    with `rowW`). -/
theorem gather_vec_apply {α : Type} {N E w : Nat} (hN : 0 < N)
    (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) :
    Host.gather d x idx (ix1 e) = x (ix1 (rowW N hN (idx (ix2 e 0)))) := by
  have h := StableHlo.Predicate.gather_take d hcoll hob hsim hivd x idx e hN
  have h1 : (Shape.Idx.ofFin e : (⟨1, ![E]⟩ : Shape).Idx) = ix1 e := by
    funext a
    match a with
    | ⟨0, _⟩ => rfl
  have h2 : (StableHlo.Predicate.ixP e : (⟨2, ![E, 1]⟩ : Shape).Idx) = ix2 e 0 := by
    funext a
    match a with
    | ⟨0, _⟩ => rfl
    | ⟨1, _⟩ => rfl
  rw [h1] at h
  rw [h]
  congr 1
  funext a
  match a with
  | ⟨0, _⟩ =>
    apply Fin.ext
    show min (idx (StableHlo.Predicate.ixP e)).toInt.toNat (N - 1) = min (idx (ix2 e 0)).toInt.toNat (N - 1)
    rw [h2]

end Cert.ScatterGather

end
-- ==== Proof.RFinite.lean ====
/- Finite inputs give finite values at every stage of the reference: a gathered row is a row of the operand, a
   scattered sum is a finite sum of update entries, the neighbour count is a real number at least one after the
   clamp, so the mean is real; the linear maps and clamps keep reals real. -/
import proofs.«171139_j32804960207226_1_alg».proof.Proof.ReadP
import proofs.«171139_j32804960207226_1_alg».proof.Proof.Spec
import proofs.«171139_j32804960207226_1_alg».proof.Proof.Algebra
import proofs.«171139_j32804960207226_1_alg».proof.Proof.RLayers
import proofs.«171139_j32804960207226_1_alg».proof.Proof.LibScatterGather
import proofs.«171139_j32804960207226_1_alg».proof.Proof.LibERealBatchNorm
import Idealize.ShloMosaic.Lib.Pipeline.Value
import Idealize.ShloMosaic.Lib.ValueIdx
import Idealize.ShloMosaic.Lib.ValueLayout

noncomputable section

namespace Cert.ReferenceIdeal.RFinite

open Cert.ReferenceIdeal Cert.ReferenceIdeal.ReadP
open Idealize.ShloMosaic Idealize.ShloMosaic.ValueIdx Cert.ERealBN

open Cert.ScatterGather
open scoped BigOperators

/-- A gathered row is a row of the operand, whatever the index words are. -/
private theorem gather_isReal {M H E w : Nat} (hM : 0 < M)
    (d : GatherDims ⟨2, ![M, H]⟩ ⟨2, ![E, 1]⟩ ⟨2, ![E, H]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, H])
    (x : (⟨2, ![M, H]⟩ : Shape).Idx → EReal) (idx : IVec ⟨2, ![E, 1]⟩ w) (hx : ∀ i, IsReal (x i))
    (i : (⟨2, ![E, H]⟩ : Shape).Idx) : IsReal (Host.gather d x idx i) := by
  obtain ⟨e, j, rfl⟩ : ∃ e j, i = ix2 e j := ⟨i 0, i 1, eq_ix2 i⟩
  rw [gather_rows_apply hM d hoff hcoll hob hsb hsim hivd hss]
  exact hx _

/-- A segment sum of real rows into a real matrix is real: each entry is the old entry plus a finite sum. -/
private theorem scatterRows_isReal {N H E w : Nat}
    (d : ScatterDims ⟨2, ![N, H]⟩ ⟨2, ![E, 1]⟩ ⟨2, ![E, H]⟩)
    (hu : d.updateWindowDims = [1]) (hi : d.insertedWindowDims = [0])
    (hs : d.scatterDimsToOperandDims = [0]) (hv : d.indexVectorDim = 1)
    (x : (⟨2, ![N, H]⟩ : Shape).Idx → EReal) (idx : IVec ⟨2, ![E, 1]⟩ w) (upd : (⟨2, ![E, H]⟩ : Shape).Idx → EReal)
    (hx : ∀ i, IsReal (x i)) (hupd : ∀ i, IsReal (upd i))
    (i : (⟨2, ![N, H]⟩ : Shape).Idx) : IsReal (Ideal.hostScatterAdd d x idx upd i) := by
  obtain ⟨r, q, rfl⟩ : ∃ r q, i = ix2 r q := ⟨i 0, i 1, eq_ix2 i⟩
  rw [scatterAdd_rows_apply d hu hi hs hv]
  exact IsReal.add (hx _) (IsReal.sum _ _ (fun e _ => hupd _))

/-- The neighbour count clamped below by one is a nonzero real: a finite sum of ones, then the maximum with one. -/
private theorem count_clamped {N E w : Nat}
    (d : ScatterDims ⟨1, ![N]⟩ ⟨2, ![E, 1]⟩ ⟨1, ![E]⟩)
    (hu : d.updateWindowDims = []) (hi : d.insertedWindowDims = [0])
    (hs : d.scatterDimsToOperandDims = [0]) (hv : d.indexVectorDim = 1)
    (x : (⟨1, ![N]⟩ : Shape).Idx → EReal) (idx : IVec ⟨2, ![E, 1]⟩ w) (upd : (⟨1, ![E]⟩ : Shape).Idx → EReal)
    (hx : ∀ i, x i = 0) (hupd : ∀ i, upd i = ((1 : ℝ) : EReal))
    (i : (⟨1, ![N]⟩ : Shape).Idx) :
    ∃ r : ℝ, r ≠ 0 ∧ max (Ideal.hostScatterAdd d x idx upd i) ((1 : ℝ) : EReal) = (r : EReal) := by
  obtain ⟨k, rfl⟩ : ∃ k, i = ix1 k := ⟨i 0, eq_ix1 i⟩
  rw [scatterAdd_vec_apply d hu hi hs hv, hx, zero_add]
  simp_rw [hupd]
  rw [coe_sum]
  generalize (∑ e ∈ Finset.univ.filter (fun e : Fin E => tgtW N (idx (ix2 e 0)) = some k), (1 : ℝ)) = a
  rcases le_total a 1 with h | h
  · exact ⟨1, one_ne_zero, max_eq_right (EReal.coe_le_coe_iff.2 h)⟩
  · exact ⟨a, (lt_of_lt_of_le one_pos h).ne', max_eq_left (EReal.coe_le_coe_iff.2 h)⟩

/-- The mean aggregation keeps reals real: gathered rows of a real array, summed by target, divided by the
    clamped neighbour count. -/
private theorem agg_isReal {M N H E w w' w'' : Nat} (hM : 0 < M)
    (dg : GatherDims ⟨2, ![M, H]⟩ ⟨2, ![E, 1]⟩ ⟨2, ![E, H]⟩)
    (hoff : dg.offsetDims = [1]) (hcoll : dg.collapsedSliceDims = [0]) (hob : dg.operandBatchingDims = [])
    (hsb : dg.startIndicesBatchingDims = []) (hsim : dg.startIndexMap = [0]) (hivd : dg.indexVectorDim = 1)
    (hss : dg.sliceSizes = ![1, H])
    (ds : ScatterDims ⟨2, ![N, H]⟩ ⟨2, ![E, 1]⟩ ⟨2, ![E, H]⟩)
    (hu : ds.updateWindowDims = [1]) (hi : ds.insertedWindowDims = [0])
    (hs : ds.scatterDimsToOperandDims = [0]) (hv : ds.indexVectorDim = 1)
    (dc : ScatterDims ⟨1, ![N]⟩ ⟨2, ![E, 1]⟩ ⟨1, ![E]⟩)
    (hu' : dc.updateWindowDims = []) (hi' : dc.insertedWindowDims = [0])
    (hs' : dc.scatterDimsToOperandDims = [0]) (hv' : dc.indexVectorDim = 1)
    (h : FVec Ideal ⟨2, ![M, H]⟩ .f32) (src : IVec ⟨2, ![E, 1]⟩ w) (dst : IVec ⟨2, ![E, 1]⟩ w') (dst' : IVec ⟨2, ![E, 1]⟩ w'')
    (z : FVec Ideal ⟨2, ![N, H]⟩ .f32) (zc : FVec Ideal ⟨1, ![N]⟩ .f32) (ones : FVec Ideal ⟨1, ![E]⟩ .f32)
    (cnt : FVec Ideal ⟨2, ![N, H]⟩ .f32)
    (hh : ∀ i, IsReal (h i)) (hz : ∀ i, IsReal (z i)) (hzc : ∀ i, zc i = 0) (hones : ∀ i, ones i = ((1 : ℝ) : EReal))
    (hcnt : ∀ i, ∃ k, cnt i = max (Host.scatterAdd dc zc dst' ones k) ((1 : ℝ) : EReal))
    (i : (⟨2, ![N, H]⟩ : Shape).Idx) :
    IsReal (Host.divf (Host.scatterAdd ds z dst (Host.gather dg h src)) cnt i) := by
  show IsReal (Ideal.div (Ideal.hostScatterAdd ds z dst (Host.gather dg h src) i) (cnt i))
  obtain ⟨k, hk⟩ := hcnt i
  obtain ⟨r, hr, hmax⟩ := count_clamped dc hu' hi' hs' hv' zc dst' ones hzc hones k
  have hc : cnt i = (r : EReal) := hk.trans hmax
  rw [hc]
  refine IsReal.div_coe ?_ hr
  exact scatterRows_isReal ds hu hi hs hv z dst _ hz
    (gather_isReal hM dg hoff hcoll hob hsb hsim hivd hss h src hh) i

variable (x0 : (⟨S1024000x128, .f32⟩ : BufTy).Contents (Elt Ideal)) (x1 : (⟨S1024000, .i32⟩ : BufTy).Contents (Elt Ideal)) (x2 : (⟨S1024000, .i32⟩ : BufTy).Contents (Elt Ideal)) (x3 : (⟨S102400, .i32⟩ : BufTy).Contents (Elt Ideal)) (x4 : (⟨S102400, .i32⟩ : BufTy).Contents (Elt Ideal)) (x5 : (⟨S10240, .i32⟩ : BufTy).Contents (Elt Ideal)) (x6 : (⟨S10240, .i32⟩ : BufTy).Contents (Elt Ideal)) (x7 : (⟨S128x256, .f32⟩ : BufTy).Contents (Elt Ideal)) (x8 : (⟨S256, .f32⟩ : BufTy).Contents (Elt Ideal)) (x9 : (⟨S128x256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal)) (x13 : (⟨S256x47, .f32⟩ : BufTy).Contents (Elt Ideal)) (x14 : (⟨S47, .f32⟩ : BufTy).Contents (Elt Ideal)) (x15 : (⟨S256x47, .f32⟩ : BufTy).Contents (Elt Ideal))

/-- The zero word reads as a real number. -/
private theorem zeroWord_isReal : IsReal (Ideal.ofBits .f32 0x00000000#32) := by
  rw [ofBits_zero]; exact IsReal.zero

/-- The first aggregate: the mean over each node's sampled neighbours of the input rows. -/
private theorem real_v19 (h0 : ∀ i, IsReal (x0 i)) : ∀ i, IsReal (val_main_v19 (F := Ideal) x0 x1 x2 i) := by
  intro i
  unfold val_main_v19 val_main_v10 val_main_v7
  refine agg_isReal (by omega) gather_S1024000x128_S1024000x1_S1024000x128_1_0_n_n_0_1_1128 rfl rfl rfl rfl rfl rfl rfl
    scatter_S102400x128_S1024000x1_S1024000x128_1_0_0_1 rfl rfl rfl rfl
    scatter_S102400_S1024000x1_S1024000_n_0_0_1 rfl rfl rfl rfl
    x0 (val_main_v6 (F := Ideal) x1) (val_main_v9 (F := Ideal) x2) (val_main_v13 (F := Ideal) x2)
    (val_main_v8 (F := Ideal)) (val_main_v12 (F := Ideal)) (val_main_v11 (F := Ideal)) (val_main_v18 (F := Ideal) x2)
    h0 ?_ ?_ ?_ ?_ i
  · intro j
    rw [val_main_v8_apply, val_main_cst_apply]
    exact zeroWord_isReal
  · intro j
    rw [val_main_v12_apply, val_main_cst_2_apply]
    exact ofBits_zero
  · intro j
    rw [val_main_v11_apply, val_main_cst_1_apply]
    exact ofBits_one
  · intro j
    refine ⟨idx_main_v17 (idx_main_v18 j), ?_⟩
    rw [val_main_v18_apply, val_main_v17_apply, val_main_v16_apply, val_main_v15_apply, val_main_cst_3_apply]
    show max (val_main_v14 (F := Ideal) x2 _) (Ideal.ofBits .f32 0x3F800000#32) = _
    rw [ofBits_one]
    rfl

/-- The first hidden layer. -/
private theorem real_v26 (h0 : ∀ i, IsReal (x0 i)) (h7 : ∀ i, IsReal (x7 i)) (h8 : ∀ i, IsReal (x8 i)) (h9 : ∀ i, IsReal (x9 i)) :
    ∀ i, IsReal (val_main_v26 (F := Ideal) x0 x1 x2 x7 x8 x9 i) := by
  rw [RLayers.layer1]
  intro i
  refine Sage.relu_isReal _ (Sage.lin_isReal _ _ _ _ _ (real_v19 x0 x1 x2 h0) ?_ h7 h9 (fun b => h8 _)) i
  intro j
  rw [val_main_v0_apply]
  exact h0 _

/-- The second aggregate: the same mean, of the first hidden layer's rows. -/
private theorem real_v46 (h26 : ∀ i, IsReal (val_main_v26 (F := Ideal) x0 x1 x2 x7 x8 x9 i)) :
    ∀ i, IsReal (val_main_v46 (F := Ideal) x0 x1 x2 x3 x4 x7 x8 x9 i) := by
  intro i
  unfold val_main_v46 val_main_v37 val_main_v34
  refine agg_isReal (by omega) gather_S102400x256_S102400x1_S102400x256_1_0_n_n_0_1_1256 rfl rfl rfl rfl rfl rfl rfl
    scatter_S10240x256_S102400x1_S102400x256_1_0_0_1 rfl rfl rfl rfl
    scatter_S10240_S102400x1_S102400_n_0_0_1 rfl rfl rfl rfl
    (val_main_v26 (F := Ideal) x0 x1 x2 x7 x8 x9) (val_main_v33 (F := Ideal) x3) (val_main_v36 (F := Ideal) x4) (val_main_v40 (F := Ideal) x4)
    (val_main_v35 (F := Ideal)) (val_main_v39 (F := Ideal)) (val_main_v38 (F := Ideal)) (val_main_v45 (F := Ideal) x4)
    h26 ?_ ?_ ?_ ?_ i
  · intro j
    rw [val_main_v35_apply, val_main_cst_6_apply]
    exact zeroWord_isReal
  · intro j
    rw [val_main_v39_apply, val_main_cst_8_apply]
    exact ofBits_zero
  · intro j
    rw [val_main_v38_apply, val_main_cst_7_apply]
    exact ofBits_one
  · intro j
    refine ⟨idx_main_v44 (idx_main_v45 j), ?_⟩
    rw [val_main_v45_apply, val_main_v44_apply, val_main_v43_apply, val_main_v42_apply, val_main_cst_9_apply]
    show max (val_main_v41 (F := Ideal) x4 _) (Ideal.ofBits .f32 0x3F800000#32) = _
    rw [ofBits_one]
    rfl

/-- The second hidden layer. -/
private theorem real_v53 (h26 : ∀ i, IsReal (val_main_v26 (F := Ideal) x0 x1 x2 x7 x8 x9 i))
    (h10 : ∀ i, IsReal (x10 i)) (h11 : ∀ i, IsReal (x11 i)) (h12 : ∀ i, IsReal (x12 i)) :
    ∀ i, IsReal (val_main_v53 (F := Ideal) x0 x1 x2 x3 x4 x7 x8 x9 x10 x11 x12 i) := by
  rw [RLayers.layer2]
  intro i
  refine Sage.relu_isReal _ (Sage.lin_isReal _ _ _ _ _ (real_v46 x0 x1 x2 x3 x4 x7 x8 x9 h26) ?_ h10 h12 (fun b => h11 _)) i
  intro j
  rw [val_main_v27_apply]
  exact h26 _

/-- The third aggregate: the same mean, of the second hidden layer's rows. -/
private theorem real_v73 (h53 : ∀ i, IsReal (val_main_v53 (F := Ideal) x0 x1 x2 x3 x4 x7 x8 x9 x10 x11 x12 i)) :
    ∀ i, IsReal (val_main_v73 (F := Ideal) x0 x1 x2 x3 x4 x5 x6 x7 x8 x9 x10 x11 x12 i) := by
  intro i
  unfold val_main_v73 val_main_v64 val_main_v61
  refine agg_isReal (by omega) gather_S10240x256_S10240x1_S10240x256_1_0_n_n_0_1_1256 rfl rfl rfl rfl rfl rfl rfl
    scatter_S1024x256_S10240x1_S10240x256_1_0_0_1 rfl rfl rfl rfl
    scatter_S1024_S10240x1_S10240_n_0_0_1 rfl rfl rfl rfl
    (val_main_v53 (F := Ideal) x0 x1 x2 x3 x4 x7 x8 x9 x10 x11 x12) (val_main_v60 (F := Ideal) x5) (val_main_v63 (F := Ideal) x6) (val_main_v67 (F := Ideal) x6)
    (val_main_v62 (F := Ideal)) (val_main_v66 (F := Ideal)) (val_main_v65 (F := Ideal)) (val_main_v72 (F := Ideal) x6)
    h53 ?_ ?_ ?_ ?_ i
  · intro j
    rw [val_main_v62_apply, val_main_cst_12_apply]
    exact zeroWord_isReal
  · intro j
    rw [val_main_v66_apply, val_main_cst_14_apply]
    exact ofBits_zero
  · intro j
    rw [val_main_v65_apply, val_main_cst_13_apply]
    exact ofBits_one
  · intro j
    refine ⟨idx_main_v71 (idx_main_v72 j), ?_⟩
    rw [val_main_v72_apply, val_main_v71_apply, val_main_v70_apply, val_main_v69_apply, val_main_cst_15_apply]
    show max (val_main_v68 (F := Ideal) x6 _) (Ideal.ofBits .f32 0x3F800000#32) = _
    rw [ofBits_one]
    rfl

/-- Every entry of the last layer is a real number when every float argument is. -/
theorem real_v79 (h0 : ∀ i, IsReal (x0 i)) (h7 : ∀ i, IsReal (x7 i)) (h8 : ∀ i, IsReal (x8 i)) (h9 : ∀ i, IsReal (x9 i)) (h10 : ∀ i, IsReal (x10 i)) (h11 : ∀ i, IsReal (x11 i)) (h12 : ∀ i, IsReal (x12 i)) (h13 : ∀ i, IsReal (x13 i)) (h14 : ∀ i, IsReal (x14 i)) (h15 : ∀ i, IsReal (x15 i)) :
    ∀ i, IsReal (val_main_v79 (F := Ideal) x0 x1 x2 x3 x4 x5 x6 x7 x8 x9 x10 x11 x12 x13 x14 x15 i) := by
  have h26 := real_v26 x0 x1 x2 x7 x8 x9 h0 h7 h8 h9
  have h53 := real_v53 x0 x1 x2 x3 x4 x7 x8 x9 x10 x11 x12 h26 h10 h11 h12
  rw [RLayers.layer3]
  intro i
  refine Sage.lin_isReal _ _ _ _ _ (real_v73 x0 x1 x2 x3 x4 x5 x6 x7 x8 x9 x10 x11 x12 h53) ?_ h13 h15 (fun b => h14 _) i
  intro j
  rw [val_main_v54_apply]
  exact h53 _

end Cert.ReferenceIdeal.RFinite

end
-- ==== Proof.PreFinite.lean ====
/- The precondition read back: every entry of every float argument is a real number. -/
import proofs.«171139_j32804960207226_1_alg».proof.Defs
import proofs.«171139_j32804960207226_1_alg».proof.Proof.Gen.Pre_finite_inputs
import proofs.«171139_j32804960207226_1_alg».proof.Proof.LibERealBatchNorm
import Idealize.ShloMosaic.Lib.ReduceAll
import Idealize.ShloMosaic.Lib.ValueIdx

noncomputable section

namespace Cert.KernelIdeal.PreFinite

open Cert.KernelIdeal
open Idealize.ShloMosaic Idealize.ShloMosaic.TcCoe Idealize.ShloMosaic.ValueIdx Cert.ERealBN

/-- A rank-0 shape has exactly one index. -/
private instance : Subsingleton (⟨0, ![]⟩ : Shape).Idx := ⟨fun a b => funext fun d => d.elim0⟩

/-- The pattern with sign 0, exponent all ones and fraction 0 denotes +∞. -/
private theorem ofBits_inf : Ideal.ofBits .f32 0x7F800000#32 = (⊤ : EReal) := by
  simp [Ideal.ofBits, Ideal.ieee]

/-- An extended real whose absolute value max(x, −x) lies strictly below +∞ is a real number: at −∞ and at +∞
    the absolute value is +∞. -/
private theorem isReal_of_abs_lt_top (x : EReal) (h : max x (-x) < ⊤) : IsReal x := by
  induction x using EReal.rec with
  | bot => simp at h
  | coe r => exact ⟨r, rfl⟩
  | top => simp at h

/-- If the conjunction over all entries of |x| < +∞ is true, every entry of x is real. -/
private theorem real_of_all {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
        (cmpf .olt (Host.absf x) (broadcastInDim s ![] hb (constant (⟨0, ![]⟩ : Shape) .f32 0x7F800000#32)))
        (constantI ⟨0, ![]⟩ 1 1#1) hr hu ix0 = 1#1) (i : s.Idx) : IsReal (x i) := by
  -- the conjunction being true, the comparison at index i is true
  have h := Host.reduce_andi_all _ _ hr hu ix0 e i
  -- the comparison at i is the strict order between max(x i, −x i) and the constant, which is +∞
  have h' : BitVec.ofBool (decide (max (x i) (-(x i)) < Ideal.ofBits .f32 0x7F800000#32)) = 1#1 := h
  rw [ofBits_inf] at h'
  by_cases hlt : max (x i) (-(x i)) < ⊤
  · exact isReal_of_abs_lt_top _ hlt
  · rw [decide_eq_false hlt] at h'
    exact absurd h' (by decide)

variable [hPre : Cert.Pre_finite_inputs.Facts]

/-- Under the precondition each float argument holds real numbers only. -/
theorem real_of_pre (m : (ℓ : Loc nD τ sig) → Buf (Elt Ideal) ℓ) (hpre : Cert.Pre_KernelIdeal m) (c : Dev nD) :
    (∀ i, IsReal (m ((c.tc : Thread nD τ).loc main_arg0) i))
    ∧ (∀ i, IsReal (m ((c.tc : Thread nD τ).loc main_arg7) i))
    ∧ (∀ i, IsReal (m ((c.tc : Thread nD τ).loc main_arg8) i))
    ∧ (∀ i, IsReal (m ((c.tc : Thread nD τ).loc main_arg9) i))
    ∧ (∀ i, IsReal (m ((c.tc : Thread nD τ).loc main_arg10) i))
    ∧ (∀ i, IsReal (m ((c.tc : Thread nD τ).loc main_arg11) i))
    ∧ (∀ i, IsReal (m ((c.tc : Thread nD τ).loc main_arg12) i))
    ∧ (∀ i, IsReal (m ((c.tc : Thread nD τ).loc main_arg13) i))
    ∧ (∀ i, IsReal (m ((c.tc : Thread nD τ).loc main_arg14) i))
    ∧ (∀ i, IsReal (m ((c.tc : Thread nD τ).loc main_arg15) i)) := by
  -- the predicate's one entry, unfolded to the conjunction of its ten reductions
  have h := congrFun (hpre c) ix0
  dsimp only [Cert.Pre_finite_inputs.fn, Cert.Pre_finite_inputs.fn_part1, Cert.Pre_finite_inputs.fn_part2,
    Idealize.ShloMosaic.andi] at h
  simp only [IntOp.andi_eq_one] at h
  obtain ⟨⟨⟨⟨⟨⟨⟨⟨⟨h0, h7⟩, h8⟩, h9⟩, h10⟩, h11⟩, h12⟩, h13⟩, h14⟩, h15⟩ := h
  exact ⟨real_of_all _ _ _ _ h0, real_of_all _ _ _ _ h7, real_of_all _ _ _ _ h8, real_of_all _ _ _ _ h9,
    real_of_all _ _ _ _ h10, real_of_all _ _ _ _ h11, real_of_all _ _ _ _ h12, real_of_all _ _ _ _ h13,
    real_of_all _ _ _ _ h14, real_of_all _ _ _ _ h15⟩

end Cert.KernelIdeal.PreFinite

end
-- ==== Proof.Bridge.lean ====
/- The bridge: in the kernel's run, each region's output array is the reference's stage of the same launch
   arguments. Layer by layer: the region's array is the clamped linear map of the arrays it was entered with; those
   arrays are the reference's aggregate and leading rows of the previous layer (the host stretches are the same
   operations on both sides); and the reference's layer is the same linear map. For the log-probabilities the
   kernel groups  h − (m + log Σ)  and the reference  (h − m) − log Σ,  equal because the precondition makes every
   entry of the last layer a real number. -/
import proofs.«171139_j32804960207226_1_alg».proof.Proof.KVal0
import proofs.«171139_j32804960207226_1_alg».proof.Proof.KVal1
import proofs.«171139_j32804960207226_1_alg».proof.Proof.KVal2
import proofs.«171139_j32804960207226_1_alg».proof.Proof.KHost
import proofs.«171139_j32804960207226_1_alg».proof.Proof.RLayers
import proofs.«171139_j32804960207226_1_alg».proof.Proof.RFinite
import proofs.«171139_j32804960207226_1_alg».proof.Proof.PreFinite
import proofs.«171139_j32804960207226_1_alg».proof.Proof.Algebra

set_option maxRecDepth 16384

noncomputable section

namespace Cert.KernelIdeal.Bridge

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-- Region 0's output array is the reference's first hidden layer. -/
theorem out1 (c : Dev nD) :
    W2 m ρ c (Proc.devRef .tc main_v21) = Cert.ReferenceIdeal.ReadP.val_main_v26 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) := by
  refine (W2_arr m ρ c 5).trans ((KVal0.arr0 (V1 m ρ) c).trans ?_)
  rw [KHost.V1_agg m ρ c, KHost.V1_xd m ρ c, KHost.V1_wl m ρ c, KHost.V1_wr m ρ c]
  simp only [KHost.V1_bl m ρ c]
  exact (Cert.ReferenceIdeal.RLayers.layer1 _ _ _ _ _ _).symm

/-- Region 1's output array is the reference's second hidden layer. -/
theorem out2 (c : Dev nD) :
    W4 m ρ c (Proc.devRef .tc main_v43) = Cert.ReferenceIdeal.ReadP.val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (W4_arr m ρ c 5).trans ((KVal1.arr1 (V3 m ρ) c).trans ?_)
  rw [KHost.V3_agg m ρ c (out1 m ρ c), KHost.V3_xd m ρ c (out1 m ρ c), KHost.V3_wl m ρ c, KHost.V3_wr m ρ c]
  simp only [KHost.V3_bl m ρ c]
  exact (Cert.ReferenceIdeal.RLayers.layer2 _ _ _ _ _ _ _ _ _ _ _).symm

/-- What region 2 is entered with gives the reference's last layer as the linear map. -/
theorem lin3 (c : Dev nD) :
    Sage.lin (V5 m ρ c main_v63) (V5 m ρ c main_v44) (V5 m ρ c main_arg13) (V5 m ρ c main_arg15) (fun b => V5 m ρ c main_v64 (ix2 0 b))
      = Cert.ReferenceIdeal.ReadP.val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  rw [KHost.V5_agg m ρ c (out2 m ρ c), KHost.V5_xd m ρ c (out2 m ρ c), KHost.V5_wl m ρ c, KHost.V5_wr m ρ c]
  simp only [KHost.V5_bl m ρ c]
  exact (Cert.ReferenceIdeal.RLayers.layer3 _ _ _ _ _ _ _ _ _ _ _ _ _ _ _ _).symm

/-- The first result: the reference's last layer. -/
theorem out3_h (c : Dev nD) :
    W6 m ρ c (Proc.devRef .tc main_v65_0) = Cert.ReferenceIdeal.ReadP.val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  (W6_arr m ρ c 5).trans ((KVal2.arr2_h (V5 m ρ) c).trans (lin3 m ρ c))

/-- The second result: the reference's log-softmax, the two groupings agreeing on rows of reals. -/
theorem out3_logp [hPre : Cert.Pre_finite_inputs.Facts] (hpre : Cert.Pre_KernelIdeal m) (c : Dev nD) :
    W6 m ρ c (Proc.devRef .tc main_v65_1) = Cert.ReferenceIdeal.ReadP.val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  refine (W6_arr m ρ c 6).trans ((KVal2.arr2_logp (V5 m ρ) c).trans ?_)
  rw [lin3 m ρ c, Cert.ReferenceIdeal.RLayers.logp]
  obtain ⟨r0, r7, r8, r9, r10, r11, r12, r13, r14, r15⟩ := PreFinite.real_of_pre m hpre c
  exact Sage.lsmK_eq_lsmR _ (by decide) (Cert.ReferenceIdeal.RFinite.real_v79 _ _ _ _ _ _ _ _ _ _ _ _ _ _ _ _ r0 r7 r8 r9 r10 r11 r12 r13 r14 r15)

end Cert.KernelIdeal.Bridge

end
-- ==== Proof.Claims.lean ====
/- The five claims. The word-level kernel and its idealization run to the end with their arguments unchanged (the
   generated frames); the reference does too (its run, the results dropped); the idealization rewrote nothing; and at
   the extended reals the kernel's two result arrays are the reference's: the last layer's linear map, and its
   row-wise log-softmax, for arguments that agree and are finite. -/
import proofs.«171139_j32804960207226_1_alg».proof.Defs
import proofs.«171139_j32804960207226_1_alg».proof.Proof.Gen.Kernel
import proofs.«171139_j32804960207226_1_alg».proof.Proof.Gen.Kernel.Frame
import proofs.«171139_j32804960207226_1_alg».proof.Proof.Gen.KernelIdeal
import proofs.«171139_j32804960207226_1_alg».proof.Proof.Gen.KernelIdeal.Frame
import proofs.«171139_j32804960207226_1_alg».proof.Proof.Gen.ReferenceIdeal
import proofs.«171139_j32804960207226_1_alg».proof.Proof.Gen.Pre_finite_inputs
import proofs.«171139_j32804960207226_1_alg».proof.Proof.KRun
import proofs.«171139_j32804960207226_1_alg».proof.Proof.RunP
import proofs.«171139_j32804960207226_1_alg».proof.Proof.ReadP
import proofs.«171139_j32804960207226_1_alg».proof.Proof.Bridge

noncomputable section

namespace Cert.Proof.SageClaims

open Idealize.ShloMosaic Idealize.ShloMosaic.TcCoe Idealize.SL.Sem

/-- A function of sixteen arguments takes equal values at arguments that are equal one by one. -/
private theorem congr_sixteen {α0 α1 α2 α3 α4 α5 α6 α7 α8 α9 α10 α11 α12 α13 α14 α15 β : Type}
    (f : α0 → α1 → α2 → α3 → α4 → α5 → α6 → α7 → α8 → α9 → α10 → α11 → α12 → α13 → α14 → α15 → β)
    {a0 b0 : α0} {a1 b1 : α1} {a2 b2 : α2} {a3 b3 : α3} {a4 b4 : α4} {a5 b5 : α5} {a6 b6 : α6} {a7 b7 : α7} {a8 b8 : α8} {a9 b9 : α9} {a10 b10 : α10} {a11 b11 : α11} {a12 b12 : α12} {a13 b13 : α13} {a14 b14 : α14} {a15 b15 : α15}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) :
    f a0 a1 a2 a3 a4 a5 a6 a7 a8 a9 a10 a11 a12 a13 a14 a15 = f b0 b1 b2 b3 b4 b5 b6 b7 b8 b9 b10 b11 b12 b13 b14 b15 := by
  subst h0; subst h1; subst h2; subst h3; subst h4; subst h5; subst h6; subst h7; subst h8; subst h9; subst h10; subst h11; subst h12; subst h13; subst h14; subst h15
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote no operation. -/
theorem preserves : Cert.preserves_Kernel_KernelIdeal := trivial

/-- Both programs end with the reference's two stages of the kernel's launch arguments: the kernel by the bridge,
    the reference by its run read stage by stage, the arguments' agreement rewritten. -/
theorem algebraic : Cert.algebraic_KernelIdeal_ReferenceIdeal := by
  intro m ρ m' ρ' hpre hagree
  refine ⟨fun c => Cert.ReferenceIdeal.ReadP.val_main_v79 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.ReferenceIdeal.ReadP.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · refine (θ_run Cert.KernelIdeal.defs _ _).mono (fun r h c => ?_) (Cert.KernelIdeal.KRun.run_results (F := Ideal) m ρ)
    obtain ⟨h0, h1, hargs⟩ := h c
    exact ⟨h0.trans (Cert.KernelIdeal.Bridge.out3_h m ρ c), h1.trans (Cert.KernelIdeal.Bridge.out3_logp m ρ hpre c), hargs⟩
  · refine (θ_run Cert.ReferenceIdeal.defs _ _).mono (fun r h c => ?_) (Cert.ReferenceIdeal.ValueP.run (F := Ideal) m' ρ')
    obtain ⟨h0, h1, hargs⟩ := h c
    obtain ⟨e0, e1, e2, e3, e4, e5, e6, e7, e8, e9, e10, e11, e12, e13, e14, e15⟩ := hagree c
    refine ⟨h0.trans ((Cert.ReferenceIdeal.ReadP.val_main_v79_eq (F := Ideal) m' c).trans ?_),
      h1.trans ((Cert.ReferenceIdeal.ReadP.val_main_v80_eq (F := Ideal) m' c).trans ?_), hargs⟩
    · exact congr_sixteen (Cert.ReferenceIdeal.ReadP.val_main_v79 (F := Ideal)) e0 e1 e2 e3 e4 e5 e6 e7 e8 e9 e10 e11 e12 e13 e14 e15
    · exact congr_sixteen (Cert.ReferenceIdeal.ReadP.val_main_v80 (F := Ideal)) e0 e1 e2 e3 e4 e5 e6 e7 e8 e9 e10 e11 e12 e13 e14 e15

end Cert.Proof.SageClaims

end
-- ==== Proof.lean ====
/- A three-layer graph convolution (mean aggregation over sampled neighbours, two weight matrices and a bias per
   layer, a clamp at zero between layers, a log-softmax at the end), the dense part of each layer as a blocked
   kernel, against the same network written with whole-array operations.

   Over the extended reals the two programs compute the same two arrays. The aggregation (row gather, segment
   sum, division by the clamped neighbour count) is the same host computation on both sides. Each layer's dense
   part is  (Σₖ agg·Wl + bias) + Σₖ x·Wr  entry by entry, whatever the blocking and whichever order the three terms
   are added in, since extended-real addition is commutative and associative. The log-softmax is grouped
   h − (m + log Σ)  in the kernel and  (h − m) − log Σ  in the reference; these agree when the row maximum m is a
   real number, which finite inputs guarantee: every stage of the network maps real entries to real entries.

   Modules: Spec (the layer and the log-softmax as index functions), Algebra (reals stay real; the two groupings
   agree), KVal0/KVal1/KVal2 (each region's output array as one whole-array function), KHost (the host stretches
   between regions), RLayers and RFinite (the reference's stages and their finiteness), PreFinite (the
   precondition read back), KRun and RunP (the two runs with their results named), Bridge and Claims. -/
import proofs.«171139_j32804960207226_1_alg».proof.Defs
import proofs.«171139_j32804960207226_1_alg».proof.Proof.Claims
import proofs.«171139_j32804960207226_1_alg».proof.Proof.Gen.Kernel
import proofs.«171139_j32804960207226_1_alg».proof.Proof.Gen.KernelIdeal
import proofs.«171139_j32804960207226_1_alg».proof.Proof.Gen.ReferenceIdeal
import proofs.«171139_j32804960207226_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    SageClaims.frame_k, SageClaims.frame_ki, SageClaims.frame_ri, SageClaims.preserves, SageClaims.algebraic⟩

end Cert.Proof

end
